-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x400000 : Shape := ⟨2, ![2, 400000]⟩
abbrev S400000x1 : Shape := ⟨2, ![400000, 1]⟩
abbrev S128x16 : Shape := ⟨2, ![128, 16]⟩
abbrev S128 : Shape := ⟨1, ![128]⟩
abbrev S128x128 : Shape := ⟨2, ![128, 128]⟩
abbrev S128x1 : Shape := ⟨2, ![128, 1]⟩
abbrev S128x256 : Shape := ⟨2, ![128, 256]⟩
abbrev S64x128 : Shape := ⟨2, ![64, 128]⟩
abbrev S64 : Shape := ⟨1, ![64]⟩
abbrev S_ : Shape := ⟨0, ![]⟩
abbrev S1x400000 : Shape := ⟨2, ![1, 400000]⟩
abbrev S400000 : Shape := ⟨1, ![400000]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S400000x1 : S_.BroadcastsInDim S400000x1 (![] : Fin 0 → Fin S400000x1.rank)
  reducesTo_S400000x1_S_d0_1 : S400000x1.ReducesTo [0, 1] S_
  bcast_S_S128x16 : S_.BroadcastsInDim S128x16 (![] : Fin 0 → Fin S128x16.rank)
  reducesTo_S128x16_S_d0_1 : S128x16.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S128x256 : S_.BroadcastsInDim S128x256 (![] : Fin 0 → Fin S128x256.rank)
  reducesTo_S128x256_S_d0_1 : S128x256.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  reducesTo_S400000_S_d0 : S400000.ReducesTo [0] S_

variable [Facts]

def fn_part5 {F : FTy → Type} [FloatOps F] (main_arg1 : IVec S2x400000 32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : IVec S1x400000 32 := (extractStridedSlice S1x400000 ![0, 0] · slices_S2x400000_S1x400000_0_0) main_arg1
  let main_v90 : IVec S400000 32 := shapeCast S400000 main_v89 shapeCasts_S1x400000_S400000
  let main_c_34 : IVec S_ 32 := constantI S_ 32 0#32
  let main_v91 : IVec S400000 32 := broadcastInDim S400000 ![] bcast_S_S400000 main_c_34
  let main_v92 : IVec S400000 1 := cmpi .sge main_v90 main_v91
  let main_c_35 : IVec S_ 1 := constantI S_ 1 1#1
  let main_v93 : IVec S_ 1 := (fun x v => Host.reduce IntOp.andi x v reducesTo_S400000_S_d0 h_S_) main_v92 main_c_35
  let main_v94 : IVec S_ 1 := andi main_v88 main_v93
  let main_v95 : IVec S1x400000 32 := (extractStridedSlice S1x400000 ![0, 0] · slices_S2x400000_S1x400000_0_0) main_arg1
  let main_v96 : IVec S400000 32 := shapeCast S400000 main_v95 shapeCasts_S1x400000_S400000
  let main_c_36 : IVec S_ 32 := constantI S_ 32 100000#32
  let main_v97 : IVec S400000 32 := broadcastInDim S400000 ![] bcast_S_S400000 main_c_36
  let main_v98 : IVec S400000 1 := cmpi .slt main_v96 main_v97
  let main_c_37 : IVec S_ 1 := constantI S_ 1 1#1
  let main_v99 : IVec S_ 1 := (fun x v => Host.reduce IntOp.andi x v reducesTo_S400000_S_d0 h_S_) main_v98 main_c_37
  let main_v100 : IVec S_ 1 := andi main_v94 main_v99
  main_v100

def fn_part4 {F : FTy → Type} [FloatOps F] (main_arg1 : IVec S2x400000 32) (main_arg15 : FVec F S128x256 .f32) (main_arg16 : FVec F S128 .f32) (main_arg17 : FVec F S64x128 .f32) (main_arg18 : FVec F S64 .f32) (main_v63 : IVec S_ 1) (main_v67 : IVec S_ 1) : IVec S_ 1 :=
  let main_v68 : IVec S_ 1 := andi main_v63 main_v67
  let main_v69 : FVec F S128x256 .f32 := Host.absf main_arg15
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S64x128 .f32 := Host.absf main_arg17
  let main_cst_30 : FVec F S_ .f32 := constant S_ .f32 0x7F800000#32
  let main_v80 : FVec F S64x128 .f32 := broadcastInDim S64x128 ![] bcast_S_S64x128 main_cst_30
  let main_v81 : IVec S64x128 1 := cmpf .olt main_v79 main_v80
  let main_c_31 : IVec S_ 1 := constantI S_ 1 1#1
  let main_v82 : IVec S_ 1 := (fun x v => Host.reduce IntOp.andi x v reducesTo_S64x128_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg1 main_v83 main_v84 main_cst_32

def fn_part3 {F : FTy → Type} [FloatOps F] (main_arg1 : IVec S2x400000 32) (main_arg12 : FVec F S128 .f32) (main_arg13 : FVec F S128x128 .f32) (main_arg14 : FVec F S128 .f32) (main_arg15 : FVec F S128x256 .f32) (main_arg16 : FVec F S128 .f32) (main_arg17 : FVec F S64x128 .f32) (main_arg18 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_arg17 main_arg18 main_v63 main_v67

def fn_part2 {F : FTy → Type} [FloatOps F] (main_arg1 : IVec S2x400000 32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x256 .f32) (main_arg16 : FVec F S128 .f32) (main_arg17 : FVec F S64x128 .f32) (main_arg18 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_arg14 main_arg15 main_arg16 main_arg17 main_arg18 main_v48 main_v49 main_v50

def fn_part1 {F : FTy → Type} [FloatOps F] (main_arg1 : IVec S2x400000 32) (main_arg5 : FVec F S128x128 .f32) (main_arg6 : FVec F S128 .f32) (main_arg7 : FVec F S128x1 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x256 .f32) (main_arg16 : FVec F S128 .f32) (main_arg17 : FVec F S64x128 .f32) (main_arg18 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_v33

def fn {F : FTy → Type} [FloatOps F] (main_arg0 : FVec F S100000x16 .f32) (main_arg1 : IVec S2x400000 32) (main_arg2 : FVec F S400000x1 .f32) (main_arg3 : FVec F S128x16 .f32) (main_arg4 : FVec F S128 .f32) (main_arg5 : FVec F S128x128 .f32) (main_arg6 : FVec F S128 .f32) (main_arg7 : FVec F S128x1 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x256 .f32) (main_arg16 : FVec F S128 .f32) (main_arg17 : FVec F S64x128 .f32) (main_arg18 : FVec F S64 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S400000x1 .f32 := Host.absf main_arg2
  let main_cst_0 : FVec F S_ .f32 := constant S_ .f32 0x7F800000#32
  let main_v5 : FVec F S400000x1 .f32 := broadcastInDim S400000x1 ![] bcast_S_S400000x1 main_cst_0
  let main_v6 : IVec S400000x1 1 := cmpf .olt main_v4 main_v5
  let main_c_1 : IVec S_ 1 := constantI S_ 1 1#1
  let main_v7 : IVec S_ 1 := (fun x v => Host.reduce IntOp.andi x v reducesTo_S400000x1_S_d0_1 h_S_) main_v6 main_c_1
  let main_v8 : IVec S_ 1 := andi main_v3 main_v7
  let main_v9 : FVec F S128x16 .f32 := Host.absf main_arg3
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_v13 main_v16
-- ==== Kernel.lean ====
abbrev S100000x16 : Shape := ⟨2, ![100000, 16]⟩
abbrev S2x400000 : Shape := ⟨2, ![2, 400000]⟩
abbrev S400000x1 : Shape := ⟨2, ![400000, 1]⟩
abbrev S128x16 : Shape := ⟨2, ![128, 16]⟩
abbrev S128 : Shape := ⟨1, ![128]⟩
abbrev S128x128 : Shape := ⟨2, ![128, 128]⟩
abbrev S128x1 : Shape := ⟨2, ![128, 1]⟩
abbrev S128x256 : Shape := ⟨2, ![128, 256]⟩
abbrev S64x128 : Shape := ⟨2, ![64, 128]⟩
abbrev S64 : Shape := ⟨1, ![64]⟩
abbrev S1x400000 : Shape := ⟨2, ![1, 400000]⟩
abbrev S400000 : Shape := ⟨1, ![400000]⟩
abbrev S1x128 : Shape := ⟨2, ![1, 128]⟩
abbrev S1x64 : Shape := ⟨2, ![1, 64]⟩
abbrev S100000x128 : Shape := ⟨2, ![100000, 128]⟩
abbrev S5000x16 : Shape := ⟨2, ![5000, 16]⟩
abbrev S5000x128 : Shape := ⟨2, ![5000, 128]⟩
abbrev S16x128 : Shape := ⟨2, ![16, 128]⟩
abbrev S_ : Shape := ⟨0, ![]⟩
abbrev S1 : Shape := ⟨1, ![1]⟩
abbrev S1x1 : Shape := ⟨2, ![1, 1]⟩
abbrev S400000x128 : Shape := ⟨2, ![400000, 128]⟩
abbrev S100000x64 : Shape := ⟨2, ![100000, 64]⟩
abbrev S4000x128 : Shape := ⟨2, ![4000, 128]⟩
abbrev S4000x64 : Shape := ⟨2, ![4000, 64]⟩
abbrev S128x64 : Shape := ⟨2, ![128, 64]⟩

abbrev nBuf : Space → Nat
  | .hbm => 73
  | .vmem => 25
  | .smem => 0
  | _ => 0

abbrev bufTy : (tb : Table) → Fin (tcTables nBuf tb) → BufTy
  | .hbm, ⟨0, _⟩ => ⟨S100000x16, .f32⟩
  | .hbm, ⟨1, _⟩ => ⟨S2x400000, .i32⟩
  | .hbm, ⟨2, _⟩ => ⟨S400000x1, .f32⟩
  | .hbm, ⟨3, _⟩ => ⟨S128x16, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x256, .f32⟩
  | .hbm, ⟨16, _⟩ => ⟨S128, .f32⟩
  | .hbm, ⟨17, _⟩ => ⟨S64x128, .f32⟩
  | .hbm, ⟨18, _⟩ => ⟨S64, .f32⟩
  | .hbm, ⟨19, _⟩ => ⟨S1x400000, .i32⟩
  | .hbm, ⟨20, _⟩ => ⟨S400000, .i32⟩
  | .hbm, ⟨21, _⟩ => ⟨S1x400000, .i32⟩
  | .hbm, ⟨22, _⟩ => ⟨S400000, .i32⟩
  | .hbm, ⟨23, _⟩ => ⟨S1x128, .f32⟩
  | .hbm, ⟨24, _⟩ => ⟨S1x128, .f32⟩
  | .hbm, ⟨25, _⟩ => ⟨S128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S128x128, .f32⟩
  | .hbm, ⟨32, _⟩ => ⟨S128x128, .f32⟩
  | .hbm, ⟨33, _⟩ => ⟨S1x128, .f32⟩
  | .hbm, ⟨34, _⟩ => ⟨S1x64, .f32⟩
  | .hbm, ⟨35, _⟩ => ⟨S100000x128, .f32⟩
  | .hbm, ⟨36, _⟩ => ⟨S_, .i32⟩
  | .hbm, ⟨37, _⟩ => ⟨S400000, .i32⟩
  | .hbm, ⟨38, _⟩ => ⟨S400000, .i1⟩
  | .hbm, ⟨39, _⟩ => ⟨S_, .i32⟩
  | .hbm, ⟨40, _⟩ => ⟨S400000, .i32⟩
  | .hbm, ⟨41, _⟩ => ⟨S400000, .i32⟩
  | .hbm, ⟨42, _⟩ => ⟨S400000, .i32⟩
  | .hbm, ⟨43, _⟩ => ⟨S400000x1, .i32⟩
  | .hbm, ⟨44, _⟩ => ⟨S1, .i32⟩
  | .hbm, ⟨45, _⟩ => ⟨S_, .i32⟩
  | .hbm, ⟨46, _⟩ => ⟨S400000x1, .i32⟩
  | .hbm, ⟨47, _⟩ => ⟨S400000x1, .i1⟩
  | .hbm, ⟨48, _⟩ => ⟨S1x1, .i32⟩
  | .hbm, ⟨49, _⟩ => ⟨S400000x1, .i32⟩
  | .hbm, ⟨50, _⟩ => ⟨S400000x1, .i1⟩
  | .hbm, ⟨51, _⟩ => ⟨S400000x1, .i1⟩
  | .hbm, ⟨52, _⟩ => ⟨S_, .i1⟩
  | .hbm, ⟨53, _⟩ => ⟨S400000, .i1⟩
  | .hbm, ⟨54, _⟩ => ⟨S400000x128, .f32⟩
  | .hbm, ⟨55, _⟩ => ⟨S400000x128, .i1⟩
  | .hbm, ⟨56, _⟩ => ⟨S_, .f32⟩
  | .hbm, ⟨57, _⟩ => ⟨S400000x128, .f32⟩
  | .hbm, ⟨58, _⟩ => ⟨S400000x128, .f32⟩
  | .hbm, ⟨59, _⟩ => ⟨S400000x128, .f32⟩
  | .hbm, ⟨60, _⟩ => ⟨S400000x128, .f32⟩
  | .hbm, ⟨61, _⟩ => ⟨S400000x128, .f32⟩
  | .hbm, ⟨62, _⟩ => ⟨S400000x128, .f32⟩
  | .hbm, ⟨63, _⟩ => ⟨S400000x128, .f32⟩
  | .hbm, ⟨64, _⟩ => ⟨S400000x128, .f32⟩
  | .hbm, ⟨65, _⟩ => ⟨S_, .f32⟩
  | .hbm, ⟨66, _⟩ => ⟨S400000x128, .f32⟩
  | .hbm, ⟨67, _⟩ => ⟨S400000x128, .f32⟩
  | .hbm, ⟨68, _⟩ => ⟨S_, .f32⟩
  | .hbm, ⟨69, _⟩ => ⟨S100000x128, .f32⟩
  | .hbm, ⟨70, _⟩ => ⟨S400000x1, .i32⟩
  | .hbm, ⟨71, _⟩ => ⟨S100000x128, .f32⟩
  | .hbm, ⟨72, _⟩ => ⟨S100000x64, .f32⟩
  | .local _ .vmem, ⟨0, _⟩ => ⟨S5000x16, .f32⟩
  | .local _ .vmem, ⟨1, _⟩ => ⟨S5000x16, .f32⟩
  | .local _ .vmem, ⟨2, _⟩ => ⟨S128x16, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S64x128, .f32⟩
  | .local _ .vmem, ⟨22, _⟩ => ⟨S1x64, .f32⟩
  | .local _ .vmem, ⟨23, _⟩ => ⟨S4000x64, .f32⟩
  | .local _ .vmem, ⟨24, _⟩ => ⟨S4000x64, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_c_1 : Ref sig .tc := ⟨.hbm, 44, rfl⟩
abbrev main_call0_c_2 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_3 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_call0_cst : Ref sig .tc := ⟨.hbm, 56, rfl⟩
abbrev main_call0_v15 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_call1_cst : Ref sig .tc := ⟨.hbm, 65, rfl⟩
abbrev main_call1_v0 : Ref sig .tc := ⟨.hbm, 66, rfl⟩
abbrev main_v24 : Ref sig .tc := ⟨.hbm, 67, rfl⟩
abbrev main_cst : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem13_1 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S4000x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  shapeCasts_S128_S1x128 : S128.ShapeCasts S1x128
  shapeCasts_S128x1_S128 : S128x1.ShapeCasts S128
  slices_S128x256_S128x128_0_0 : S128x256.Slices ![0, 0] S128x128
  slices_S128x256_S128x128_0_128 : S128x256.Slices ![0, 128] S128x128
  shapeCasts_S64_S1x64 : S64.ShapeCasts S1x64
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  transposes_S128x16_p1_0_S16x128 : S128x16.Transposes [1, 0] S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S5000x128_S5000x128_0_0 : ∀ a, (![0, 0] : Fin 2 → Nat) a + S5000x128.size a ≤ S5000x128.size a
  h_S5000x128 : 0 < S5000x128.numel
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  bcast_S400000x1_S400000x128_0_1 : S400000x1.BroadcastsInDim S400000x128 (![0, 1] : Fin 2 → Fin S400000x128.rank)
  bcast_S1x128_S400000x128_0_1 : S1x128.BroadcastsInDim S400000x128 (![0, 1] : Fin 2 → Fin S400000x128.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  shapeCasts_S128x128_S128x128 : S128x128.ShapeCasts S128x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  dot_S5000x16_S16x128_S5000x128_1_0_0_1_n_n_wf : DotDims.WF S5000x16 S16x128 S5000x128 [1] [0] [0] [1] [] []
  dot_S5000x128_S128x128_S5000x128_1_0_0_1_n_n_wf : DotDims.WF S5000x128 S128x128 S5000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x128.size a ≤ S64x128.size a
  hwx1_11 : ∀ i : grid1.Coords, EltTy.bits .f32 = 32 ∨ (Rect.block (s := S64x128) S64x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x64.size a ≤ S1x64.size a
  hwx1_12 : ∀ i : grid1.Coords, EltTy.bits .f32 = 32 ∨ (Rect.block (s := S1x64) S1x64.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S4000x64.size a ≤ S100000x64.size a
  hwx1_13 : ∀ i : grid1.Coords, EltTy.bits .f32 = 32 ∨ (Rect.block (s := S100000x64) S4000x64.size (cc1_transform_13 i) (hinb1_13 i)).WholeWords (EltTy.packing .f32)

variable [Facts₀]

def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v13) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v14) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg17) S64x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v15) S1x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v28) S4000x64.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S100000x16 : Shape := ⟨2, ![100000, 16]⟩
abbrev S2x400000 : Shape := ⟨2, ![2, 400000]⟩
abbrev S400000x1 : Shape := ⟨2, ![400000, 1]⟩
abbrev S128x16 : Shape := ⟨2, ![128, 16]⟩
abbrev S128 : Shape := ⟨1, ![128]⟩
abbrev S128x128 : Shape := ⟨2, ![128, 128]⟩
abbrev S128x1 : Shape := ⟨2, ![128, 1]⟩
abbrev S128x256 : Shape := ⟨2, ![128, 256]⟩
abbrev S64x128 : Shape := ⟨2, ![64, 128]⟩
abbrev S64 : Shape := ⟨1, ![64]⟩
abbrev S16x128 : Shape := ⟨2, ![16, 128]⟩
abbrev S100000x128 : Shape := ⟨2, ![100000, 128]⟩
abbrev S1x128 : Shape := ⟨2, ![1, 128]⟩
abbrev S_ : Shape := ⟨0, ![]⟩
abbrev S400000x128 : Shape := ⟨2, ![400000, 128]⟩
abbrev S1x400000 : Shape := ⟨2, ![1, 400000]⟩
abbrev S400000 : Shape := ⟨1, ![400000]⟩
abbrev S100000x256 : Shape := ⟨2, ![100000, 256]⟩
abbrev S256x128 : Shape := ⟨2, ![256, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x400000, .i32⟩
  | .hbm, ⟨2, _⟩ => ⟨S400000x1, .f32⟩
  | .hbm, ⟨3, _⟩ => ⟨S128x16, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x256, .f32⟩
  | .hbm, ⟨16, _⟩ => ⟨S128, .f32⟩
  | .hbm, ⟨17, _⟩ => ⟨S64x128, .f32⟩
  | .hbm, ⟨18, _⟩ => ⟨S64, .f32⟩
  | .hbm, ⟨19, _⟩ => ⟨S16x128, .f32⟩
  | .hbm, ⟨20, _⟩ => ⟨S100000x128, .f32⟩
  | .hbm, ⟨21, _⟩ => ⟨S1x128, .f32⟩
  | .hbm, ⟨22, _⟩ => ⟨S100000x128, .f32⟩
  | .hbm, ⟨23, _⟩ => ⟨S100000x128, .f32⟩
  | .hbm, ⟨24, _⟩ => ⟨S_, .f32⟩
  | .hbm, ⟨25, _⟩ => ⟨S_, .f32⟩
  | .hbm, ⟨26, _⟩ => ⟨S100000x128, .f32⟩
  | .hbm, ⟨27, _⟩ => ⟨S100000x128, .i1⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S128x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S400000x128, .f32⟩
  | .hbm, ⟨40, _⟩ => ⟨S1x128, .f32⟩
  | .hbm, ⟨41, _⟩ => ⟨S400000x128, .f32⟩
  | .hbm, ⟨42, _⟩ => ⟨S400000x128, .f32⟩
  | .hbm, ⟨43, _⟩ => ⟨S1x400000, .i32⟩
  | .hbm, ⟨44, _⟩ => ⟨S400000, .i32⟩
  | .hbm, ⟨45, _⟩ => ⟨S_, .i32⟩
  | .hbm, ⟨46, _⟩ => ⟨S400000, .i32⟩
  | .hbm, ⟨47, _⟩ => ⟨S400000, .i1⟩
  | .hbm, ⟨48, _⟩ => ⟨S_, .i32⟩
  | .hbm, ⟨49, _⟩ => ⟨S400000, .i32⟩
  | .hbm, ⟨50, _⟩ => ⟨S400000, .i32⟩
  | .hbm, ⟨51, _⟩ => ⟨S400000, .i32⟩
  | .hbm, ⟨52, _⟩ => ⟨S400000x1, .i32⟩
  | .hbm, ⟨53, _⟩ => ⟨S400000x128, .f32⟩
  | .hbm, ⟨54, _⟩ => ⟨S400000x128, .f32⟩
  | .hbm, ⟨55, _⟩ => ⟨S_, .f32⟩
  | .hbm, ⟨56, _⟩ => ⟨S400000x128, .f32⟩
  | .hbm, ⟨57, _⟩ => ⟨S400000x128, .f32⟩
  | .hbm, ⟨58, _⟩ => ⟨S1x400000, .i32⟩
  | .hbm, ⟨59, _⟩ => ⟨S400000, .i32⟩
  | .hbm, ⟨60, _⟩ => ⟨S_, .f32⟩
  | .hbm, ⟨61, _⟩ => ⟨S100000x128, .f32⟩
  | .hbm, ⟨62, _⟩ => ⟨S400000x1, .i32⟩
  | .hbm, ⟨63, _⟩ => ⟨S100000x128, .f32⟩
  | .hbm, ⟨64, _⟩ => ⟨S100000x128, .f32⟩
  | .hbm, ⟨65, _⟩ => ⟨S128x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S_, .f32⟩
  | .hbm, ⟨72, _⟩ => ⟨S100000x128, .f32⟩
  | .hbm, ⟨73, _⟩ => ⟨S100000x128, .i1⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S_, .f32⟩
  | .hbm, ⟨85, _⟩ => ⟨S100000x128, .f32⟩
  | .hbm, ⟨86, _⟩ => ⟨S100000x128, .i1⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S128x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S100000x256, .f32⟩
  | .hbm, ⟨98, _⟩ => ⟨S256x128, .f32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S_, .f32⟩
  | .hbm, ⟨105, _⟩ => ⟨S100000x128, .f32⟩
  | .hbm, ⟨106, _⟩ => ⟨S100000x128, .i1⟩
  | .hbm, ⟨107, _⟩ => ⟨S_, .f32⟩
  | .hbm, ⟨108, _⟩ => ⟨S100000x128, .f32⟩
  | .hbm, ⟨109, _⟩ => ⟨S100000x128, .f32⟩
  | .hbm, ⟨110, _⟩ => ⟨S100000x128, .f32⟩
  | .hbm, ⟨111, _⟩ => ⟨S128x64, .f32⟩
  | .hbm, ⟨112, _⟩ => ⟨S100000x64, .f32⟩
  | .hbm, ⟨113, _⟩ => ⟨S1x64, .f32⟩
  | .hbm, ⟨114, _⟩ => ⟨S100000x64, .f32⟩
  | .hbm, ⟨115, _⟩ => ⟨S100000x64, .f32⟩
  | .hbm, ⟨116, _⟩ => ⟨S100000x64, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c : Ref sig .tc := ⟨.hbm, 45, rfl⟩
abbrev main_v19 : Ref sig .tc := ⟨.hbm, 46, rfl⟩
abbrev main_v20 : Ref sig .tc := ⟨.hbm, 47, rfl⟩
abbrev main_c_0 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_call1_cst : Ref sig .tc := ⟨.hbm, 55, rfl⟩
abbrev main_call1_v0 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_1 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_2 : Ref sig .tc := ⟨.hbm, 70, rfl⟩
abbrev main_call2_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_3 : Ref sig .tc := ⟨.hbm, 83, rfl⟩
abbrev main_call3_cst : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_4 : Ref sig .tc := ⟨.hbm, 103, rfl⟩
abbrev main_call4_cst : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩

abbrev nD : Nat := 1
abbrev τ : Topo := Topo.v7x

variable {F : FTy → Type} [FloatOps F]

class Facts₀ : Prop where
  transposes_S128x16_S16x128_1_0 : S128x16.Transposes [1, 0] S16x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  transposes_S128x1_S1x128_1_0 : S128x1.Transposes [1, 0] S1x128
  bcast_S1x128_S400000x128_0_1 : S1x128.BroadcastsInDim S400000x128 (![0, 1] : Fin 2 → Fin S400000x128.rank)
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x128 : S_.BroadcastsInDim S400000x128 (![] : Fin 0 → Fin S400000x128.rank)
  slices_S2x400000_S1x400000_1_0 : S2x400000.Slices ![1, 0] S1x400000
  concatenates_S100000x128_S100000x128_S100000x256_d1 : Shape.Concatenates [S100000x128, S100000x128] S100000x256 1
  transposes_S128x256_S256x128_1_0 : S128x256.Transposes [1, 0] S256x128
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x16_S16x128_S100000x128_1_0_0_1_n_n_wf : DotDims.WF S100000x16 S16x128 S100000x128 [1] [0] [0] [1] [] []
  dot_S100000x128_S128x128_S100000x128_1_0_0_1_n_n_wf : DotDims.WF S100000x128 S128x128 S100000x128 [1] [0] [0] [1] [] []
  dot_S400000x1_S1x128_S400000x128_1_0_0_1_n_n_wf : DotDims.WF S400000x1 S1x128 S400000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S100000x256_S256x128_S100000x128_1_0_0_1_n_n_wf : DotDims.WF S100000x256 S256x128 S100000x128 [1] [0] [0] [1] [] []
  dot_S100000x128_S128x64_S100000x64_1_0_0_1_n_n_wf : DotDims.WF S100000x128 S128x64 S100000x64 [1] [0] [0] [1] [] []

variable [Facts₀]

def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S400000x1_S1x128_S400000x128_1_0_0_1_n_n : DotDims S400000x1 S1x128 S400000x128 where
  lhsContracting := [1]
  rhsContracting := [0]
  lhsNonContracting := [0]
  rhsNonContracting := [1]
  lhsBatch := []
  rhsBatch := []
  wf := dot_S400000x1_S1x128_S400000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The mathematics both programs compute, stated once over the extended reals with plain `Fin` indices and no
  program in sight.  A node's feature row goes through affine layers `(Σ_k x k · w d k) + b d`, the leaky
  rectifier with slope f32(0.01), and tanh.  The two programs differ in one place only: the layer after the
  skip connection sums over the 256 entries of the concatenated row `[z, h]` in the reference and over the two
  halves separately in the kernel; `sum_cat` says these are the same number (a finite sum in a commutative
  monoid may be cut anywhere, infinities included).
-/
import Idealize.ShloMosaic.PureOps.Ideal
import Idealize.ShloMosaic.PureOps.Ideal.Laws
import Idealize.ShloMosaic.Lib.ValueIdx

noncomputable section

namespace Cert.Spec

open Idealize.ShloMosaic

/-- The leaky rectifier: `a` where `0 ≤ a`, else `f32(0.01) · a`. -/
def lrelu (a : EReal) : EReal :=
  Scalar.select (Ideal.cmp .oge a (Ideal.ofBits .f32 0x00000000#32)) a (Ideal.ofBits .f32 0x3C23D70A#32 * a)

/-- The rectifier `max a 0` with the zero spelt as the f32 zero word. -/
def relu (a : EReal) : EReal := max a (Ideal.ofBits .f32 0x00000000#32)

/-- One affine layer on one row, output coordinate `d`: `(Σ_k x k · w d k) + b d` (weights stored [out, in]). -/
def lin {K D : ℕ} (x : Fin K → EReal) (w : Fin D → Fin K → EReal) (b : Fin D → EReal) (d : Fin D) : EReal :=
  (∑ k : Fin K, x k * w d k) + b d

/-- The first network on one node's 16 input features: affine, leaky rectifier, affine, tanh. -/
def prepRow (x : Fin 16 → EReal) (w0 : Fin 128 → Fin 16 → EReal) (b0 : Fin 128 → EReal)
    (w1 : Fin 128 → Fin 128 → EReal) (b1 : Fin 128 → EReal) (d : Fin 128) : EReal :=
  Ideal.tanh (lin (fun k => lrelu (lin x w0 b0 k)) w1 b1 d)

/-- The message network on one node: the node's row plus its aggregated messages through three affine layers. -/
def mlpRow (h agg : Fin 128 → EReal) (w0 : Fin 128 → Fin 128 → EReal) (b0 : Fin 128 → EReal)
    (w1 : Fin 128 → Fin 128 → EReal) (b1 : Fin 128 → EReal) (w2 : Fin 128 → Fin 128 → EReal) (b2 : Fin 128 → EReal)
    (d : Fin 128) : EReal :=
  Ideal.tanh (lin (fun k => lrelu (lin (fun k => lrelu (lin (fun k => h k + agg k) w0 b0 k)) w1 b1 k)) w2 b2 d)

/-- The concatenated row `[z, h]` of 256 entries. -/
def cat (z h : Fin 128 → EReal) (k : Fin 256) : EReal :=
  if hk : k.val < 128 then z ⟨k.val, hk⟩ else h ⟨k.val - 128, by have := k.isLt; omega⟩

/-- The last network in the kernel's arrangement: the layer after the skip connection as two sums of 128 terms,
    over the left and the right half of the 256 weight columns. -/
def postRowSplit (z h : Fin 128 → EReal) (wz wr : Fin 128 → Fin 128 → EReal) (b0 : Fin 128 → EReal)
    (w1 : Fin 64 → Fin 128 → EReal) (b1 : Fin 64 → EReal) (d : Fin 64) : EReal :=
  Ideal.tanh (lin (fun k => lrelu (((∑ j : Fin 128, z j * wz k j) + (∑ j : Fin 128, h j * wr k j)) + b0 k)) w1 b1 d)

/-- The last network in the reference's arrangement: one sum of 256 terms over the concatenated row. -/
def postRowCat (z h : Fin 128 → EReal) (w0 : Fin 128 → Fin 256 → EReal) (b0 : Fin 128 → EReal)
    (w1 : Fin 64 → Fin 128 → EReal) (b1 : Fin 64 → EReal) (d : Fin 64) : EReal :=
  Ideal.tanh (lin (fun k => lrelu (lin (cat z h) w0 b0 k)) w1 b1 d)

/-- A sum over the concatenated row is the sum over its left half plus the sum over its right half. -/
theorem sum_cat (z h : Fin 128 → EReal) (w : Fin 256 → EReal) :
    (∑ k : Fin 256, cat z h k * w k)
      = (∑ j : Fin 128, z j * w ⟨j.val, by have := j.isLt; omega⟩)
        + (∑ j : Fin 128, h j * w ⟨128 + j.val, by have := j.isLt; omega⟩) := by
  have e := Fin.sum_univ_add (M := EReal) (a := 128) (b := 128) (fun k : Fin (128 + 128) => cat z h k * w k)
  refine e.trans ?_
  congr 1

/-- Hence the two arrangements of the last network agree when the split weights are the two halves of the whole. -/
theorem postRowCat_eq_split (z h : Fin 128 → EReal) (w0 : Fin 128 → Fin 256 → EReal) (b0 : Fin 128 → EReal)
    (w1 : Fin 64 → Fin 128 → EReal) (b1 : Fin 64 → EReal) (d : Fin 64) :
    postRowCat z h w0 b0 w1 b1 d
      = postRowSplit z h (fun k j => w0 k ⟨j.val, by have := j.isLt; omega⟩)
          (fun k j => w0 k ⟨128 + j.val, by have := j.isLt; omega⟩) b0 w1 b1 d := by
  unfold postRowCat postRowSplit
  congr 2
  funext k
  unfold lin
  rw [sum_cat]

end Cert.Spec

end
-- ==== Proof.KBody0.lean ====
import proofs.«411107_j14697378087542_2_alg».proof.Proof.Gen.KernelIdeal.Frame
import proofs.«411107_j14697378087542_2_alg».proof.Proof.Spec
import Idealize.ShloMosaic.Lib.ValueIdx
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat Cfg Window)

/-- The zero offsets of a whole-block access, spelt as the constant function. -/
theorem prep_zero_offsets : (![0, 0] : Fin 2 → Nat) = fun _ => 0 := funext fun a => by fin_cases a <;> rfl

/-! ## The first product, 16 terms: where its two operands are read -/

theorem prep_lhs_in_0 (i : S5000x128.Idx) (q : dot_S5000x16_S16x128_S5000x128_1_0_0_1_n_n.contr.Idx) :
    (dot_S5000x16_S16x128_S5000x128_1_0_0_1_n_n.lhsIdx i q 0).val = (i 0).val := by
  unfold DotDims.lhsIdx
  rw [dif_neg (show ¬(0 : Fin S5000x16.rank) ∈ dot_S5000x16_S16x128_S5000x128_1_0_0_1_n_n.lhsBatch by decide),
    dif_pos (show (0 : Fin S5000x16.rank) ∈ dot_S5000x16_S16x128_S5000x128_1_0_0_1_n_n.lhsNonContracting by decide)]
  rfl
theorem prep_lhs_in_1 (i : S5000x128.Idx) (q : dot_S5000x16_S16x128_S5000x128_1_0_0_1_n_n.contr.Idx) :
    (dot_S5000x16_S16x128_S5000x128_1_0_0_1_n_n.lhsIdx i q 1).val = (q ⟨0, by decide⟩).val :=
  dot_S5000x16_S16x128_S5000x128_1_0_0_1_n_n.lhsIdx_val_of_single rfl i q
theorem prep_rhs_in_0 (i : S5000x128.Idx) (q : dot_S5000x16_S16x128_S5000x128_1_0_0_1_n_n.contr.Idx) :
    (dot_S5000x16_S16x128_S5000x128_1_0_0_1_n_n.rhsIdx i q 0).val = (q ⟨0, by decide⟩).val :=
  dot_S5000x16_S16x128_S5000x128_1_0_0_1_n_n.rhsIdx_val_of_single rfl i q
theorem prep_rhs_in_1 (i : S5000x128.Idx) (q : dot_S5000x16_S16x128_S5000x128_1_0_0_1_n_n.contr.Idx) :
    (dot_S5000x16_S16x128_S5000x128_1_0_0_1_n_n.rhsIdx i q 1).val = (i 1).val := by
  unfold DotDims.rhsIdx
  rw [dif_neg (show ¬(1 : Fin S16x128.rank) ∈ dot_S5000x16_S16x128_S5000x128_1_0_0_1_n_n.rhsBatch by decide),
    dif_pos (show (1 : Fin S16x128.rank) ∈ dot_S5000x16_S16x128_S5000x128_1_0_0_1_n_n.rhsNonContracting by decide)]
  rfl

/-- Entry (r, d) of the input rows times the transposed first weight block, into the zero accumulator: the sum over
    the 16 input features of row r's feature times the weight's entry (d, feature). -/
theorem prep_prod_in (x : FVec Ideal S5000x16 .bf16) (w : FVec Ideal S128x16 .bf16) (r : Fin 5000) (d : Fin 128) :
    matmul dot_S5000x16_S16x128_S5000x128_1_0_0_1_n_n none x
        (transpose S16x128 [1, 0] w transposes_S128x16_p1_0_S16x128) (constant (F := Ideal) S5000x128 .f32 0x00000000#32) (ix2 r d)
      = ∑ k : Fin 16, x (ix2 r k) * w (ix2 d k) := by
  simp only [matmul]
  rw [Ideal.matmul_constant_zero_apply,
    ← Equiv.sum_comp (contrEquiv1 dot_S5000x16_S16x128_S5000x128_1_0_0_1_n_n 16 rfl rfl).symm]
  refine Finset.sum_congr rfl fun k _ => ?_
  have hk := contrEquiv1_symm_val dot_S5000x16_S16x128_S5000x128_1_0_0_1_n_n 16 rfl rfl k
  have el : dot_S5000x16_S16x128_S5000x128_1_0_0_1_n_n.lhsIdx (ix2 r d)
      ((contrEquiv1 dot_S5000x16_S16x128_S5000x128_1_0_0_1_n_n 16 rfl rfl).symm k) = ix2 r k :=
    funext fun a => Fin.ext (by
      match a with
      | ⟨0, _⟩ => exact prep_lhs_in_0 _ _
      | ⟨1, _⟩ => exact (prep_lhs_in_1 _ _).trans hk)
  have er : dot_S5000x16_S16x128_S5000x128_1_0_0_1_n_n.rhsIdx (ix2 r d)
      ((contrEquiv1 dot_S5000x16_S16x128_S5000x128_1_0_0_1_n_n 16 rfl rfl).symm k) = ix2 k d :=
    funext fun a => Fin.ext (by
      match a with
      | ⟨0, _⟩ => exact (prep_rhs_in_0 _ _).trans hk
      | ⟨1, _⟩ => exact prep_rhs_in_1 _ _)
  rw [el, er]
  refine congrArg (x (ix2 r k) * ·) ?_
  exact transpose_apply _ w _ (ix2 k d) (ix2 d k) fun c => match c with | ⟨0, _⟩ => rfl | ⟨1, _⟩ => rfl

/-! ## The second product, 128 terms: where its two operands are read -/

theorem prep_lhs_hid_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem prep_lhs_hid_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem prep_rhs_hid_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem prep_rhs_hid_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (r, d) of the hidden rows times the transposed second weight block, into the zero accumulator: the sum over
    the 128 hidden units of row r's unit times the weight's entry (d, unit). -/
theorem prep_prod_hid (x : FVec Ideal S5000x128 .bf16) (w : FVec Ideal S128x128 .bf16) (r : Fin 5000) (d : Fin 128) :
    matmul dot_S5000x128_S128x128_S5000x128_1_0_0_1_n_n none x
        (transpose S128x128 [1, 0] w transposes_S128x128_p1_0_S128x128) (constant (F := Ideal) S5000x128 .f32 0x00000000#32) (ix2 r d)
      = ∑ k : Fin 128, x (ix2 r k) * w (ix2 d k) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r d)
      ((contrEquiv1 dot_S5000x128_S128x128_S5000x128_1_0_0_1_n_n 128 rfl rfl).symm k) = ix2 r k :=
    funext fun a => Fin.ext (by
      match a with
      | ⟨0, _⟩ => exact prep_lhs_hid_0 _ _
      | ⟨1, _⟩ => exact (prep_lhs_hid_1 _ _).trans hk)
  have er : dot_S5000x128_S128x128_S5000x128_1_0_0_1_n_n.rhsIdx (ix2 r d)
      ((contrEquiv1 dot_S5000x128_S128x128_S5000x128_1_0_0_1_n_n 128 rfl rfl).symm k) = ix2 k d :=
    funext fun a => Fin.ext (by
      match a with
      | ⟨0, _⟩ => exact (prep_rhs_hid_0 _ _).trans hk
      | ⟨1, _⟩ => exact prep_rhs_hid_1 _ _)
  rw [el, er]
  refine congrArg (x (ix2 r k) * ·) ?_
  exact transpose_apply _ w _ (ix2 k d) (ix2 d k) fun c => match c with | ⟨0, _⟩ => rfl | ⟨1, _⟩ => rfl

/-! ## A bias row spread over the 5000 rows -/

/-- A [1, 128] bias block, cast to its own shape and broadcast over the rows, reads its one row at the column. -/
theorem prep_bias_row (v : Vec Ideal S1x128 .f32) (r : Fin 5000) (d : Fin 128) :
    broadcastTo S5000x128 (shapeCast S1x128 v shapeCasts_S1x128_S1x128) broadcasts_S1x128_S5000x128 (ix2 r d)
      = v (ix2 (0 : Fin 1) d) := by
  rw [shapeCast_self]
  refine broadcastTo_apply v _ (ix2 r d) (ix2 (0 : Fin 1) d) fun a => ?_
  match a with
  | ⟨0, _⟩ => rfl
  | ⟨1, _⟩ => rfl

/-- Entry (r, k) of the first layer before the rectifier: the first product plus the first bias row. -/
theorem prep_layer_in (x0 : Vec Ideal S5000x16 .f32) (x1 : Vec Ideal S128x16 .f32) (x2 : Vec Ideal S1x128 .f32)
    (r : Fin 5000) (k : Fin 128) :
    addf (matmul dot_S5000x16_S16x128_S5000x128_1_0_0_1_n_n none (truncf .bf16 x0 bitsLt_bf16_f32)
          (transpose S16x128 [1, 0] (truncf .bf16 x1 bitsLt_bf16_f32) transposes_S128x16_p1_0_S16x128)
          (constant (F := Ideal) S5000x128 .f32 0x00000000#32))
        (broadcastTo S5000x128 (shapeCast S1x128 x2 shapeCasts_S1x128_S1x128) broadcasts_S1x128_S5000x128) (ix2 r k)
      = Spec.lin (fun j => x0 (ix2 r j)) (fun k j => x1 (ix2 k j)) (fun k => x2 (ix2 0 k)) k := by
  rw [addf_apply, prep_prod_in, prep_bias_row]
  rfl

/-- A tanh at an index is the extended reals' tanh of the element. -/
theorem prep_tanh_apply {s : Shape} {φ : FTy} (a : FVec Ideal s φ) (i : s.Idx) : tanh a i = Ideal.tanh (a i) := rfl

/-- Entry (r, d) of the second layer on ANY hidden block: tanh of the second product plus the second bias row. -/
theorem prep_layer_out (h : FVec Ideal S5000x128 .f32) (x3 : Vec Ideal S128x128 .f32) (x4 : Vec Ideal S1x128 .f32)
    (r : Fin 5000) (d : Fin 128) :
    tanh (addf (matmul dot_S5000x128_S128x128_S5000x128_1_0_0_1_n_n none (truncf .bf16 h bitsLt_bf16_f32)
          (transpose S128x128 [1, 0] (truncf .bf16 x3 bitsLt_bf16_f32) transposes_S128x128_p1_0_S128x128)
          (constant (F := Ideal) S5000x128 .f32 0x00000000#32))
        (broadcastTo S5000x128 (shapeCast S1x128 x4 shapeCasts_S1x128_S1x128) broadcasts_S1x128_S5000x128)) (ix2 r d)
      = Ideal.tanh (Spec.lin (fun k => h (ix2 r k)) (fun k j => x3 (ix2 k j)) (fun k => x4 (ix2 0 k)) d) := by
  rw [prep_tanh_apply, addf_apply, prep_prod_hid, prep_bias_row]
  rfl

/-- Entry (r, d) of what the first kernel's body leaves in its output block: the first network on row `r` of the
    input block, with the weight blocks read as [out, in] matrices and the bias blocks as [1, 128] rows. -/
theorem out0_5_apply (x0 : Vec Ideal S5000x16 .f32) (x1 : Vec Ideal S128x16 .f32) (x2 : Vec Ideal S1x128 .f32)
    (x3 : Vec Ideal S128x128 .f32) (x4 : Vec Ideal S1x128 .f32) (r : Fin 5000) (d : Fin 128) :
    out0_5 (F := Ideal) x0 x1 x2 x3 x4 (ix2 r d)
      = Spec.prepRow (fun j => x0 (ix2 r j)) (fun k j => x1 (ix2 k j)) (fun k => x2 (ix2 0 k))
          (fun k j => x3 (ix2 k j)) (fun k => x4 (ix2 0 k)) d := by
  unfold out0_5
  rw [View.canon_unit_zero prep_zero_offsets]
  simp only [View.ld_unit_zero (S := S5000x16) prep_zero_offsets, View.ld_unit_zero (S := S128x16) prep_zero_offsets,
    View.ld_unit_zero (S := S1x128) prep_zero_offsets, View.ld_unit_zero (S := S128x128) prep_zero_offsets]
  unfold k0_pay1
  rw [prep_layer_out]
  unfold Spec.prepRow
  refine congrArg Ideal.tanh (congrArg (fun f => Spec.lin f _ _ d) (funext fun k => ?_))
  rw [select_apply, cmpf_apply, mulf_apply, broadcast_apply, broadcast_apply, prep_layer_in]
  rfl

end Cert.KernelIdeal.KVal

end
-- ==== Proof.KReg0.lean ====
import proofs.«411107_j14697378087542_2_alg».proof.Proof.Gen.KernelIdeal.Frame
import proofs.«411107_j14697378087542_2_alg».proof.Proof.Spec
import proofs.«411107_j14697378087542_2_alg».proof.Proof.KBody0
import Idealize.ShloMosaic.Lib.ValueIdx
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The first region's output array in closed form: entry (n, d) is the first network on row n of the
    feature array, with the two weight matrices and the two bias rows read whole. -/
abbrev prepArr (c : Dev nD) : S100000x128.Idx → EReal := fun i =>
  Spec.prepRow (fun j => V c main_arg0 (ix2 (i 0) j)) (fun k j => V c main_arg3 (ix2 k j)) (fun k => V c main_v4 (ix2 0 k))
    (fun k j => V c main_arg5 (ix2 k j)) (fun k => V c main_v5 (ix2 0 k)) (i 1)

/-- The block index maps, decided over the twenty points: the feature window and the output window sit at
    block (t, 0); the weight and bias windows sit at block (0, 0) at every point. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of the feature block at point t is row 5000·t + r of the feature array. -/
theorem featBlk_apply (c : Dev nD) (t : Fin cfg0.N) (r : Fin 5000) (j : Fin 16) (n : Fin 100000)
    (hn : n.val = 5000 * t.val + r.val) :
    (iblk0 (F := Ideal) V c 0 t : Vec Ideal S5000x16 .f32) (ix2 r j) = (V c main_arg0 : S100000x16.Idx → EReal) (ix2 n j) := by
  obtain ⟨e0, e1, -⟩ := blockIdx0 t
  unfold iblk0
  rw [View.read_apply]
  show V c main_arg0 _ = V c main_arg0 _
  congr 1
  funext a
  apply Fin.ext
  match a with
  | ⟨0, _⟩ => show win0_0.index t (0 : Fin 2) * 5000 + 1 * r.val = n.val; rw [e0, hn]; omega
  | ⟨1, _⟩ => show win0_0.index t (1 : Fin 2) * 16 + 1 * j.val = j.val; rw [e1]; omega

/-- The first weight block is the whole first weight matrix at every point. -/
theorem w0Blk_apply (c : Dev nD) (t : Fin cfg0.N) (k : Fin 128) (j : Fin 16) :
    (iblk0 (F := Ideal) V c 1 t : Vec Ideal S128x16 .f32) (ix2 k j) = (V c main_arg3 : S128x16.Idx → EReal) (ix2 k j) := by
  obtain ⟨-, -, e0, e1, -⟩ := blockIdx0 t
  unfold iblk0
  rw [View.read_apply]
  show V c main_arg3 _ = V c main_arg3 _
  congr 1
  funext a
  apply Fin.ext
  match a with
  | ⟨0, _⟩ => show win0_1.index t (0 : Fin 2) * 128 + 1 * k.val = k.val; rw [e0]; omega
  | ⟨1, _⟩ => show win0_1.index t (1 : Fin 2) * 16 + 1 * j.val = j.val; rw [e1]; omega

/-- The first bias block is the whole first bias row at every point. -/
theorem b0Blk_apply (c : Dev nD) (t : Fin cfg0.N) (k : Fin 128) :
    (iblk0 (F := Ideal) V c 2 t : Vec Ideal S1x128 .f32) (ix2 0 k) = (V c main_v4 : S1x128.Idx → EReal) (ix2 0 k) := by
  obtain ⟨-, -, -, -, e0, e1, -⟩ := blockIdx0 t
  unfold iblk0
  rw [View.read_apply]
  show V c main_v4 _ = V c main_v4 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * k.val = k.val; rw [e1]; omega

/-- The second weight block is the whole second weight matrix at every point. -/
theorem w1Blk_apply (c : Dev nD) (t : Fin cfg0.N) (k : Fin 128) (j : Fin 128) :
    (iblk0 (F := Ideal) V c 3 t : Vec Ideal S128x128 .f32) (ix2 k j) = (V c main_arg5 : S128x128.Idx → EReal) (ix2 k j) := by
  obtain ⟨-, -, -, -, -, -, e0, e1, -⟩ := blockIdx0 t
  unfold iblk0
  rw [View.read_apply]
  show V c main_arg5 _ = V c main_arg5 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * j.val = j.val; rw [e1]; omega

/-- The second bias block is the whole second bias row at every point. -/
theorem b1Blk_apply (c : Dev nD) (t : Fin cfg0.N) (k : Fin 128) :
    (iblk0 (F := Ideal) V c 4 t : Vec Ideal S1x128 .f32) (ix2 0 k) = (V c main_v5 : S1x128.Idx → EReal) (ix2 0 k) := by
  obtain ⟨-, -, -, -, -, -, -, -, e0, e1, -⟩ := blockIdx0 t
  unfold iblk0
  rw [View.read_apply]
  show V c main_v5 _ = V c main_v5 _
  congr 1
  funext a
  apply Fin.ext
  match a with
  | ⟨0, _⟩ => show win0_4.index t (0 : Fin 2) * 1 + 1 * 0 = 0; rw [e0]
  | ⟨1, _⟩ => show win0_4.index t (1 : Fin 2) * 128 + 1 * k.val = k.val; rw [e1]; omega

/-- Entry (r, d) of what point t leaves in the output block is entry (5000·t + r, d) of the closed form:
    the body's network on row r of the feature block is the network on that row of the feature array. -/
theorem outBlk_apply (c : Dev nD) (t : Fin cfg0.N) (r : Fin 5000) (d : Fin 128) (i : S100000x128.Idx)
    (hi0 : (i 0).val = 5000 * t.val + r.val) (hi1 : (i 1).val = d.val) :
    out0_5 (F := Ideal) (iblk0 V c 0 t) (iblk0 V c 1 t) (iblk0 V c 2 t) (iblk0 V c 3 t) (iblk0 V c 4 t) (ix2 r d)
      = prepArr V c i := by
  refine (out0_5_apply (iblk0 V c 0 t) (iblk0 V c 1 t) (iblk0 V c 2 t) (iblk0 V c 3 t) (iblk0 V c 4 t) r d).trans ?_
  have hx : (fun j : Fin 16 => (iblk0 (F := Ideal) V c 0 t : Vec Ideal S5000x16 .f32) (ix2 r j))
      = fun j => (V c main_arg0 : S100000x16.Idx → EReal) (ix2 (i 0) j) :=
    funext fun j => featBlk_apply V c t r j (i 0) hi0
  have hw0 : (fun (k : Fin 128) (j : Fin 16) => (iblk0 (F := Ideal) V c 1 t : Vec Ideal S128x16 .f32) (ix2 k j))
      = fun k j => (V c main_arg3 : S128x16.Idx → EReal) (ix2 k j) :=
    funext fun k => funext fun j => w0Blk_apply V c t k j
  have hb0 : (fun k : Fin 128 => (iblk0 (F := Ideal) V c 2 t : Vec Ideal S1x128 .f32) (ix2 0 k))
      = fun k => (V c main_v4 : S1x128.Idx → EReal) (ix2 0 k) :=
    funext fun k => b0Blk_apply V c t k
  have hw1 : (fun (k : Fin 128) (j : Fin 128) => (iblk0 (F := Ideal) V c 3 t : Vec Ideal S128x128 .f32) (ix2 k j))
      = fun k j => (V c main_arg5 : S128x128.Idx → EReal) (ix2 k j) :=
    funext fun k => funext fun j => w1Blk_apply V c t k j
  have hb1 : (fun k : Fin 128 => (iblk0 (F := Ideal) V c 4 t : Vec Ideal S1x128 .f32) (ix2 0 k))
      = fun k => (V c main_v5 : S1x128.Idx → EReal) (ix2 0 k) :=
    funext fun k => b1Blk_apply V c t k
  have hd : d = (i 1 : Fin 128) := Fin.ext hi1.symm
  exact congr (congr (congr (congr (congr (congrArg Spec.prepRow hx) hw0) hb0) hw1) hb1) hd

/-- What point t writes back is block t of the closed form. -/
theorem flushed0_eq (c : Dev nD) (t : Fin cfg0.N) :
    (dat0 (F := Ideal) V c).flushed 5 t = ((cfg0.win 5).blk t).view.read (Elt Ideal) (prepArr V c) := by
  obtain ⟨-, -, -, -, -, -, -, -, -, -, e0, e1⟩ := blockIdx0 t
  show (cfg0.win 5).cut (grid0.coords t) ((dat0 (F := Ideal) V c).after 5 t) = _
  rw [after0_5]
  funext y
  have hy : (y : S5000x128.Idx) = ix2 (y 0) (y 1) := eq_ix2 y
  have h0 : (y 0).val < 5000 := (y 0).isLt
  have h1 : (y 1).val < 128 := (y 1).isLt
  show out0_5 (F := Ideal) (iblk0 V c 0 t) (iblk0 V c 1 t) (iblk0 V c 2 t) (iblk0 V c 3 t) (iblk0 V c 4 t) y
      = prepArr V c (((cfg0.win 5).blk t).view.emb y)
  rw [hy]
  refine outBlk_apply V c t (y 0) (y 1) _ ?_ ?_
  · show win0_5.index t (0 : Fin 2) * 5000 + 1 * (y 0).val = 5000 * t.val + (y 0).val; rw [e0]; omega
  · show win0_5.index t (1 : Fin 2) * 128 + 1 * (y 1).val = (y 1).val; rw [e1]; omega

/-- An index of the output array is in point t's block iff each coordinate is in the block's range on its axis. -/
theorem mem_outBlk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v16).slice (win0_5.rect t)).set ↔ _
  rw [View.set_slice_whole, Rect.mem_set_unit]
  exact Iff.rfl

/-- The twenty output blocks cover the array: row n lies in the block of point n / 5000. -/
theorem outBlk_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, -, -, -, -, -, -, e0, e1⟩ := blockIdx0 ⟨(i 0).val / 5000, hlt⟩
  refine ⟨⟨(i 0).val / 5000, hlt⟩, flush0_5 _, ?_⟩
  rw [mem_outBlk]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    rw [e1]; omega

/-- The first region's output array once all twenty points have written back: row `n` is the first network on
    row `n` of the input array, whatever the buffers held when the region was entered (`V`). -/
theorem arr0 (c : Dev nD) :
    (dat0 (F := Ideal) V c).arrAt 5 cfg0.N = fun i : S100000x128.Idx =>
      Spec.prepRow (fun j => V c main_arg0 (ix2 (i 0) j)) (fun k j => V c main_arg3 (ix2 k j)) (fun k => V c main_v4 (ix2 0 k))
        (fun k j => V c main_arg5 (ix2 k j)) (fun k => V c main_v5 (ix2 0 k)) (i 1) := by
  exact (dat0 (F := Ideal) V c).arrAt_eq_of_cover 5 (prepArr V c) (fun t _ => flushed0_eq V c t) (outBlk_cover)

end Cert.KernelIdeal.KVal

end
-- ==== Proof.KBody1.lean ====
import proofs.«411107_j14697378087542_2_alg».proof.Proof.Gen.KernelIdeal.Frame
import proofs.«411107_j14697378087542_2_alg».proof.Proof.Spec
import Idealize.ShloMosaic.Lib.ValueIdx
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat Cfg Window)

/-! ### The two dot records, axis by axis -/

theorem post_lhsA_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

theorem post_lhsA_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

theorem post_rhsA_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

theorem post_rhsA_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- A [4000,128] block times the transpose of a [128,128] weight block, into the zero accumulator, at (r, d):
    the sum over k of x(r,k) · w(d,k). -/
theorem post_mm128 (x : FVec Ideal S4000x128 .bf16) (w : FVec Ideal S128x128 .bf16) (r : Fin 4000) (d : Fin 128) :
    matmul dot_S4000x128_S128x128_S4000x128_1_0_0_1_n_n none x
        (transpose S128x128 [1, 0] w transposes_S128x128_p1_0_S128x128)
        (constant S4000x128 .f32 0x00000000#32) (ix2 r d)
      = ∑ k : Fin 128, x (ix2 r k) * w (ix2 d k) := by
  refine (Ideal.matmul_constant_zero_apply _ none _ _ _).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r d)
      ((contrEquiv1 dot_S4000x128_S128x128_S4000x128_1_0_0_1_n_n 128 rfl rfl).symm k) = ix2 r k :=
    funext fun a => Fin.ext (by
      match a with
      | ⟨0, _⟩ => exact post_lhsA_0 _ _
      | ⟨1, _⟩ => exact (post_lhsA_1 _ _).trans hk)
  have er : dot_S4000x128_S128x128_S4000x128_1_0_0_1_n_n.rhsIdx (ix2 r d)
      ((contrEquiv1 dot_S4000x128_S128x128_S4000x128_1_0_0_1_n_n 128 rfl rfl).symm k) = ix2 k d :=
    funext fun a => Fin.ext (by
      match a with
      | ⟨0, _⟩ => exact (post_rhsA_0 _ _).trans hk
      | ⟨1, _⟩ => exact post_rhsA_1 _ _)
  rw [el, er]
  exact congrArg (fun t => x (ix2 r k) * t) (transpose_apply [1, 0] w transposes_S128x128_p1_0_S128x128 (ix2 k d) (ix2 d k)
      fun c => match c with | ⟨0, _⟩ => rfl | ⟨1, _⟩ => rfl)

/-! ### Reading one entry through the pointwise operations -/

theorem post_zeros2 : (![0, 0] : Fin 2 → Nat) = fun _ => 0 :=
  funext fun a => match a with | ⟨0, _⟩ => rfl | ⟨1, _⟩ => rfl

/-- A sum of two blocks at an entry, the summands' entries named. -/
theorem post_addf_at {s : Shape} {φ : FTy} (A B : FVec Ideal s φ) (i : s.Idx) (a b : EReal) (ha : A i = a) (hb : B i = b) :
    addf A B i = a + b := by
  subst ha hb; rfl

/-- The hyperbolic tangent of a block at an entry, the argument's entry named. -/
theorem post_tanh_at {s : Shape} {φ : FTy} (A : FVec Ideal s φ) (i : s.Idx) (a : EReal) (ha : A i = a) :
    tanh A i = Ideal.tanh a := by
  subst ha; rfl

/-- The leaky rectifier as the body spells it (compare with the zero splat, multiply by the slope splat, select),
    at an entry. -/
theorem post_lrelu_at (A : FVec Ideal S4000x128 .f32) (i : S4000x128.Idx) (a : EReal) (ha : A i = a) :
    select (cmpf .oge A (broadcast S4000x128 (Scalar.ofBits .f32 0x00000000#32 : Ideal .f32))) A
        (mulf (broadcast S4000x128 (Scalar.ofBits .f32 0x3C23D70A#32 : Ideal .f32)) A) i = Spec.lrelu a := by
  subst ha; rfl

/-- A bias row of 128 entries, broadcast over the 4000 rows, at (r, d). -/
theorem post_bias128 (b : Vec Ideal S1x128 .f32) (r : Fin 4000) (d : Fin 128) :
    broadcastTo S4000x128 (shapeCast S1x128 b shapeCasts_S1x128_S1x128) broadcasts_S1x128_S4000x128 (ix2 r d)
      = b (ix2 0 d) := by
  rw [shapeCast_self]
  refine broadcastTo_apply _ _ (ix2 r d) (ix2 (0 : Fin 1) d) fun a => ?_
  match a with
  | ⟨0, _⟩ => rfl
  | ⟨1, _⟩ => rfl

/-- A bias row of 64 entries, broadcast over the 4000 rows, at (r, d). -/
theorem post_bias64 (b : Vec Ideal S1x64 .f32) (r : Fin 4000) (d : Fin 64) :
    broadcastTo S4000x64 (shapeCast S1x64 b shapeCasts_S1x64_S1x64) broadcasts_S1x64_S4000x64 (ix2 r d)
      = b (ix2 0 d) := by
  rw [shapeCast_self]
  refine broadcastTo_apply _ _ (ix2 r d) (ix2 (0 : Fin 1) d) fun a => ?_
  match a with
  | ⟨0, _⟩ => rfl
  | ⟨1, _⟩ => rfl

/-! ### The second dot record ([4000,128] · [128,64]), axis by axis -/

theorem post_lhsB_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide),
    dif_pos (show (0 : Fin S4000x128.rank) ∈ dot_S4000x128_S128x64_S4000x64_1_0_0_1_n_n.lhsNonContracting by decide)]
  rfl

theorem post_lhsB_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q

theorem post_rhsB_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q

theorem post_rhsB_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide),
    dif_pos (show (1 : Fin S128x64.rank) ∈ dot_S4000x128_S128x64_S4000x64_1_0_0_1_n_n.rhsNonContracting by decide)]
  rfl

/-- A [4000,128] block times the transpose of a [64,128] weight block, into the zero accumulator, at (r, d):
    the sum over k of x(r,k) · w(d,k). -/
theorem post_mm64 (x : FVec Ideal S4000x128 .bf16) (w : FVec Ideal S64x128 .bf16) (r : Fin 4000) (d : Fin 64) :
    matmul dot_S4000x128_S128x64_S4000x64_1_0_0_1_n_n none x
        (transpose S128x64 [1, 0] w transposes_S64x128_p1_0_S128x64)
        (constant S4000x64 .f32 0x00000000#32) (ix2 r d)
      = ∑ k : Fin 128, x (ix2 r k) * w (ix2 d k) := by
  refine (Ideal.matmul_constant_zero_apply _ none _ _ _).trans ?_
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 r d)
      ((contrEquiv1 dot_S4000x128_S128x64_S4000x64_1_0_0_1_n_n 128 rfl rfl).symm k) = ix2 r k :=
    funext fun a => Fin.ext (by
      match a with
      | ⟨0, _⟩ => exact post_lhsB_0 _ _
      | ⟨1, _⟩ => exact (post_lhsB_1 _ _).trans hk)
  have er : dot_S4000x128_S128x64_S4000x64_1_0_0_1_n_n.rhsIdx (ix2 r d)
      ((contrEquiv1 dot_S4000x128_S128x64_S4000x64_1_0_0_1_n_n 128 rfl rfl).symm k) = ix2 k d :=
    funext fun a => Fin.ext (by
      match a with
      | ⟨0, _⟩ => exact (post_rhsB_0 _ _).trans hk
      | ⟨1, _⟩ => exact post_rhsB_1 _ _)
  rw [el, er]
  exact congrArg (fun t => x (ix2 r k) * t)
    (transpose_apply [1, 0] w transposes_S64x128_p1_0_S128x64 (ix2 k d) (ix2 d k)
      fun c => match c with | ⟨0, _⟩ => rfl | ⟨1, _⟩ => rfl)

/-! ### The layer patterns -/

/-- The product of a block (rounded to the narrow format, the identity here) with a transposed weight block, at
    (r, d), the block's row and the weight's row named. -/
theorem post_mmT128 (x : FVec Ideal S4000x128 .f32) (w : FVec Ideal S128x128 .f32) (r : Fin 4000) (d : Fin 128)
    (f g : Fin 128 → EReal) (hx : ∀ k, x (ix2 r k) = f k) (hw : ∀ k, w (ix2 d k) = g k) :
    matmul dot_S4000x128_S128x128_S4000x128_1_0_0_1_n_n none (truncf .bf16 x bitsLt_bf16_f32)
        (transpose S128x128 [1, 0] (truncf .bf16 w bitsLt_bf16_f32) transposes_S128x128_p1_0_S128x128)
        (constant S4000x128 .f32 0x00000000#32) (ix2 r d)
      = ∑ k : Fin 128, f k * g k := by
  refine (post_mm128 _ _ r d).trans (Finset.sum_congr rfl fun k _ => ?_)
  exact congrArg₂ (· * ·) (hx k) (hw k)

/-- One affine layer of width 128 as the body spells it — product with the transposed weights, plus the broadcast bias
    row — at (r, d). -/
theorem post_lay128 (x : FVec Ideal S4000x128 .f32) (w : Vec Ideal S128x128 .f32) (b : Vec Ideal S1x128 .f32)
    (r : Fin 4000) (f : Fin 128 → EReal) (hx : ∀ k, x (ix2 r k) = f k) (d : Fin 128) :
    addf (matmul dot_S4000x128_S128x128_S4000x128_1_0_0_1_n_n none (truncf .bf16 x bitsLt_bf16_f32)
          (transpose S128x128 [1, 0] (truncf .bf16 w bitsLt_bf16_f32) transposes_S128x128_p1_0_S128x128)
          (constant S4000x128 .f32 0x00000000#32))
        (broadcastTo S4000x128 (shapeCast S1x128 b shapeCasts_S1x128_S1x128) broadcasts_S1x128_S4000x128) (ix2 r d)
      = Spec.lin f (fun j k => w (ix2 j k)) (fun k => b (ix2 0 k)) d :=
  post_addf_at _ _ _ _ _ (post_mmT128 x w r d f (fun k => w (ix2 d k)) hx fun _ => rfl) (post_bias128 b r d)

/-- The last affine layer (128 → 64) followed by the hyperbolic tangent, at (r, d). -/
theorem post_out64 (x : FVec Ideal S4000x128 .f32) (w : Vec Ideal S64x128 .f32) (b : Vec Ideal S1x64 .f32)
    (r : Fin 4000) (f : Fin 128 → EReal) (hx : ∀ k, x (ix2 r k) = f k) (d : Fin 64) :
    tanh (addf (matmul dot_S4000x128_S128x64_S4000x64_1_0_0_1_n_n none (truncf .bf16 x bitsLt_bf16_f32)
          (transpose S128x64 [1, 0] (truncf .bf16 w bitsLt_bf16_f32) transposes_S64x128_p1_0_S128x64)
          (constant S4000x64 .f32 0x00000000#32))
        (broadcastTo S4000x64 (shapeCast S1x64 b shapeCasts_S1x64_S1x64) broadcasts_S1x64_S4000x64)) (ix2 r d)
      = Ideal.tanh (Spec.lin f (fun j k => w (ix2 j k)) (fun k => b (ix2 0 k)) d) := by
  refine post_tanh_at _ _ _ (post_addf_at _ _ _ _ _ ?_ (post_bias64 b r d))
  refine (post_mm64 _ _ r d).trans (Finset.sum_congr rfl fun k _ => ?_)
  exact congrArg (· * w (ix2 d k)) (hx k)

/-! ### The payloads at an entry -/

/-- The third product of the message network (before its bias and tangent), at (r, d). -/
theorem post_pay3_apply (v0 v2 : Vec Ideal S4000x128 .f32) (v6 : Vec Ideal S128x128 .f32) (v10 : Vec Ideal S1x128 .f32)
    (v20 : Vec Ideal S128x128 .f32) (v24 : Vec Ideal S1x128 .f32) (v34 : Vec Ideal S128x128 .f32)
    (r : Fin 4000) (d : Fin 128) :
    k1_pay3 (F := Ideal) v0 v2 v6 v10 v20 v24 v34 (ix2 r d)
      = ∑ k : Fin 128,
          Spec.lrelu (Spec.lin (fun k => Spec.lrelu (Spec.lin (fun k => v0 (ix2 r k) + v2 (ix2 r k))
              (fun j k => v6 (ix2 j k)) (fun k => v10 (ix2 0 k)) k))
            (fun j k => v20 (ix2 j k)) (fun k => v24 (ix2 0 k)) k) * v34 (ix2 d k) := by
  unfold k1_pay3 k1_pay2
  refine post_mmT128 _ _ r d _ _ (fun k => ?_) (fun _ => rfl)
  refine post_lrelu_at _ _ _ ?_
  refine post_lay128 _ _ _ r _ (fun k' => ?_) k
  refine post_lrelu_at _ _ _ ?_
  refine post_lay128 _ _ _ r _ (fun k'' => ?_) k'
  exact post_addf_at _ _ _ _ _ (congrFun (shapeCast_self v0 _) _) (congrFun (shapeCast_self v2 _) _)

/-- The rest of the body — the message network's last bias and tangent, then the last network in its two-sum
    arrangement — at (r, d), from the third product and the node block. -/
theorem post_pay1_apply (v1 v37 : FVec Ideal S4000x128 .f32) (v38 : Vec Ideal S1x128 .f32) (v45 v48 : Vec Ideal S128x128 .f32)
    (v56 : Vec Ideal S1x128 .f32) (v66 : Vec Ideal S64x128 .f32) (v70 : Vec Ideal S1x64 .f32) (r : Fin 4000) (d : Fin 64)
    (z h : Fin 128 → EReal) (hz : ∀ k, Ideal.tanh (v37 (ix2 r k) + v38 (ix2 0 k)) = z k) (hh : ∀ k, v1 (ix2 r k) = h k) :
    k1_pay1 (F := Ideal) v1 v37 v38 v45 v48 v56 v66 v70 (ix2 r d)
      = Spec.postRowSplit z h (fun k j => v45 (ix2 k j)) (fun k j => v48 (ix2 k j)) (fun k => v56 (ix2 0 k))
          (fun k j => v66 (ix2 k j)) (fun k => v70 (ix2 0 k)) d := by
  unfold k1_pay1 Spec.postRowSplit
  refine post_out64 _ _ _ r _ (fun k => ?_) d
  refine post_lrelu_at _ _ _ ?_
  refine post_addf_at _ _ _ _ _ (post_addf_at _ _ _ _ _ ?_ ?_) (post_bias128 v56 r k)
  · refine post_mmT128 _ _ r k _ _ (fun j => ?_) (fun j => congrFun (shapeCast_self v45 _) _)
    exact (post_tanh_at _ _ _ (post_addf_at _ _ _ _ _ rfl (post_bias128 v38 r j))).trans (hz j)
  · exact post_mmT128 _ _ r k _ _ hh (fun j => congrFun (shapeCast_self v48 _) _)

/-- Entry (r, d) of what the second kernel's body leaves in its output block: the message network on row `r` of
    the two node blocks, then the last network in its two-sum arrangement. -/
theorem out1_13_apply (x0 x1 : Vec Ideal S4000x128 .f32) (x2 : Vec Ideal S128x128 .f32) (x3 : Vec Ideal S1x128 .f32)
    (x4 : Vec Ideal S128x128 .f32) (x5 : Vec Ideal S1x128 .f32) (x6 : Vec Ideal S128x128 .f32) (x7 : Vec Ideal S1x128 .f32)
    (x8 x9 : Vec Ideal S128x128 .f32) (x10 : Vec Ideal S1x128 .f32) (x11 : Vec Ideal S64x128 .f32) (x12 : Vec Ideal S1x64 .f32)
    (r : Fin 4000) (d : Fin 64) :
    out1_13 (F := Ideal) x0 x1 x2 x3 x4 x5 x6 x7 x8 x9 x10 x11 x12 (ix2 r d)
      = Spec.postRowSplit
          (Spec.mlpRow (fun k => x0 (ix2 r k)) (fun k => x1 (ix2 r k)) (fun k j => x2 (ix2 k j)) (fun k => x3 (ix2 0 k))
            (fun k j => x4 (ix2 k j)) (fun k => x5 (ix2 0 k)) (fun k j => x6 (ix2 k j)) (fun k => x7 (ix2 0 k)))
          (fun k => x0 (ix2 r k)) (fun k j => x8 (ix2 k j)) (fun k j => x9 (ix2 k j)) (fun k => x10 (ix2 0 k))
          (fun k j => x11 (ix2 k j)) (fun k => x12 (ix2 0 k)) d := by
  unfold out1_13
  rw [View.canon_unit_zero post_zeros2]
  simp only [View.ld_unit_zero (S := S4000x128) post_zeros2, View.ld_unit_zero (S := S128x128) post_zeros2,
    View.ld_unit_zero (S := S1x128) post_zeros2, View.ld_unit_zero (S := S64x128) post_zeros2,
    View.ld_unit_zero (S := S1x64) post_zeros2]
  refine post_pay1_apply _ _ _ _ _ _ _ _ r d _ _ (fun k => ?_) (fun k => ?_)
  · rw [post_pay3_apply]
    rfl
  · exact congrFun (shapeCast_self x0 _) _

end Cert.KernelIdeal.KVal

end
-- ==== Proof.KReg1.lean ====
import proofs.«411107_j14697378087542_2_alg».proof.Proof.Gen.KernelIdeal.Frame
import proofs.«411107_j14697378087542_2_alg».proof.Proof.Spec
import proofs.«411107_j14697378087542_2_alg».proof.Proof.KBody1
import Idealize.ShloMosaic.Lib.ValueIdx
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps, decided over the twenty-five points: the two node windows and the output move with the
    point along the rows; every weight and bias window stays at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = t.val ∧ win1_13.index t (1 : Fin 2) = 0 :=
  (by decide +kernel : ∀ t : Fin grid1.N, _)

/-- The grid has twenty-five points. -/
theorem point_lt1 (t : Fin cfg1.N) : t.val < 25 := lt_of_lt_of_eq t.isLt N_1

/-- Point `t`'s block of the node array is its rows `4000 t … 4000 t + 3999`. -/
theorem iblk1_0_apply (c : Dev nD) (t : Fin cfg1.N) (r : Fin 4000) (k : Fin 128) (n : Fin 100000)
    (hn : n.val = 4000 * t.val + r.val) :
    (iblk1 (F := Ideal) V c 0 t : Vec Ideal S4000x128 .f32) (ix2 r k) = V c main_v16 (ix2 n k) := by
  obtain ⟨e0, e1, -⟩ := idx_facts1 t
  unfold iblk1
  rw [View.read_apply]
  show V c main_v16 _ = V c main_v16 _
  congr 1
  funext a
  apply Fin.ext
  match a with
  | ⟨0, _⟩ => show win1_0.index t (0 : Fin 2) * 4000 + 1 * r.val = n.val; rw [e0, hn]; omega
  | ⟨1, _⟩ => show win1_0.index t (1 : Fin 2) * 128 + 1 * k.val = k.val; rw [e1]; omega

/-- Point `t`'s block of the aggregate array is the same rows of it. -/
theorem iblk1_1_apply (c : Dev nD) (t : Fin cfg1.N) (r : Fin 4000) (k : Fin 128) (n : Fin 100000)
    (hn : n.val = 4000 * t.val + r.val) :
    (iblk1 (F := Ideal) V c 1 t : Vec Ideal S4000x128 .f32) (ix2 r k) = V c main_v27 (ix2 n k) := by
  obtain ⟨-, -, e0, e1, -⟩ := idx_facts1 t
  unfold iblk1
  rw [View.read_apply]
  show V c main_v27 _ = V c main_v27 _
  congr 1
  funext a
  apply Fin.ext
  match a with
  | ⟨0, _⟩ => show win1_1.index t (0 : Fin 2) * 4000 + 1 * r.val = n.val; rw [e0, hn]; omega
  | ⟨1, _⟩ => show win1_1.index t (1 : Fin 2) * 128 + 1 * k.val = k.val; rw [e1]; omega

/-- Window 2 (the first message layer's weights) is the whole array at every point. -/
theorem iblk1_2_apply (c : Dev nD) (t : Fin cfg1.N) (p : Fin 128) (q : Fin 128) :
    (iblk1 (F := Ideal) V c 2 t : Vec Ideal S128x128 .f32) (ix2 p q) = V c main_arg9 (ix2 p q) := by
  have e0 : win1_2.index t (0 : Fin 2) = 0 := (idx_facts1 t).2.2.2.2.1
  have e1 : win1_2.index t (1 : Fin 2) = 0 := (idx_facts1 t).2.2.2.2.2.1
  unfold iblk1
  rw [View.read_apply]
  show V c main_arg9 _ = V c main_arg9 _
  congr 1
  funext a
  apply Fin.ext
  match a with
  | ⟨0, _⟩ => show win1_2.index t (0 : Fin 2) * 128 + 1 * p.val = p.val; rw [e0]; omega
  | ⟨1, _⟩ => show win1_2.index t (1 : Fin 2) * 128 + 1 * q.val = q.val; rw [e1]; omega

/-- Window 3 (the first message layer's bias) is the whole array at every point. -/
theorem iblk1_3_apply (c : Dev nD) (t : Fin cfg1.N) (p : Fin 1) (q : Fin 128) :
    (iblk1 (F := Ideal) V c 3 t : Vec Ideal S1x128 .f32) (ix2 p q) = V c main_v9 (ix2 p q) := by
  have e0 : win1_3.index t (0 : Fin 2) = 0 := (idx_facts1 t).2.2.2.2.2.2.1
  have e1 : win1_3.index t (1 : Fin 2) = 0 := (idx_facts1 t).2.2.2.2.2.2.2.1
  unfold iblk1
  rw [View.read_apply]
  show V c main_v9 _ = V c main_v9 _
  congr 1
  funext a
  apply Fin.ext
  match a with
  | ⟨0, _⟩ => show win1_3.index t (0 : Fin 2) * 1 + 1 * p.val = p.val; rw [e0]; omega
  | ⟨1, _⟩ => show win1_3.index t (1 : Fin 2) * 128 + 1 * q.val = q.val; rw [e1]; omega

/-- Window 4 (the second message layer's weights) is the whole array at every point. -/
theorem iblk1_4_apply (c : Dev nD) (t : Fin cfg1.N) (p : Fin 128) (q : Fin 128) :
    (iblk1 (F := Ideal) V c 4 t : Vec Ideal S128x128 .f32) (ix2 p q) = V c main_arg11 (ix2 p q) := by
  have e0 : win1_4.index t (0 : Fin 2) = 0 := (idx_facts1 t).2.2.2.2.2.2.2.2.1
  have e1 : win1_4.index t (1 : Fin 2) = 0 := (idx_facts1 t).2.2.2.2.2.2.2.2.2.1
  unfold iblk1
  rw [View.read_apply]
  show V c main_arg11 _ = V c main_arg11 _
  congr 1
  funext a
  apply Fin.ext
  match a with
  | ⟨0, _⟩ => show win1_4.index t (0 : Fin 2) * 128 + 1 * p.val = p.val; rw [e0]; omega
  | ⟨1, _⟩ => show win1_4.index t (1 : Fin 2) * 128 + 1 * q.val = q.val; rw [e1]; omega

/-- Window 5 (the second message layer's bias) is the whole array at every point. -/
theorem iblk1_5_apply (c : Dev nD) (t : Fin cfg1.N) (p : Fin 1) (q : Fin 128) :
    (iblk1 (F := Ideal) V c 5 t : Vec Ideal S1x128 .f32) (ix2 p q) = V c main_v10 (ix2 p q) := by
  have e0 : win1_5.index t (0 : Fin 2) = 0 := (idx_facts1 t).2.2.2.2.2.2.2.2.2.2.1
  have e1 : win1_5.index t (1 : Fin 2) = 0 := (idx_facts1 t).2.2.2.2.2.2.2.2.2.2.2.1
  unfold iblk1
  rw [View.read_apply]
  show V c main_v10 _ = V c main_v10 _
  congr 1
  funext a
  apply Fin.ext
  match a with
  | ⟨0, _⟩ => show win1_5.index t (0 : Fin 2) * 1 + 1 * p.val = p.val; rw [e0]; omega
  | ⟨1, _⟩ => show win1_5.index t (1 : Fin 2) * 128 + 1 * q.val = q.val; rw [e1]; omega

/-- Window 6 (the third message layer's weights) is the whole array at every point. -/
theorem iblk1_6_apply (c : Dev nD) (t : Fin cfg1.N) (p : Fin 128) (q : Fin 128) :
    (iblk1 (F := Ideal) V c 6 t : Vec Ideal S128x128 .f32) (ix2 p q) = V c main_arg13 (ix2 p q) := by
  have e0 : win1_6.index t (0 : Fin 2) = 0 := (idx_facts1 t).2.2.2.2.2.2.2.2.2.2.2.2.1
  have e1 : win1_6.index t (1 : Fin 2) = 0 := (idx_facts1 t).2.2.2.2.2.2.2.2.2.2.2.2.2.1
  unfold iblk1
  rw [View.read_apply]
  show V c main_arg13 _ = V c main_arg13 _
  congr 1
  funext a
  apply Fin.ext
  match a with
  | ⟨0, _⟩ => show win1_6.index t (0 : Fin 2) * 128 + 1 * p.val = p.val; rw [e0]; omega
  | ⟨1, _⟩ => show win1_6.index t (1 : Fin 2) * 128 + 1 * q.val = q.val; rw [e1]; omega

/-- Window 7 (the third message layer's bias) is the whole array at every point. -/
theorem iblk1_7_apply (c : Dev nD) (t : Fin cfg1.N) (p : Fin 1) (q : Fin 128) :
    (iblk1 (F := Ideal) V c 7 t : Vec Ideal S1x128 .f32) (ix2 p q) = V c main_v11 (ix2 p q) := by
  have e0 : win1_7.index t (0 : Fin 2) = 0 := (idx_facts1 t).2.2.2.2.2.2.2.2.2.2.2.2.2.2.1
  have e1 : win1_7.index t (1 : Fin 2) = 0 := (idx_facts1 t).2.2.2.2.2.2.2.2.2.2.2.2.2.2.2.1
  unfold iblk1
  rw [View.read_apply]
  show V c main_v11 _ = V c main_v11 _
  congr 1
  funext a
  apply Fin.ext
  match a with
  | ⟨0, _⟩ => show win1_7.index t (0 : Fin 2) * 1 + 1 * p.val = p.val; rw [e0]; omega
  | ⟨1, _⟩ => show win1_7.index t (1 : Fin 2) * 128 + 1 * q.val = q.val; rw [e1]; omega

/-- Window 8 (the left half of the skip layer's weights) is the whole array at every point. -/
theorem iblk1_8_apply (c : Dev nD) (t : Fin cfg1.N) (p : Fin 128) (q : Fin 128) :
    (iblk1 (F := Ideal) V c 8 t : Vec Ideal S128x128 .f32) (ix2 p q) = V c main_v12 (ix2 p q) := by
  have e0 : win1_8.index t (0 : Fin 2) = 0 := (idx_facts1 t).2.2.2.2.2.2.2.2.2.2.2.2.2.2.2.2.1
  have e1 : win1_8.index t (1 : Fin 2) = 0 := (idx_facts1 t).2.2.2.2.2.2.2.2.2.2.2.2.2.2.2.2.2.1
  unfold iblk1
  rw [View.read_apply]
  show V c main_v12 _ = V c main_v12 _
  congr 1
  funext a
  apply Fin.ext
  match a with
  | ⟨0, _⟩ => show win1_8.index t (0 : Fin 2) * 128 + 1 * p.val = p.val; rw [e0]; omega
  | ⟨1, _⟩ => show win1_8.index t (1 : Fin 2) * 128 + 1 * q.val = q.val; rw [e1]; omega

/-- Window 9 (the right half of the skip layer's weights) is the whole array at every point. -/
theorem iblk1_9_apply (c : Dev nD) (t : Fin cfg1.N) (p : Fin 128) (q : Fin 128) :
    (iblk1 (F := Ideal) V c 9 t : Vec Ideal S128x128 .f32) (ix2 p q) = V c main_v13 (ix2 p q) := by
  have e0 : win1_9.index t (0 : Fin 2) = 0 := (idx_facts1 t).2.2.2.2.2.2.2.2.2.2.2.2.2.2.2.2.2.2.1
  have e1 : win1_9.index t (1 : Fin 2) = 0 := (idx_facts1 t).2.2.2.2.2.2.2.2.2.2.2.2.2.2.2.2.2.2.2.1
  unfold iblk1
  rw [View.read_apply]
  show V c main_v13 _ = V c main_v13 _
  congr 1
  funext a
  apply Fin.ext
  match a with
  | ⟨0, _⟩ => show win1_9.index t (0 : Fin 2) * 128 + 1 * p.val = p.val; rw [e0]; omega
  | ⟨1, _⟩ => show win1_9.index t (1 : Fin 2) * 128 + 1 * q.val = q.val; rw [e1]; omega

/-- Window 10 (the skip layer's bias) is the whole array at every point. -/
theorem iblk1_10_apply (c : Dev nD) (t : Fin cfg1.N) (p : Fin 1) (q : Fin 128) :
    (iblk1 (F := Ideal) V c 10 t : Vec Ideal S1x128 .f32) (ix2 p q) = V c main_v14 (ix2 p q) := by
  have e0 : win1_10.index t (0 : Fin 2) = 0 := (idx_facts1 t).2.2.2.2.2.2.2.2.2.2.2.2.2.2.2.2.2.2.2.2.1
  have e1 : win1_10.index t (1 : Fin 2) = 0 := (idx_facts1 t).2.2.2.2.2.2.2.2.2.2.2.2.2.2.2.2.2.2.2.2.2.1
  unfold iblk1
  rw [View.read_apply]
  show V c main_v14 _ = V c main_v14 _
  congr 1
  funext a
  apply Fin.ext
  match a with
  | ⟨0, _⟩ => show win1_10.index t (0 : Fin 2) * 1 + 1 * p.val = p.val; rw [e0]; omega
  | ⟨1, _⟩ => show win1_10.index t (1 : Fin 2) * 128 + 1 * q.val = q.val; rw [e1]; omega

/-- Window 11 (the last layer's weights) is the whole array at every point. -/
theorem iblk1_11_apply (c : Dev nD) (t : Fin cfg1.N) (p : Fin 64) (q : Fin 128) :
    (iblk1 (F := Ideal) V c 11 t : Vec Ideal S64x128 .f32) (ix2 p q) = V c main_arg17 (ix2 p q) := by
  have e0 : win1_11.index t (0 : Fin 2) = 0 := (idx_facts1 t).2.2.2.2.2.2.2.2.2.2.2.2.2.2.2.2.2.2.2.2.2.2.1
  have e1 : win1_11.index t (1 : Fin 2) = 0 := (idx_facts1 t).2.2.2.2.2.2.2.2.2.2.2.2.2.2.2.2.2.2.2.2.2.2.2.1
  unfold iblk1
  rw [View.read_apply]
  show V c main_arg17 _ = V c main_arg17 _
  congr 1
  funext a
  apply Fin.ext
  match a with
  | ⟨0, _⟩ => show win1_11.index t (0 : Fin 2) * 64 + 1 * p.val = p.val; rw [e0]; omega
  | ⟨1, _⟩ => show win1_11.index t (1 : Fin 2) * 128 + 1 * q.val = q.val; rw [e1]; omega

/-- Window 12 (the last layer's bias) is the whole array at every point. -/
theorem iblk1_12_apply (c : Dev nD) (t : Fin cfg1.N) (p : Fin 1) (q : Fin 64) :
    (iblk1 (F := Ideal) V c 12 t : Vec Ideal S1x64 .f32) (ix2 p q) = V c main_v15 (ix2 p q) := by
  have e0 : win1_12.index t (0 : Fin 2) = 0 := (idx_facts1 t).2.2.2.2.2.2.2.2.2.2.2.2.2.2.2.2.2.2.2.2.2.2.2.2.1
  have e1 : win1_12.index t (1 : Fin 2) = 0 := (idx_facts1 t).2.2.2.2.2.2.2.2.2.2.2.2.2.2.2.2.2.2.2.2.2.2.2.2.2.1
  unfold iblk1
  rw [View.read_apply]
  show V c main_v15 _ = V c main_v15 _
  congr 1
  funext a
  apply Fin.ext
  match a with
  | ⟨0, _⟩ => show win1_12.index t (0 : Fin 2) * 1 + 1 * p.val = p.val; rw [e0]; omega
  | ⟨1, _⟩ => show win1_12.index t (1 : Fin 2) * 64 + 1 * q.val = q.val; rw [e1]; omega

/-- What the output array ends holding: at `(n, d)`, the message network on row `n` of the node array and of the
    aggregate array, then coordinate `d` of the last network on that result and the same node row. -/
abbrev rowNet1 (c : Dev nD) : S100000x64.Idx → Elt Ideal .f32 := fun i =>
      Spec.postRowSplit
        (Spec.mlpRow (fun k => V c main_v16 (ix2 (i 0) k)) (fun k => V c main_v27 (ix2 (i 0) k))
          (fun k j => V c main_arg9 (ix2 k j)) (fun k => V c main_v9 (ix2 0 k))
          (fun k j => V c main_arg11 (ix2 k j)) (fun k => V c main_v10 (ix2 0 k))
          (fun k j => V c main_arg13 (ix2 k j)) (fun k => V c main_v11 (ix2 0 k)))
        (fun k => V c main_v16 (ix2 (i 0) k))
        (fun k j => V c main_v12 (ix2 k j)) (fun k j => V c main_v13 (ix2 k j)) (fun k => V c main_v14 (ix2 0 k))
        (fun k j => V c main_arg17 (ix2 k j)) (fun k => V c main_v15 (ix2 0 k)) (i 1)

/-- One entry of the body's output block, once the two node blocks are known to be rows of the node and aggregate
    arrays (row `r` of the blocks being row `n` of the arrays) and the weight and bias blocks to be their arrays:
    entry `(r, d)` is the output function at `(n, d)`. -/
theorem out1_13_rows (c : Dev nD) (x0 x1 : Vec Ideal S4000x128 .f32) (x2 : Vec Ideal S128x128 .f32) (x3 : Vec Ideal S1x128 .f32)
    (x4 : Vec Ideal S128x128 .f32) (x5 : Vec Ideal S1x128 .f32) (x6 : Vec Ideal S128x128 .f32) (x7 : Vec Ideal S1x128 .f32)
    (x8 x9 : Vec Ideal S128x128 .f32) (x10 : Vec Ideal S1x128 .f32) (x11 : Vec Ideal S64x128 .f32) (x12 : Vec Ideal S1x64 .f32)
    (r : Fin 4000) (d : Fin 64) (n : Fin 100000)
    (h0 : ∀ k : Fin 128, x0 (ix2 r k) = V c main_v16 (ix2 n k))
    (h1 : ∀ k : Fin 128, x1 (ix2 r k) = V c main_v27 (ix2 n k))
    (h2 : ∀ (p : Fin 128) (q : Fin 128), x2 (ix2 p q) = V c main_arg9 (ix2 p q))
    (h3 : ∀ (p : Fin 1) (q : Fin 128), x3 (ix2 p q) = V c main_v9 (ix2 p q))
    (h4 : ∀ (p : Fin 128) (q : Fin 128), x4 (ix2 p q) = V c main_arg11 (ix2 p q))
    (h5 : ∀ (p : Fin 1) (q : Fin 128), x5 (ix2 p q) = V c main_v10 (ix2 p q))
    (h6 : ∀ (p : Fin 128) (q : Fin 128), x6 (ix2 p q) = V c main_arg13 (ix2 p q))
    (h7 : ∀ (p : Fin 1) (q : Fin 128), x7 (ix2 p q) = V c main_v11 (ix2 p q))
    (h8 : ∀ (p : Fin 128) (q : Fin 128), x8 (ix2 p q) = V c main_v12 (ix2 p q))
    (h9 : ∀ (p : Fin 128) (q : Fin 128), x9 (ix2 p q) = V c main_v13 (ix2 p q))
    (h10 : ∀ (p : Fin 1) (q : Fin 128), x10 (ix2 p q) = V c main_v14 (ix2 p q))
    (h11 : ∀ (p : Fin 64) (q : Fin 128), x11 (ix2 p q) = V c main_arg17 (ix2 p q))
    (h12 : ∀ (p : Fin 1) (q : Fin 64), x12 (ix2 p q) = V c main_v15 (ix2 p q)) :
    out1_13 (F := Ideal) x0 x1 x2 x3 x4 x5 x6 x7 x8 x9 x10 x11 x12 (ix2 r d) = rowNet1 V c (ix2 n d) := by
  rw [out1_13_apply]
  simp only [h0, h1, h2, h3, h4, h5, h6, h7, h8, h9, h10, h11, h12]

/-- What point `t` writes back is block `t` of the output function: rows `4000 t … 4000 t + 3999`. -/
theorem flushed1_13_eq (c : Dev nD) (t : Fin cfg1.N) :
    (dat1 (F := Ideal) V c).flushed 13 t = ((cfg1.win 13).blk t).view.read (Elt Ideal) (rowNet1 V c) := by
  show (cfg1.win 13).cut (grid1.coords t) ((dat1 (F := Ideal) V c).after 13 t) = _
  rw [after1_13]
  funext j
  obtain ⟨r, d, rfl⟩ : ∃ (r : Fin 4000) (d : Fin 64), j = ix2 r d := ⟨j 0, j 1, eq_ix2 j⟩
  have ht := point_lt1 t
  have hr := r.isLt
  have e0 : win1_13.index t (0 : Fin 2) = t.val := (idx_facts1 t).2.2.2.2.2.2.2.2.2.2.2.2.2.2.2.2.2.2.2.2.2.2.2.2.2.2.1
  have e1 : win1_13.index t (1 : Fin 2) = 0 := (idx_facts1 t).2.2.2.2.2.2.2.2.2.2.2.2.2.2.2.2.2.2.2.2.2.2.2.2.2.2.2
  have hemb : ((cfg1.win 13).blk t).view.emb (ix2 r d) = ix2 (⟨4000 * t.val + r.val, by omega⟩ : Fin 100000) d := by
    funext a
    apply Fin.ext
    match a with
    | ⟨0, _⟩ => show win1_13.index t (0 : Fin 2) * 4000 + 1 * r.val = 4000 * t.val + r.val; rw [e0]; omega
    | ⟨1, _⟩ => show win1_13.index t (1 : Fin 2) * 64 + 1 * d.val = d.val; rw [e1]; omega
  show out1_13 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (ix2 r d) = rowNet1 V c (((cfg1.win 13).blk t).view.emb (ix2 r d))
  rw [hemb]
  exact out1_13_rows V c (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) r d ⟨4000 * t.val + r.val, by omega⟩
    (fun k => iblk1_0_apply V c t r k _ rfl) (fun k => iblk1_1_apply V c t r k _ rfl)
    (iblk1_2_apply V c t) (iblk1_3_apply V c t) (iblk1_4_apply V c t) (iblk1_5_apply V c t) (iblk1_6_apply V c t) (iblk1_7_apply V c t) (iblk1_8_apply V c t) (iblk1_9_apply V c t) (iblk1_10_apply V c t) (iblk1_11_apply V c t) (iblk1_12_apply V c t)

/-- An index of the output array is in point `t`'s block iff each coordinate is in the block's range on its axis. -/
theorem mem_blk1_13 (t : Fin cfg1.N) (i : S100000x64.Idx) :
    i ∈ ((cfg1.win 13).blk t).view.set ↔ ∀ a : Fin 2, win1_13.index t a * S4000x64.size a ≤ (i a).val ∧ (i a).val < win1_13.index t a * S4000x64.size a + S4000x64.size a := by
  show i ∈ ((View.whole main_v28).slice (win1_13.rect t)).set ↔ _
  rw [View.set_slice_whole, Rect.mem_set_unit]
  exact Iff.rfl

/-- Every row of the output array is in some point's block: row `n` in that of point `n / 4000`. -/
theorem cover1 (i : S100000x64.Idx) :
    ∃ t : Fin cfg1.N, (cfg1.win 13).flush t = true ∧ i ∈ ((cfg1.win 13).blk t).view.set := by
  have hi0 : (i 0).val < 100000 := (i 0).isLt
  have hi1 : (i 1).val < 64 := (i 1).isLt
  let t : Fin cfg1.N := ⟨(i 0).val / 4000, lt_of_lt_of_eq (show (i 0).val / 4000 < 25 by omega) N_1.symm⟩
  have e0 : win1_13.index t (0 : Fin 2) = (i 0).val / 4000 := (idx_facts1 t).2.2.2.2.2.2.2.2.2.2.2.2.2.2.2.2.2.2.2.2.2.2.2.2.2.2.1
  have e1 : win1_13.index t (1 : Fin 2) = 0 := (idx_facts1 t).2.2.2.2.2.2.2.2.2.2.2.2.2.2.2.2.2.2.2.2.2.2.2.2.2.2.2
  refine ⟨t, flush1_13 t, ?_⟩
  rw [mem_blk1_13]
  intro a
  match a with
  | ⟨0, _⟩ => show win1_13.index t (0 : Fin 2) * 4000 ≤ (i 0).val ∧ (i 0).val < win1_13.index t (0 : Fin 2) * 4000 + 4000; rw [e0]; omega
  | ⟨1, _⟩ => show win1_13.index t (1 : Fin 2) * 64 ≤ (i 1).val ∧ (i 1).val < win1_13.index t (1 : Fin 2) * 64 + 64; rw [e1]; omega

/-- The second region's output array once all twenty-five points have written back: row `n` is the message
    network and the last network on row `n` of the node array and of the aggregate array. -/
theorem arr1 (c : Dev nD) :
    (dat1 (F := Ideal) V c).arrAt 13 cfg1.N = fun i : S100000x64.Idx =>
      Spec.postRowSplit
        (Spec.mlpRow (fun k => V c main_v16 (ix2 (i 0) k)) (fun k => V c main_v27 (ix2 (i 0) k))
          (fun k j => V c main_arg9 (ix2 k j)) (fun k => V c main_v9 (ix2 0 k))
          (fun k j => V c main_arg11 (ix2 k j)) (fun k => V c main_v10 (ix2 0 k))
          (fun k j => V c main_arg13 (ix2 k j)) (fun k => V c main_v11 (ix2 0 k)))
        (fun k => V c main_v16 (ix2 (i 0) k))
        (fun k j => V c main_v12 (ix2 k j)) (fun k j => V c main_v13 (ix2 k j)) (fun k => V c main_v14 (ix2 0 k))
        (fun k j => V c main_arg17 (ix2 k j)) (fun k => V c main_v15 (ix2 0 k)) (i 1) :=
  (dat1 (F := Ideal) V c).arrAt_eq_of_cover 13 (rowNet1 V c) (fun t _ => flushed1_13_eq V c t) cover1

end Cert.KernelIdeal.KVal

end
-- ==== Proof.KDefs.lean ====
/-
  The kernel program's host computation between its two regions, as named functions of the arrays it reads:
  the row gather `h[src]` in its guarded form (an index is first wrapped if negative, then the gathered row is
  kept where the wrapped index lies in [0, 99999] and replaced by a fill word elsewhere), the per-edge message
  `max (h[src] + (ew · w + b)) 0`, and the sum of the messages into their destination rows.
-/
import proofs.«411107_j14697378087542_2_alg».proof.Proof.Gen.KernelIdeal
import Idealize.ShloMosaic.PureOps.Ideal

noncomputable section

namespace Cert.KernelIdeal.KVal

open Cert.KernelIdeal Cert.KernelIdeal.Gen Idealize.ShloMosaic

/-- The source index, wrapped once if negative: `src + 100000` where `src < 0`, else `src`. -/
def wrapK (src : IVec S400000 32) : IVec S400000 32 :=
  select (cmpi .slt src (broadcastInDim S400000 ![] bcast_S_S400000 (constantI S_ 32 0#32)))
    (addi src (broadcastInDim S400000 ![] bcast_S_S400000 (constantI S_ 32 100000#32))) src

/-- The wrapped index as the one-column start-index table of the gather. -/
def idxK (src : IVec S400000 32) : IVec S400000x1 32 :=
  broadcastInDim S400000x1 ![0] bcast_S400000_S400000x1_0 (wrapK src)

/-- Per edge: is the wrapped index inside [0, 99999]? -/
def maskK (src : IVec S400000 32) : IVec S400000 1 :=
  (fun x v => Host.reduce IntOp.andi x v reducesTo_S400000x1_S400000_d1 h_S_)
    (andi (cmpi .sge (idxK src) (broadcastInDim S400000x1 ![] bcast_S_S400000x1 (constantI S_ 32 0#32)))
      (cmpi .sle (idxK src) (broadcastInDim S400000x1 ![0, 1] bcast_S1x1_S400000x1_0_1
        (broadcastInDim S1x1 ![1] bcast_S1_S1x1_1 (constantI S1 32 99999#32)))))
    (constantI S_ 1 1#1)

/-- The guarded gather: row `wrap src e` of `h` where the guard holds, the fill word elsewhere. -/
def takeK (h : FVec Ideal S100000x128 .f32) (src : IVec S400000 32) : FVec Ideal S400000x128 .f32 :=
  select (broadcastInDim S400000x128 ![0] bcast_S400000_S400000x128_0 (maskK src))
    (Host.gather gather_S100000x128_S400000x1_S400000x128_1_0_n_n_0_1_1128 h (idxK src))
    (broadcastInDim S400000x128 ![] bcast_S_S400000x128 (constant S_ .f32 0x7FC00000#32))

/-- The per-edge message `max (h[src] + (ew · w + b)) 0`; `w` and `b` arrive as [1, 128] rows. -/
def msgK (h : FVec Ideal S100000x128 .f32) (src : IVec S400000 32) (ew : FVec Ideal S400000x1 .f32)
    (w b : FVec Ideal S1x128 .f32) : FVec Ideal S400000x128 .f32 :=
  maximumf
    (addf (takeK h src)
      (addf (mulf (broadcastInDim S400000x128 ![0, 1] bcast_S400000x1_S400000x128_0_1 ew)
          (broadcastInDim S400000x128 ![0, 1] bcast_S1x128_S400000x128_0_1 w))
        (broadcastInDim S400000x128 ![0, 1] bcast_S1x128_S400000x128_0_1 b)))
    (broadcastInDim S400000x128 ![] bcast_S_S400000x128 (constant S_ .f32 0x00000000#32))

/-- The messages summed into their destination rows, from the zero array. -/
def aggK (h : FVec Ideal S100000x128 .f32) (src dst : IVec S400000 32) (ew : FVec Ideal S400000x1 .f32)
    (w b : FVec Ideal S1x128 .f32) : FVec Ideal S100000x128 .f32 :=
  Host.scatterAdd scatter_S100000x128_S400000x1_S400000x128_1_0_0_1
    (broadcastInDim S100000x128 ![] bcast_S_S100000x128 (constant S_ .f32 0x00000000#32))
    (broadcastInDim S400000x1 ![0] bcast_S400000_S400000x1_0 dst)
    (msgK h src ew w b)

end Cert.KernelIdeal.KVal

end
-- ==== Proof.KHost.lean ====
import proofs.«411107_j14697378087542_2_alg».proof.Proof.Gen.KernelIdeal.Frame
import proofs.«411107_j14697378087542_2_alg».proof.Proof.Spec
import proofs.«411107_j14697378087542_2_alg».proof.Proof.KDefs
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The buffers each host stretch writes, and that every other buffer reads through the stretch unchanged -/

/-- The buffers the first host stretch writes: the two index rows, and the reshaped or sliced copies of arguments. -/
abbrev written0 : List (Ref sig .tc) :=
  [main_v0, main_v1, main_v2, main_v3, main_v4, main_v5, main_v6, main_v7, main_v8, main_v9, main_v10, main_v11,
   main_v12, main_v13, main_v14, main_v15]
/-- The buffers the guarded gather writes. -/
abbrev written1 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v17]
/-- The buffers the affine part of the message writes. -/
abbrev written1_1 : List (Ref sig .tc) := [main_v18, main_v19, main_v20, main_v21, main_v22, main_v23]
/-- The buffers the rectifier writes. -/
abbrev written1_2 : List (Ref sig .tc) := [main_call1_cst, main_call1_v0, main_v24]
/-- The buffers the scatter writes. -/
abbrev written1_3 : List (Ref sig .tc) := [main_cst, main_v25, main_v26, main_v27]

/-- A buffer the first host stretch does not write reads through it unchanged. -/
theorem thru0 (W : Valuation τ sig (Elt Ideal)) (b : Ref sig .tc) (hb : ∀ y ∈ written0, b ≠ y) :
    StableHlo.after hostOps0 W (Proc.devRef .tc b) = W (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- A buffer the guarded gather does not write reads through it unchanged. -/
theorem thru1 (W : Valuation τ sig (Elt Ideal)) (b : Ref sig .tc) (hb : ∀ y ∈ written1, b ≠ y) :
    StableHlo.after hostOps1 W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- A buffer the affine part of the message does not write reads through it unchanged. -/
theorem thru1_1 (W : Valuation τ sig (Elt Ideal)) (b : Ref sig .tc) (hb : ∀ y ∈ written1_1, b ≠ y) :
    StableHlo.after hostOps1_1 W (Proc.devRef .tc b) = W (Proc.devRef .tc b) :=
  StableHlo.after_of_forall_not_mem (b := Proc.devRef .tc b) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- A buffer the rectifier does not write reads through it unchanged. -/
theorem thru1_2 (W : Valuation τ sig (Elt Ideal)) (b : Ref sig .tc) (hb : ∀ y ∈ written1_2, b ≠ y) :
    StableHlo.after hostOps1_2 W (Proc.devRef .tc b) = W (Proc.devRef .tc b) :=
  StableHlo.after_of_forall_not_mem (b := Proc.devRef .tc b) _ _ (List.forall_iff_forall_mem.mp (by
    simp only [hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- A buffer the scatter does not write reads through it unchanged. -/
theorem thru1_3 (W : Valuation τ sig (Elt Ideal)) (b : Ref sig .tc) (hb : ∀ y ∈ written1_3, b ≠ y) :
    StableHlo.after hostOps1_3 W (Proc.devRef .tc b) = W (Proc.devRef .tc b) :=
  StableHlo.after_of_forall_not_mem (b := Proc.devRef .tc b) _ _ (List.forall_iff_forall_mem.mp (by
    simp only [hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- A buffer the first host stretch does not write holds, when the first region is entered, what the launch gave it. -/
theorem V1_of_m (c : Dev nD) (b : Ref sig .tc) (hb : ∀ y ∈ written0, b ≠ y) :
    V1 m ρ c b = m ((c : Thread nD τ).loc b) :=
  (thru0 (W0 m ρ c) b hb).trans rfl

/-- A buffer none of the four later host stretches writes holds, when the second region is entered, what the first
    region left. -/
theorem V6_of_W2 (c : Dev nD) (b : Ref sig .tc) (h1 : ∀ y ∈ written1, b ≠ y) (h2 : ∀ y ∈ written1_1, b ≠ y)
    (h3 : ∀ y ∈ written1_2, b ≠ y) (h4 : ∀ y ∈ written1_3, b ≠ y) :
    V6 m ρ c b = W2 m ρ c (Proc.devRef .tc b) :=
  (thru1_3 (W5 m ρ c) b h4).trans ((thru1_2 (W4 m ρ c) b h3).trans ((thru1_1 (W3 m ρ c) b h2).trans (thru1 (W2 m ρ c) b h1)))

/-- If moreover it is no array of the first region, it holds what it held when the first region was entered. -/
theorem V6_of_V1 (c : Dev nD) (b : Ref sig .tc) (h1 : ∀ y ∈ written1, b ≠ y) (h2 : ∀ y ∈ written1_1, b ≠ y)
    (h3 : ∀ y ∈ written1_2, b ≠ y) (h4 : ∀ y ∈ written1_3, b ≠ y) (hA : ∀ w, Pipeline.arrRef spec0 w ≠ b) :
    V6 m ρ c b = V1 m ρ c b :=
  (V6_of_W2 m ρ c b h1 h2 h3 h4).trans (W2_of_ne m ρ c b hA)

/-- And if the first host stretch does not write it either, what the launch gave it. -/
theorem V6_of_m (c : Dev nD) (b : Ref sig .tc) (h0 : ∀ y ∈ written0, b ≠ y) (h1 : ∀ y ∈ written1, b ≠ y)
    (h2 : ∀ y ∈ written1_1, b ≠ y) (h3 : ∀ y ∈ written1_2, b ≠ y) (h4 : ∀ y ∈ written1_3, b ≠ y)
    (hA : ∀ w, Pipeline.arrRef spec0 w ≠ b) :
    V6 m ρ c b = m ((c : Thread nD τ).loc b) :=
  (V6_of_V1 m ρ c b h1 h2 h3 h4 hA).trans (V1_of_m m ρ c b h0)

/-! ## The first stretch's copies as layout operations on the launch contents -/

/-- A `[n]` argument's `[1, n]` copy is its shape cast. -/
theorem V1_v4_eq (c : Dev nD) :
    (V1 m ρ c main_v4 : S1x128.Idx → EReal)
      = shapeCast S1x128 (m ((c : Thread nD τ).loc main_arg4) : S128.Idx → EReal) shapeCasts_S128_S1x128 := by
  show StableHlo.after hostOps0 _ (Proc.devRef .tc main_v4) = _
  after_results
  rfl

theorem V1_v5_eq (c : Dev nD) :
    (V1 m ρ c main_v5 : S1x128.Idx → EReal)
      = shapeCast S1x128 (m ((c : Thread nD τ).loc main_arg6) : S128.Idx → EReal) shapeCasts_S128_S1x128 := by
  show StableHlo.after hostOps0 _ (Proc.devRef .tc main_v5) = _
  after_results
  rfl

theorem V1_v8_eq (c : Dev nD) :
    (V1 m ρ c main_v8 : S1x128.Idx → EReal)
      = shapeCast S1x128 (m ((c : Thread nD τ).loc main_arg8) : S128.Idx → EReal) shapeCasts_S128_S1x128 := by
  show StableHlo.after hostOps0 _ (Proc.devRef .tc main_v8) = _
  after_results
  rfl

theorem V1_v9_eq (c : Dev nD) :
    (V1 m ρ c main_v9 : S1x128.Idx → EReal)
      = shapeCast S1x128 (m ((c : Thread nD τ).loc main_arg10) : S128.Idx → EReal) shapeCasts_S128_S1x128 := by
  show StableHlo.after hostOps0 _ (Proc.devRef .tc main_v9) = _
  after_results
  rfl

theorem V1_v10_eq (c : Dev nD) :
    (V1 m ρ c main_v10 : S1x128.Idx → EReal)
      = shapeCast S1x128 (m ((c : Thread nD τ).loc main_arg12) : S128.Idx → EReal) shapeCasts_S128_S1x128 := by
  show StableHlo.after hostOps0 _ (Proc.devRef .tc main_v10) = _
  after_results
  rfl

theorem V1_v11_eq (c : Dev nD) :
    (V1 m ρ c main_v11 : S1x128.Idx → EReal)
      = shapeCast S1x128 (m ((c : Thread nD τ).loc main_arg14) : S128.Idx → EReal) shapeCasts_S128_S1x128 := by
  show StableHlo.after hostOps0 _ (Proc.devRef .tc main_v11) = _
  after_results
  rfl

theorem V1_v14_eq (c : Dev nD) :
    (V1 m ρ c main_v14 : S1x128.Idx → EReal)
      = shapeCast S1x128 (m ((c : Thread nD τ).loc main_arg16) : S128.Idx → EReal) shapeCasts_S128_S1x128 := by
  show StableHlo.after hostOps0 _ (Proc.devRef .tc main_v14) = _
  after_results
  rfl

theorem V1_v15_eq (c : Dev nD) :
    (V1 m ρ c main_v15 : S1x64.Idx → EReal)
      = shapeCast S1x64 (m ((c : Thread nD τ).loc main_arg18) : S64.Idx → EReal) shapeCasts_S64_S1x64 := by
  show StableHlo.after hostOps0 _ (Proc.devRef .tc main_v15) = _
  after_results
  rfl

/-- The `[128, 1]` weight column goes to `[128]` and then to `[1, 128]`. -/
theorem V1_v7_eq (c : Dev nD) :
    (V1 m ρ c main_v7 : S1x128.Idx → EReal)
      = shapeCast S1x128 (shapeCast S128 (m ((c : Thread nD τ).loc main_arg7) : S128x1.Idx → EReal) shapeCasts_S128x1_S128)
          shapeCasts_S128_S1x128 := by
  show StableHlo.after hostOps0 _ (Proc.devRef .tc main_v7) = _
  after_results
  rfl
/-- Row `r` of the `[2, 400000]` index table, cut out as `[1, 400000]` and cast to `[400000]`. -/
theorem V1_v1_eq (c : Dev nD) :
    (V1 m ρ c main_v1 : S400000.Idx → BitVec 32)
      = shapeCast S400000 (extractStridedSlice S1x400000 ![0, 0]
          (m ((c : Thread nD τ).loc main_arg1) : S2x400000.Idx → BitVec 32) slices_S2x400000_S1x400000_0_0)
          shapeCasts_S1x400000_S400000 := by
  show StableHlo.after hostOps0 _ (Proc.devRef .tc main_v1) = _
  after_results
  rfl
theorem V1_v3_eq (c : Dev nD) :
    (V1 m ρ c main_v3 : S400000.Idx → BitVec 32)
      = shapeCast S400000 (extractStridedSlice S1x400000 ![1, 0]
          (m ((c : Thread nD τ).loc main_arg1) : S2x400000.Idx → BitVec 32) slices_S2x400000_S1x400000_1_0)
          shapeCasts_S1x400000_S400000 := by
  show StableHlo.after hostOps0 _ (Proc.devRef .tc main_v3) = _
  after_results
  rfl
/-- The two halves of the `[128, 256]` weight array. -/
theorem V1_v12_eq (c : Dev nD) :
    (V1 m ρ c main_v12 : S128x128.Idx → EReal)
      = extractStridedSlice S128x128 ![0, 0] (m ((c : Thread nD τ).loc main_arg15) : S128x256.Idx → EReal)
          slices_S128x256_S128x128_0_0 := by
  show StableHlo.after hostOps0 _ (Proc.devRef .tc main_v12) = _
  after_results
theorem V1_v13_eq (c : Dev nD) :
    (V1 m ρ c main_v13 : S128x128.Idx → EReal)
      = extractStridedSlice S128x128 ![0, 128] (m ((c : Thread nD τ).loc main_arg15) : S128x256.Idx → EReal)
          slices_S128x256_S128x128_0_128 := by
  show StableHlo.after hostOps0 _ (Proc.devRef .tc main_v13) = _
  after_results

/-! ## What the first region finds (`V1`): the arguments, and the reshaped copies the first host stretch makes -/

theorem V1_arg0 (c : Dev nD) : V1 m ρ c main_arg0 = m ((c : Thread nD τ).loc main_arg0) := V1_of_m m ρ c main_arg0 (by decide)
theorem V1_arg3 (c : Dev nD) : V1 m ρ c main_arg3 = m ((c : Thread nD τ).loc main_arg3) := V1_of_m m ρ c main_arg3 (by decide)
theorem V1_arg5 (c : Dev nD) : V1 m ρ c main_arg5 = m ((c : Thread nD τ).loc main_arg5) := V1_of_m m ρ c main_arg5 (by decide)
theorem V1_v4 (c : Dev nD) (k : Fin 128) : V1 m ρ c main_v4 (ix2 0 k) = m ((c : Thread nD τ).loc main_arg4) (ix1 k) :=
  (congrFun (V1_v4_eq m ρ c) _).trans (shapeCast_a_1a_apply _ _ 0 k)
theorem V1_v5 (c : Dev nD) (k : Fin 128) : V1 m ρ c main_v5 (ix2 0 k) = m ((c : Thread nD τ).loc main_arg6) (ix1 k) :=
  (congrFun (V1_v5_eq m ρ c) _).trans (shapeCast_a_1a_apply _ _ 0 k)
theorem V1_v1 (c : Dev nD) (e : Fin 400000) : V1 m ρ c main_v1 (ix1 e) = m ((c : Thread nD τ).loc main_arg1) (ix2 0 e) :=
  (congrFun (V1_v1_eq m ρ c) _).trans ((shapeCast_1a_a_apply _ _ e).trans (slice2_axis0_apply 0 _ _ 0 e 0 rfl))
theorem V1_v3 (c : Dev nD) (e : Fin 400000) : V1 m ρ c main_v3 (ix1 e) = m ((c : Thread nD τ).loc main_arg1) (ix2 1 e) :=
  (congrFun (V1_v3_eq m ρ c) _).trans ((shapeCast_1a_a_apply _ _ e).trans (slice2_axis0_apply 1 _ _ 0 e 1 rfl))
theorem V1_v7 (c : Dev nD) (k : Fin 128) : V1 m ρ c main_v7 (ix2 0 k) = m ((c : Thread nD τ).loc main_arg7) (ix2 k 0) :=
  (congrFun (V1_v7_eq m ρ c) _).trans ((shapeCast_a_1a_apply _ _ 0 k).trans
    (shapeCast_apply _ _ (ix1 k) (ix2 k 0) (by
      rw [Shape.rowMajor_val_two, Shape.rowMajor_val_one]
      show k.val * 1 + 0 = k.val
      omega)))
theorem V1_v8 (c : Dev nD) (k : Fin 128) : V1 m ρ c main_v8 (ix2 0 k) = m ((c : Thread nD τ).loc main_arg8) (ix1 k) :=
  (congrFun (V1_v8_eq m ρ c) _).trans (shapeCast_a_1a_apply _ _ 0 k)

/-! ## The four later stretches, each from any contents, given what the contents hold at the buffers the stretch reads
    (they are composed in `V6_v27` below) -/

attribute [local irreducible] Host.gather Host.scatterAdd Host.reduce

/-- The first of them leaves the guarded gather of the node array at the source indices. -/
theorem take_of (W : Valuation τ sig (Elt Ideal)) (h : FVec Ideal S100000x128 .f32) (src : IVec S400000 32)
    (h16 : W (Proc.devRef .tc main_v16) = h) (h1 : W (Proc.devRef .tc main_v1) = src) :
    StableHlo.after hostOps1 W (Proc.devRef .tc main_v17) = takeK h src := by
  subst h16 h1
  after_results
  simp only [StableHlo.TRef.ofBuf, StableHlo.TRef.toBuf, cast_eq]
  rfl

/-- The second adds the affine image of the edge weight. -/
theorem aff_of (W : Valuation τ sig (Elt Ideal)) (t : FVec Ideal S400000x128 .f32) (ew : FVec Ideal S400000x1 .f32)
    (w b : FVec Ideal S1x128 .f32) (h17 : W (Proc.devRef .tc main_v17) = t) (ha2 : W (Proc.devRef .tc main_arg2) = ew)
    (h7 : W (Proc.devRef .tc main_v7) = w) (h8 : W (Proc.devRef .tc main_v8) = b) :
    StableHlo.after hostOps1_1 W (Proc.devRef .tc main_v23)
      = addf t (addf (mulf (broadcastInDim S400000x128 ![0, 1] bcast_S400000x1_S400000x128_0_1 ew)
            (broadcastInDim S400000x128 ![0, 1] bcast_S1x128_S400000x128_0_1 w))
          (broadcastInDim S400000x128 ![0, 1] bcast_S1x128_S400000x128_0_1 b)) := by
  subst h17 ha2 h7 h8
  after_results

/-- The third takes the maximum with zero. -/
theorem relu_of (W : Valuation τ sig (Elt Ideal)) (x : FVec Ideal S400000x128 .f32)
    (h23 : W (Proc.devRef .tc main_v23) = x) :
    StableHlo.after hostOps1_2 W (Proc.devRef .tc main_v24)
      = maximumf x (broadcastInDim S400000x128 ![] bcast_S_S400000x128 (constant (F := Ideal) S_ .f32 0x00000000#32)) := by
  subst h23
  after_results
  simp only [StableHlo.TRef.ofBuf, StableHlo.TRef.toBuf, cast_eq]

/-- The fourth sums the messages into their destination rows. -/
theorem scat_of (W : Valuation τ sig (Elt Ideal)) (dst : IVec S400000 32) (u : FVec Ideal S400000x128 .f32)
    (h3 : W (Proc.devRef .tc main_v3) = dst) (h24 : W (Proc.devRef .tc main_v24) = u) :
    StableHlo.after hostOps1_3 W (Proc.devRef .tc main_v27)
      = Host.scatterAdd (F := Ideal) scatter_S100000x128_S400000x1_S400000x128_1_0_0_1
          (broadcastInDim S100000x128 ![] bcast_S_S100000x128 (constant (F := Ideal) S_ .f32 0x00000000#32))
          (broadcastInDim S400000x1 ![0] bcast_S400000_S400000x1_0 dst) u := by
  subst h3 h24
  after_results

/-! ## What the second region finds (`V6`) -/

/-- The node array is what the first region left. -/
theorem V6_v16 (c : Dev nD) : V6 m ρ c main_v16 = (dat0 (V1 m ρ) c).arrAt 5 cfg0.N :=
  (V6_of_W2 m ρ c main_v16 (by decide) (by decide) (by decide) (by decide)).trans (W2_arr m ρ c 5)
/-- The aggregate array is the host chain of KDefs on the node array and the first stretch's copies. -/
theorem V6_v27 (c : Dev nD) :
    V6 m ρ c main_v27 = aggK ((dat0 (V1 m ρ) c).arrAt 5 cfg0.N) (V1 m ρ c main_v1) (V1 m ρ c main_v3)
      (m ((c : Thread nD τ).loc main_arg2)) (V1 m ρ c main_v7) (V1 m ρ c main_v8) := by
  have h3 : W5 m ρ c (Proc.devRef .tc main_v3) = V1 m ρ c main_v3 :=
    (thru1_2 (W4 m ρ c) main_v3 (by decide)).trans ((thru1_1 (W3 m ρ c) main_v3 (by decide)).trans
      ((thru1 (W2 m ρ c) main_v3 (by decide)).trans (W2_of_ne m ρ c main_v3 (by decide))))
  have h16 : W2 m ρ c (Proc.devRef .tc main_v16) = (dat0 (V1 m ρ) c).arrAt 5 cfg0.N := W2_arr m ρ c 5
  have h1 : W2 m ρ c (Proc.devRef .tc main_v1) = V1 m ρ c main_v1 := W2_of_ne m ρ c main_v1 (by decide)
  have ha2 : W3 m ρ c (Proc.devRef .tc main_arg2) = m ((c : Thread nD τ).loc main_arg2) :=
    (thru1 (W2 m ρ c) main_arg2 (by decide)).trans
      ((W2_of_ne m ρ c main_arg2 (by decide)).trans (V1_of_m m ρ c main_arg2 (by decide)))
  have h7 : W3 m ρ c (Proc.devRef .tc main_v7) = V1 m ρ c main_v7 :=
    (thru1 (W2 m ρ c) main_v7 (by decide)).trans (W2_of_ne m ρ c main_v7 (by decide))
  have h8 : W3 m ρ c (Proc.devRef .tc main_v8) = V1 m ρ c main_v8 :=
    (thru1 (W2 m ρ c) main_v8 (by decide)).trans (W2_of_ne m ρ c main_v8 (by decide))
  have h17 := take_of (W2 m ρ c) _ _ h16 h1
  have h23 := aff_of (W3 m ρ c) _ _ _ _ h17 ha2 h7 h8
  have h24 := relu_of (W4 m ρ c) _ h23
  exact scat_of (W5 m ρ c) _ _ h3 h24
theorem V6_arg9 (c : Dev nD) : V6 m ρ c main_arg9 = m ((c : Thread nD τ).loc main_arg9) :=
  V6_of_m m ρ c main_arg9 (by decide) (by decide) (by decide) (by decide) (by decide) (by decide)
theorem V6_arg11 (c : Dev nD) : V6 m ρ c main_arg11 = m ((c : Thread nD τ).loc main_arg11) :=
  V6_of_m m ρ c main_arg11 (by decide) (by decide) (by decide) (by decide) (by decide) (by decide)
theorem V6_arg13 (c : Dev nD) : V6 m ρ c main_arg13 = m ((c : Thread nD τ).loc main_arg13) :=
  V6_of_m m ρ c main_arg13 (by decide) (by decide) (by decide) (by decide) (by decide) (by decide)
theorem V6_arg17 (c : Dev nD) : V6 m ρ c main_arg17 = m ((c : Thread nD τ).loc main_arg17) :=
  V6_of_m m ρ c main_arg17 (by decide) (by decide) (by decide) (by decide) (by decide) (by decide)
theorem V6_v9 (c : Dev nD) (k : Fin 128) : V6 m ρ c main_v9 (ix2 0 k) = m ((c : Thread nD τ).loc main_arg10) (ix1 k) :=
  (congrFun (V6_of_V1 m ρ c main_v9 (by decide) (by decide) (by decide) (by decide) (by decide)) _).trans
    ((congrFun (V1_v9_eq m ρ c) _).trans (shapeCast_a_1a_apply _ _ 0 k))
theorem V6_v10 (c : Dev nD) (k : Fin 128) : V6 m ρ c main_v10 (ix2 0 k) = m ((c : Thread nD τ).loc main_arg12) (ix1 k) :=
  (congrFun (V6_of_V1 m ρ c main_v10 (by decide) (by decide) (by decide) (by decide) (by decide)) _).trans
    ((congrFun (V1_v10_eq m ρ c) _).trans (shapeCast_a_1a_apply _ _ 0 k))
theorem V6_v11 (c : Dev nD) (k : Fin 128) : V6 m ρ c main_v11 (ix2 0 k) = m ((c : Thread nD τ).loc main_arg14) (ix1 k) :=
  (congrFun (V6_of_V1 m ρ c main_v11 (by decide) (by decide) (by decide) (by decide) (by decide)) _).trans
    ((congrFun (V1_v11_eq m ρ c) _).trans (shapeCast_a_1a_apply _ _ 0 k))
theorem V6_v14 (c : Dev nD) (k : Fin 128) : V6 m ρ c main_v14 (ix2 0 k) = m ((c : Thread nD τ).loc main_arg16) (ix1 k) :=
  (congrFun (V6_of_V1 m ρ c main_v14 (by decide) (by decide) (by decide) (by decide) (by decide)) _).trans
    ((congrFun (V1_v14_eq m ρ c) _).trans (shapeCast_a_1a_apply _ _ 0 k))
theorem V6_v15 (c : Dev nD) (k : Fin 64) : V6 m ρ c main_v15 (ix2 0 k) = m ((c : Thread nD τ).loc main_arg18) (ix1 k) :=
  (congrFun (V6_of_V1 m ρ c main_v15 (by decide) (by decide) (by decide) (by decide) (by decide)) _).trans
    ((congrFun (V1_v15_eq m ρ c) _).trans (shapeCast_a_1a_apply _ _ 0 k))
/-- The left half of the 256 weight columns. -/
theorem V6_v12 (c : Dev nD) (k j : Fin 128) :
    V6 m ρ c main_v12 (ix2 k j) = m ((c : Thread nD τ).loc main_arg15) (ix2 k ⟨j.val, by have := j.isLt; omega⟩) :=
  (congrFun (V6_of_V1 m ρ c main_v12 (by decide) (by decide) (by decide) (by decide) (by decide)) _).trans
    ((congrFun (V1_v12_eq m ρ c) _).trans (slice2_axis1_apply 0 _ _ k j _ (Nat.zero_add _).symm))
/-- The right half. -/
theorem V6_v13 (c : Dev nD) (k j : Fin 128) :
    V6 m ρ c main_v13 (ix2 k j) = m ((c : Thread nD τ).loc main_arg15) (ix2 k ⟨128 + j.val, by have := j.isLt; omega⟩) :=
  (congrFun (V6_of_V1 m ρ c main_v13 (by decide) (by decide) (by decide) (by decide) (by decide)) _).trans
    ((congrFun (V1_v13_eq m ρ c) _).trans (slice2_axis1_apply 128 _ _ k j _ rfl))

end Cert.KernelIdeal.KVal

end
-- ==== Proof.KTake.lean ====
import proofs.«411107_j14697378087542_2_alg».proof.Proof.KDefs
import Idealize.ShloMosaic.Lib.ValueIdx
import Idealize.ShloMosaic.Lib.StableHlo.Predicate
import Idealize.ShloMosaic.Lib.ReduceAll

noncomputable section

namespace Cert.KernelIdeal.KVal

open Cert.KernelIdeal Cert.KernelIdeal.Gen Idealize.ShloMosaic Idealize.ShloMosaic.ValueIdx

attribute [local irreducible] Host.gather

/-- A word that is not below zero, read signed, fails the test "below zero". -/
private theorem slt_zero_of_sge (a : BitVec 32) (h : IntOp.cmpi .sge a 0#32 = 1#1) : IntOp.cmpi .slt a 0#32 = 0#1 := by
  refine eq_zero_of_ne_one (fun h' => ?_)
  have h1 := IntOp.cmpi_sge.1 h
  have h2 := IntOp.cmpi_slt.1 h'
  omega

/-- A word below 100000, read signed, is at most 99999. -/
private theorem sle_of_slt (a : BitVec 32) (h : IntOp.cmpi .slt a 100000#32 = 1#1) : IntOp.cmpi .sle a 99999#32 = 1#1 := by
  refine IntOp.cmpi_sle.2 ?_
  have h2 := IntOp.cmpi_slt.1 h
  have e1 : (100000#32).toInt = 100000 := by decide
  have e2 : (99999#32).toInt = 99999 := by decide
  omega

/-- A left fold by `and` from 1 over words that are all 1 is 1. -/
private theorem foldl_andi_one {ι : Type} (f : ι → BitVec 1) :
    ∀ (l : List ι) (init : BitVec 1), init = 1#1 → (∀ n ∈ l, f n = 1#1) →
      l.foldl (fun r n => IntOp.andi r (f n)) init = 1#1
  | [], init, hi, _ => hi
  | a :: l, init, hi, hf => by
    rw [List.foldl_cons]
    refine foldl_andi_one f l _ ?_ (fun n hn => hf n (List.mem_cons_of_mem _ hn))
    rw [hi, hf a List.mem_cons_self]
    rfl

/-- A vector broadcast to a one-column table reads, at row `p`, its element `p`. -/
private theorem bcastCol_apply {α : Type} (x : S400000.Idx → α) (p : Fin 400000) (q : Fin 1) :
    broadcastInDim S400000x1 ![0] bcast_S400000_S400000x1_0 x (ix2 p q) = x (ix1 p) := by
  unfold broadcastInDim
  refine congrArg x (funext fun a => ?_)
  match a with
  | ⟨0, _⟩ => rfl

/-- A source index in [0, 100000) is not negative, so wrapping leaves it alone. -/
theorem wrapK_eq (src : IVec S400000 32)
    (hs : ∀ e : Fin 400000, IntOp.cmpi .sge (src (ix1 e)) 0#32 = 1#1 ∧ IntOp.cmpi .slt (src (ix1 e)) 100000#32 = 1#1) :
    wrapK src = src := by
  funext i
  obtain ⟨e, rfl⟩ : ∃ e : Fin 400000, i = ix1 e := ⟨i 0, eq_ix1 i⟩
  unfold wrapK
  rw [select_apply]
  have h0 : cmpi .slt src (broadcastInDim S400000 ![] bcast_S_S400000 (constantI S_ 32 0#32)) (ix1 e) = 0#1 :=
    slt_zero_of_sge _ (hs e).1
  rw [h0, select_zero]

/-- With every source index in [0, 100000) the start-index table holds the source indices themselves. -/
private theorem idxK_eq (src : IVec S400000 32)
    (hs : ∀ e : Fin 400000, IntOp.cmpi .sge (src (ix1 e)) 0#32 = 1#1 ∧ IntOp.cmpi .slt (src (ix1 e)) 100000#32 = 1#1) :
    idxK src = broadcastInDim S400000x1 ![0] bcast_S400000_S400000x1_0 src := by
  unfold idxK; rw [wrapK_eq src hs]

/-- With every source index in [0, 100000) the guard is 1 on every edge. -/
private theorem maskK_eq_one (src : IVec S400000 32)
    (hs : ∀ e : Fin 400000, IntOp.cmpi .sge (src (ix1 e)) 0#32 = 1#1 ∧ IntOp.cmpi .slt (src (ix1 e)) 100000#32 = 1#1)
    (j : S400000.Idx) : maskK src j = 1#1 := by
  unfold maskK
  rw [idxK_eq src hs]
  refine (Host.reduce_eq_foldl IntOp.andi _ _ reducesTo_S400000x1_S400000_d1 h_S_ j).trans ?_
  refine foldl_andi_one _ _ _ rfl (fun i _ => ?_)
  obtain ⟨p, q, rfl⟩ : ∃ (p : Fin 400000) (q : Fin 1), i = ix2 p q := ⟨i 0, i 1, eq_ix2 i⟩
  refine IntOp.andi_eq_one.2 ⟨?_, ?_⟩
  · show IntOp.cmpi .sge (broadcastInDim S400000x1 ![0] bcast_S400000_S400000x1_0 src (ix2 p q)) 0#32 = 1#1
    rw [bcastCol_apply]
    exact (hs p).1
  · show IntOp.cmpi .sle (broadcastInDim S400000x1 ![0] bcast_S400000_S400000x1_0 src (ix2 p q)) 99999#32 = 1#1
    rw [bcastCol_apply]
    exact sle_of_slt _ (hs p).2

/-- With every source index in [0, 100000) the guard holds on every edge, and the guarded gather is the plain
    gather at the source indices themselves. -/
theorem takeK_eq_gather (h : FVec Ideal S100000x128 .f32) (src : IVec S400000 32)
    (hs : ∀ e : Fin 400000, IntOp.cmpi .sge (src (ix1 e)) 0#32 = 1#1 ∧ IntOp.cmpi .slt (src (ix1 e)) 100000#32 = 1#1) :
    takeK h src = Host.gather gather_S100000x128_S400000x1_S400000x128_1_0_n_n_0_1_1128 h
      (broadcastInDim S400000x1 ![0] bcast_S400000_S400000x1_0 src) := by
  unfold takeK
  rw [idxK_eq src hs]
  funext i
  rw [select_apply]
  have h1 : broadcastInDim S400000x128 ![0] bcast_S400000_S400000x128_0 (maskK src) i = 1#1 :=
    maskK_eq_one src hs _
  rw [h1, select_one]

end Cert.KernelIdeal.KVal

end
-- ==== Proof.RDefs.lean ====
/-
  The reference program's stages as named functions of the arrays they read, in the program's own operations:
  an affine layer is a contraction with the transposed weight plus the bias laid along the rows; the leaky
  rectifier is a select between a value and its product with f32(0.01); the gather wraps a negative index once;
  the messages are summed into their destination rows; the skip connection concatenates along the columns.
-/
import proofs.«411107_j14697378087542_2_alg».proof.Proof.Gen.ReferenceIdeal
import Idealize.ShloMosaic.PureOps.Ideal

noncomputable section

namespace Cert.ReferenceIdeal.RVal

open Cert.ReferenceIdeal Cert.ReferenceIdeal.Gen Idealize.ShloMosaic

/-- The leaky rectifier on a [100000, 128] array. -/
def lreluR (x : FVec Ideal S100000x128 .f32) : FVec Ideal S100000x128 .f32 :=
  select (cmpf .oge x (broadcastInDim S100000x128 ![] bcast_S_S100000x128 (constant S_ .f32 0x00000000#32))) x
    (mulf (broadcastInDim S100000x128 ![] bcast_S_S100000x128 (id (constant S_ .f32 0x3C23D70A#32))) x)

/-- A bias of 128 entries laid along the rows of a [100000, 128] array. -/
def biasR (b : FVec Ideal S128 .f32) : FVec Ideal S100000x128 .f32 :=
  broadcastInDim S100000x128 ![0, 1] bcast_S1x128_S100000x128_0_1 (broadcastInDim S1x128 ![1] bcast_S128_S1x128_1 b)

/-- The affine layer 16 → 128 on every node. -/
def lin16 (x : FVec Ideal S100000x16 .f32) (w : FVec Ideal S128x16 .f32) (b : FVec Ideal S128 .f32) : FVec Ideal S100000x128 .f32 :=
  addf (Host.dotGeneral dot_S100000x16_S16x128_S100000x128_1_0_0_1_n_n none x (transpose S16x128 [1, 0] w transposes_S128x16_S16x128_1_0)) (biasR b)

/-- The affine layer 128 → 128 on every node. -/
def lin128 (x : FVec Ideal S100000x128 .f32) (w : FVec Ideal S128x128 .f32) (b : FVec Ideal S128 .f32) : FVec Ideal S100000x128 .f32 :=
  addf (Host.dotGeneral dot_S100000x128_S128x128_S100000x128_1_0_0_1_n_n none x (transpose S128x128 [1, 0] w transposes_S128x128_S128x128_1_0)) (biasR b)

/-- The affine layer 256 → 128 on every node. -/
def lin256 (x : FVec Ideal S100000x256 .f32) (w : FVec Ideal S128x256 .f32) (b : FVec Ideal S128 .f32) : FVec Ideal S100000x128 .f32 :=
  addf (Host.dotGeneral dot_S100000x256_S256x128_S100000x128_1_0_0_1_n_n none x (transpose S256x128 [1, 0] w transposes_S128x256_S256x128_1_0)) (biasR b)

/-- The affine layer 128 → 64 on every node. -/
def lin64 (x : FVec Ideal S100000x128 .f32) (w : FVec Ideal S64x128 .f32) (b : FVec Ideal S64 .f32) : FVec Ideal S100000x64 .f32 :=
  addf (Host.dotGeneral dot_S100000x128_S128x64_S100000x64_1_0_0_1_n_n none x (transpose S128x64 [1, 0] w transposes_S64x128_S128x64_1_0))
    (broadcastInDim S100000x64 ![0, 1] bcast_S1x64_S100000x64_0_1 (broadcastInDim S1x64 ![1] bcast_S64_S1x64_1 b))

/-- The affine layer 1 → 128 on every edge. -/
def linE (ew : FVec Ideal S400000x1 .f32) (w : FVec Ideal S128x1 .f32) (b : FVec Ideal S128 .f32) : FVec Ideal S400000x128 .f32 :=
  addf (Host.dotGeneral dot_S400000x1_S1x128_S400000x128_1_0_0_1_n_n none ew (transpose S1x128 [1, 0] w transposes_S128x1_S1x128_1_0))
    (broadcastInDim S400000x128 ![0, 1] bcast_S1x128_S400000x128_0_1 (broadcastInDim S1x128 ![1] bcast_S128_S1x128_1 b))

/-- The node array: the first network on every node. -/
def hR (x : FVec Ideal S100000x16 .f32) (w0 : FVec Ideal S128x16 .f32) (b0 : FVec Ideal S128 .f32)
    (w1 : FVec Ideal S128x128 .f32) (b1 : FVec Ideal S128 .f32) : FVec Ideal S100000x128 .f32 :=
  Host.tanh (lin128 (lreluR (lin16 x w0 b0)) w1 b1)

/-- Row `r` of the edge-index array as a vector of 400000 words. -/
def rowR (r : Nat) (hr : S2x400000.Slices ![r, 0] S1x400000) (ei : IVec S2x400000 32) : IVec S400000 32 :=
  fun i => shapeCast S400000 (extractStridedSlice S1x400000 ![r, 0] ei hr) shapeCasts_S1x400000_S400000 i

/-- The source index, wrapped once if negative. -/
def wrapR (src : IVec S400000 32) : IVec S400000 32 :=
  select (cmpi .slt src (broadcastInDim S400000 ![] bcast_S_S400000 (constantI S_ 32 0#32)))
    (addi src (broadcastInDim S400000 ![] bcast_S_S400000 (constantI S_ 32 100000#32))) src

/-- The per-edge message `max (h[src] + (ew · w + b)) 0`. -/
def msgR (h : FVec Ideal S100000x128 .f32) (src : IVec S400000 32) (ew : FVec Ideal S400000x1 .f32)
    (w : FVec Ideal S128x1 .f32) (b : FVec Ideal S128 .f32) : FVec Ideal S400000x128 .f32 :=
  maximumf
    (addf (Host.gather gather_S100000x128_S400000x1_S400000x128_1_0_n_n_0_1_1128 h
        (broadcastInDim S400000x1 ![0] bcast_S400000_S400000x1_0 (wrapR src)))
      (linE ew w b))
    (broadcastInDim S400000x128 ![] bcast_S_S400000x128 (constant S_ .f32 0x00000000#32))

/-- The messages summed into their destination rows, from the zero array. -/
def aggR (h : FVec Ideal S100000x128 .f32) (src dst : IVec S400000 32) (ew : FVec Ideal S400000x1 .f32)
    (w : FVec Ideal S128x1 .f32) (b : FVec Ideal S128 .f32) : FVec Ideal S100000x128 .f32 :=
  Host.scatterAdd scatter_S100000x128_S400000x1_S400000x128_1_0_0_1
    (broadcastInDim S100000x128 ![] bcast_S_S100000x128 (constant S_ .f32 0x00000000#32))
    (broadcastInDim S400000x1 ![0] bcast_S400000_S400000x1_0 dst)
    (msgR h src ew w b)

/-- The message network on every node. -/
def zR (h agg : FVec Ideal S100000x128 .f32) (w0 : FVec Ideal S128x128 .f32) (b0 : FVec Ideal S128 .f32)
    (w1 : FVec Ideal S128x128 .f32) (b1 : FVec Ideal S128 .f32) (w2 : FVec Ideal S128x128 .f32) (b2 : FVec Ideal S128 .f32) :
    FVec Ideal S100000x128 .f32 :=
  Host.tanh (lin128 (lreluR (lin128 (lreluR (lin128 (addf h agg) w0 b0)) w1 b1)) w2 b2)

/-- The last network on every node, over the concatenated rows `[z, h]`. -/
def outR (z h : FVec Ideal S100000x128 .f32) (w0 : FVec Ideal S128x256 .f32) (b0 : FVec Ideal S128 .f32)
    (w1 : FVec Ideal S64x128 .f32) (b1 : FVec Ideal S64 .f32) : FVec Ideal S100000x64 .f32 :=
  Host.tanh (lin64 (lreluR (lin256
    (concatenate S100000x256 1 [⟨S100000x128, z⟩, ⟨S100000x128, h⟩] concatenates_S100000x128_S100000x128_S100000x256_d1) w0 b0)) w1 b1)

/-- The whole reference as one function of its nineteen arguments. -/
def refOut (a0 : FVec Ideal S100000x16 .f32) (a1 : IVec S2x400000 32) (a2 : FVec Ideal S400000x1 .f32)
    (a3 : FVec Ideal S128x16 .f32) (a4 : FVec Ideal S128 .f32) (a5 : FVec Ideal S128x128 .f32) (a6 : FVec Ideal S128 .f32)
    (a7 : FVec Ideal S128x1 .f32) (a8 : FVec Ideal S128 .f32) (a9 : FVec Ideal S128x128 .f32) (a10 : FVec Ideal S128 .f32)
    (a11 : FVec Ideal S128x128 .f32) (a12 : FVec Ideal S128 .f32) (a13 : FVec Ideal S128x128 .f32) (a14 : FVec Ideal S128 .f32)
    (a15 : FVec Ideal S128x256 .f32) (a16 : FVec Ideal S128 .f32) (a17 : FVec Ideal S64x128 .f32) (a18 : FVec Ideal S64 .f32) :
    FVec Ideal S100000x64 .f32 :=
  outR (zR (hR a0 a3 a4 a5 a6)
      (aggR (hR a0 a3 a4 a5 a6) (rowR 0 slices_S2x400000_S1x400000_0_0 a1) (rowR 1 slices_S2x400000_S1x400000_1_0 a1) a2 a7 a8)
      a9 a10 a11 a12 a13 a14)
    (hR a0 a3 a4 a5 a6) a15 a16 a17 a18

end Cert.ReferenceIdeal.RVal

end
-- ==== Proof.RLayout.lean ====
/-
  The reference's layout operations read at an entry: a bias laid along the rows reads the bias at the column, a
  scalar laid over an array reads the scalar everywhere, and the leaky rectifier acts entry by entry.
-/
import proofs.«411107_j14697378087542_2_alg».proof.Proof.RDefs
import proofs.«411107_j14697378087542_2_alg».proof.Proof.Spec
import Idealize.ShloMosaic.Lib.ValueIdx
import Idealize.ShloMosaic.Lib.Pipeline.Value
import Idealize.ShloMosaic.PureOps.Ideal.Laws

noncomputable section

namespace Cert.ReferenceIdeal.RVal

open Cert.ReferenceIdeal Cert.ReferenceIdeal.Gen Idealize.ShloMosaic Idealize.ShloMosaic.ValueIdx

/-! ## Layout operations at an entry -/

/-- A bias laid along the rows reads the bias at the column. -/
theorem biasR_apply (b : FVec Ideal S128 .f32) (n : Fin 100000) (d : Fin 128) : biasR b (ix2 n d) = b (ix1 d) := by
  unfold biasR
  rw [broadcastInDim_apply ![0, 1] bcast_S1x128_S100000x128_0_1 _ (ix2 n d) (ix2 0 d)
    (fun a => by match a with | ⟨0, _⟩ => rfl | ⟨1, _⟩ => rfl)]
  rw [broadcastInDim_apply ![1] bcast_S128_S1x128_1 b (ix2 0 d) (ix1 d) (fun a => by match a with | ⟨0, _⟩ => rfl)]

/-- The same for the 64 output columns. -/
theorem bias64_apply (b : FVec Ideal S64 .f32) (n : Fin 100000) (d : Fin 64) :
    broadcastInDim S100000x64 ![0, 1] bcast_S1x64_S100000x64_0_1 (broadcastInDim S1x64 ![1] bcast_S64_S1x64_1 b) (ix2 n d) = b (ix1 d) := by
  rw [broadcastInDim_apply ![0, 1] bcast_S1x64_S100000x64_0_1 _ (ix2 n d) (ix2 0 d)
    (fun a => by match a with | ⟨0, _⟩ => rfl | ⟨1, _⟩ => rfl)]
  rw [broadcastInDim_apply ![1] bcast_S64_S1x64_1 b (ix2 0 d) (ix1 d) (fun a => by match a with | ⟨0, _⟩ => rfl)]

/-- A scalar laid over a whole array reads the scalar everywhere. -/
theorem splat_apply {t : Shape} (hb : S_.BroadcastsInDim t ![]) {α : Type} (c : S_.Idx → α) (i : t.Idx) :
    broadcastInDim t ![] hb c i = c ix0 :=
  broadcastInDim_apply ![] hb c i ix0 (fun a => a.elim0)

/-- The leaky rectifier at an entry. -/
theorem lreluR_apply (x : FVec Ideal S100000x128 .f32) (i : S100000x128.Idx) : lreluR x i = Spec.lrelu (x i) := by
  unfold lreluR Spec.lrelu
  rw [select_apply, cmpf_apply, mulf_apply, splat_apply, splat_apply]
  rfl

end Cert.ReferenceIdeal.RVal

end
-- ==== Proof.RDots.lean ====
/-
  A contraction of the reference read at an entry: entry (n, d) of the product of an [N, K] array with a [K, D]
  array is the sum over the K contracted positions of the products of the entries (n, k) and (k, d).  With the
  weight transposed and the bias laid along the rows, an affine layer at (n, d) is `(Σ_k x (n, k) · w (d, k)) + b d`.
  One lemma text, repeated for each contraction the program has.
-/
import proofs.«411107_j14697378087542_2_alg».proof.Proof.RLayout
import proofs.«411107_j14697378087542_2_alg».proof.Proof.Spec
import Idealize.ShloMosaic.Lib.ValueIdx
import Idealize.ShloMosaic.Lib.Pipeline.Value
import Idealize.ShloMosaic.PureOps.Ideal.Laws

noncomputable section

namespace Cert.ReferenceIdeal.RVal

open Cert.ReferenceIdeal Cert.ReferenceIdeal.Gen Idealize.ShloMosaic Idealize.ShloMosaic.ValueIdx

/-! ### The contraction 100000x16 · 16x128 read at an entry -/

theorem lhs16_0 (i : S100000x128.Idx) (q : dot_S100000x16_S16x128_S100000x128_1_0_0_1_n_n.contr.Idx) : (dot_S100000x16_S16x128_S100000x128_1_0_0_1_n_n.lhsIdx i q 0).val = (i 0).val := by
  unfold DotDims.lhsIdx
  rw [dif_neg (show ¬(0 : Fin S100000x16.rank) ∈ dot_S100000x16_S16x128_S100000x128_1_0_0_1_n_n.lhsBatch by decide), dif_pos (show (0 : Fin S100000x16.rank) ∈ dot_S100000x16_S16x128_S100000x128_1_0_0_1_n_n.lhsNonContracting by decide)]
  rfl
theorem lhs16_1 (i : S100000x128.Idx) (q : dot_S100000x16_S16x128_S100000x128_1_0_0_1_n_n.contr.Idx) : (dot_S100000x16_S16x128_S100000x128_1_0_0_1_n_n.lhsIdx i q 1).val = (q ⟨0, by decide⟩).val :=
  dot_S100000x16_S16x128_S100000x128_1_0_0_1_n_n.lhsIdx_val_of_single rfl i q
theorem rhs16_0 (i : S100000x128.Idx) (q : dot_S100000x16_S16x128_S100000x128_1_0_0_1_n_n.contr.Idx) : (dot_S100000x16_S16x128_S100000x128_1_0_0_1_n_n.rhsIdx i q 0).val = (q ⟨0, by decide⟩).val :=
  dot_S100000x16_S16x128_S100000x128_1_0_0_1_n_n.rhsIdx_val_of_single rfl i q
theorem rhs16_1 (i : S100000x128.Idx) (q : dot_S100000x16_S16x128_S100000x128_1_0_0_1_n_n.contr.Idx) : (dot_S100000x16_S16x128_S100000x128_1_0_0_1_n_n.rhsIdx i q 1).val = (i 1).val := by
  unfold DotDims.rhsIdx
  rw [dif_neg (show ¬(1 : Fin S16x128.rank) ∈ dot_S100000x16_S16x128_S100000x128_1_0_0_1_n_n.rhsBatch by decide), dif_pos (show (1 : Fin S16x128.rank) ∈ dot_S100000x16_S16x128_S100000x128_1_0_0_1_n_n.rhsNonContracting by decide)]
  rfl

/-- Entry (n, d) of the product is the sum over the 16 contracted positions. -/
theorem dot16_apply (x : FVec Ideal S100000x16 .f32) (y : FVec Ideal S16x128 .f32) (n : Fin 100000) (d : Fin 128) :
    Host.dotGeneral dot_S100000x16_S16x128_S100000x128_1_0_0_1_n_n none x y (ix2 n d) = ∑ k : Fin 16, x (ix2 n k) * y (ix2 k d) := by
  simp only [Host.dotGeneral]
  rw [Ideal.dotGeneral_apply, ← Equiv.sum_comp (contrEquiv1 dot_S100000x16_S16x128_S100000x128_1_0_0_1_n_n 16 rfl rfl).symm]
  refine Finset.sum_congr rfl fun k _ => ?_
  have hk := contrEquiv1_symm_val dot_S100000x16_S16x128_S100000x128_1_0_0_1_n_n 16 rfl rfl k
  have el : dot_S100000x16_S16x128_S100000x128_1_0_0_1_n_n.lhsIdx (ix2 n d) ((contrEquiv1 dot_S100000x16_S16x128_S100000x128_1_0_0_1_n_n 16 rfl rfl).symm k) = ix2 n k := funext fun a => Fin.ext (by
    match a with
    | ⟨0, _⟩ => exact lhs16_0 _ _
    | ⟨1, _⟩ => exact (lhs16_1 _ _).trans hk)
  have er : dot_S100000x16_S16x128_S100000x128_1_0_0_1_n_n.rhsIdx (ix2 n d) ((contrEquiv1 dot_S100000x16_S16x128_S100000x128_1_0_0_1_n_n 16 rfl rfl).symm k) = ix2 k d := funext fun a => Fin.ext (by
    match a with
    | ⟨0, _⟩ => exact (rhs16_0 _ _).trans hk
    | ⟨1, _⟩ => exact rhs16_1 _ _)
  rw [el, er]

/-! ### The contraction 100000x128 · 128x128 read at an entry -/

theorem lhs128_0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs128_1 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem rhs128_0 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem rhs128_1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- Entry (n, d) of the product is the sum over the 128 contracted positions. -/
theorem dot128_apply (x : FVec Ideal S100000x128 .f32) (y : FVec Ideal S128x128 .f32) (n : Fin 100000) (d : Fin 128) :
    Host.dotGeneral dot_S100000x128_S128x128_S100000x128_1_0_0_1_n_n none x y (ix2 n d) = ∑ k : Fin 128, x (ix2 n k) * y (ix2 k d) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 n d) ((contrEquiv1 dot_S100000x128_S128x128_S100000x128_1_0_0_1_n_n 128 rfl rfl).symm k) = ix2 n k := funext fun a => Fin.ext (by
    match a with
    | ⟨0, _⟩ => exact lhs128_0 _ _
    | ⟨1, _⟩ => exact (lhs128_1 _ _).trans hk)
  have er : dot_S100000x128_S128x128_S100000x128_1_0_0_1_n_n.rhsIdx (ix2 n d) ((contrEquiv1 dot_S100000x128_S128x128_S100000x128_1_0_0_1_n_n 128 rfl rfl).symm k) = ix2 k d := funext fun a => Fin.ext (by
    match a with
    | ⟨0, _⟩ => exact (rhs128_0 _ _).trans hk
    | ⟨1, _⟩ => exact rhs128_1 _ _)
  rw [el, er]

/-! ### The contraction 100000x256 · 256x128 read at an entry -/

theorem lhs256_0 (i : S100000x128.Idx) (q : dot_S100000x256_S256x128_S100000x128_1_0_0_1_n_n.contr.Idx) : (dot_S100000x256_S256x128_S100000x128_1_0_0_1_n_n.lhsIdx i q 0).val = (i 0).val := by
  unfold DotDims.lhsIdx
  rw [dif_neg (show ¬(0 : Fin S100000x256.rank) ∈ dot_S100000x256_S256x128_S100000x128_1_0_0_1_n_n.lhsBatch by decide), dif_pos (show (0 : Fin S100000x256.rank) ∈ dot_S100000x256_S256x128_S100000x128_1_0_0_1_n_n.lhsNonContracting by decide)]
  rfl
theorem lhs256_1 (i : S100000x128.Idx) (q : dot_S100000x256_S256x128_S100000x128_1_0_0_1_n_n.contr.Idx) : (dot_S100000x256_S256x128_S100000x128_1_0_0_1_n_n.lhsIdx i q 1).val = (q ⟨0, by decide⟩).val :=
  dot_S100000x256_S256x128_S100000x128_1_0_0_1_n_n.lhsIdx_val_of_single rfl i q
theorem rhs256_0 (i : S100000x128.Idx) (q : dot_S100000x256_S256x128_S100000x128_1_0_0_1_n_n.contr.Idx) : (dot_S100000x256_S256x128_S100000x128_1_0_0_1_n_n.rhsIdx i q 0).val = (q ⟨0, by decide⟩).val :=
  dot_S100000x256_S256x128_S100000x128_1_0_0_1_n_n.rhsIdx_val_of_single rfl i q
theorem rhs256_1 (i : S100000x128.Idx) (q : dot_S100000x256_S256x128_S100000x128_1_0_0_1_n_n.contr.Idx) : (dot_S100000x256_S256x128_S100000x128_1_0_0_1_n_n.rhsIdx i q 1).val = (i 1).val := by
  unfold DotDims.rhsIdx
  rw [dif_neg (show ¬(1 : Fin S256x128.rank) ∈ dot_S100000x256_S256x128_S100000x128_1_0_0_1_n_n.rhsBatch by decide), dif_pos (show (1 : Fin S256x128.rank) ∈ dot_S100000x256_S256x128_S100000x128_1_0_0_1_n_n.rhsNonContracting by decide)]
  rfl

/-- Entry (n, d) of the product is the sum over the 256 contracted positions. -/
theorem dot256_apply (x : FVec Ideal S100000x256 .f32) (y : FVec Ideal S256x128 .f32) (n : Fin 100000) (d : Fin 128) :
    Host.dotGeneral dot_S100000x256_S256x128_S100000x128_1_0_0_1_n_n none x y (ix2 n d) = ∑ k : Fin 256, x (ix2 n k) * y (ix2 k d) := by
  simp only [Host.dotGeneral]
  rw [Ideal.dotGeneral_apply, ← Equiv.sum_comp (contrEquiv1 dot_S100000x256_S256x128_S100000x128_1_0_0_1_n_n 256 rfl rfl).symm]
  refine Finset.sum_congr rfl fun k _ => ?_
  have hk := contrEquiv1_symm_val dot_S100000x256_S256x128_S100000x128_1_0_0_1_n_n 256 rfl rfl k
  have el : dot_S100000x256_S256x128_S100000x128_1_0_0_1_n_n.lhsIdx (ix2 n d) ((contrEquiv1 dot_S100000x256_S256x128_S100000x128_1_0_0_1_n_n 256 rfl rfl).symm k) = ix2 n k := funext fun a => Fin.ext (by
    match a with
    | ⟨0, _⟩ => exact lhs256_0 _ _
    | ⟨1, _⟩ => exact (lhs256_1 _ _).trans hk)
  have er : dot_S100000x256_S256x128_S100000x128_1_0_0_1_n_n.rhsIdx (ix2 n d) ((contrEquiv1 dot_S100000x256_S256x128_S100000x128_1_0_0_1_n_n 256 rfl rfl).symm k) = ix2 k d := funext fun a => Fin.ext (by
    match a with
    | ⟨0, _⟩ => exact (rhs256_0 _ _).trans hk
    | ⟨1, _⟩ => exact rhs256_1 _ _)
  rw [el, er]

/-! ### The contraction 100000x128 · 128x64 read at an entry -/

theorem lhs64_0 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs64_1 (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
theorem rhs64_0 (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
theorem rhs64_1 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- Entry (n, d) of the product is the sum over the 128 contracted positions. -/
theorem dot64_apply (x : FVec Ideal S100000x128 .f32) (y : FVec Ideal S128x64 .f32) (n : Fin 100000) (d : Fin 64) :
    Host.dotGeneral dot_S100000x128_S128x64_S100000x64_1_0_0_1_n_n none x y (ix2 n d) = ∑ k : Fin 128, x (ix2 n k) * y (ix2 k d) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 n d) ((contrEquiv1 dot_S100000x128_S128x64_S100000x64_1_0_0_1_n_n 128 rfl rfl).symm k) = ix2 n k := funext fun a => Fin.ext (by
    match a with
    | ⟨0, _⟩ => exact lhs64_0 _ _
    | ⟨1, _⟩ => exact (lhs64_1 _ _).trans hk)
  have er : dot_S100000x128_S128x64_S100000x64_1_0_0_1_n_n.rhsIdx (ix2 n d) ((contrEquiv1 dot_S100000x128_S128x64_S100000x64_1_0_0_1_n_n 128 rfl rfl).symm k) = ix2 k d := funext fun a => Fin.ext (by
    match a with
    | ⟨0, _⟩ => exact (rhs64_0 _ _).trans hk
    | ⟨1, _⟩ => exact rhs64_1 _ _)
  rw [el, er]

/-! ### The contraction 400000x1 · 1x128 read at an entry -/

theorem lhsE_0 (i : S400000x128.Idx) (q : dot_S400000x1_S1x128_S400000x128_1_0_0_1_n_n.contr.Idx) : (dot_S400000x1_S1x128_S400000x128_1_0_0_1_n_n.lhsIdx i q 0).val = (i 0).val := by
  unfold DotDims.lhsIdx
  rw [dif_neg (show ¬(0 : Fin S400000x1.rank) ∈ dot_S400000x1_S1x128_S400000x128_1_0_0_1_n_n.lhsBatch by decide), dif_pos (show (0 : Fin S400000x1.rank) ∈ dot_S400000x1_S1x128_S400000x128_1_0_0_1_n_n.lhsNonContracting by decide)]
  rfl
theorem lhsE_1 (i : S400000x128.Idx) (q : dot_S400000x1_S1x128_S400000x128_1_0_0_1_n_n.contr.Idx) : (dot_S400000x1_S1x128_S400000x128_1_0_0_1_n_n.lhsIdx i q 1).val = (q ⟨0, by decide⟩).val :=
  dot_S400000x1_S1x128_S400000x128_1_0_0_1_n_n.lhsIdx_val_of_single rfl i q
theorem rhsE_0 (i : S400000x128.Idx) (q : dot_S400000x1_S1x128_S400000x128_1_0_0_1_n_n.contr.Idx) : (dot_S400000x1_S1x128_S400000x128_1_0_0_1_n_n.rhsIdx i q 0).val = (q ⟨0, by decide⟩).val :=
  dot_S400000x1_S1x128_S400000x128_1_0_0_1_n_n.rhsIdx_val_of_single rfl i q
theorem rhsE_1 (i : S400000x128.Idx) (q : dot_S400000x1_S1x128_S400000x128_1_0_0_1_n_n.contr.Idx) : (dot_S400000x1_S1x128_S400000x128_1_0_0_1_n_n.rhsIdx i q 1).val = (i 1).val := by
  unfold DotDims.rhsIdx
  rw [dif_neg (show ¬(1 : Fin S1x128.rank) ∈ dot_S400000x1_S1x128_S400000x128_1_0_0_1_n_n.rhsBatch by decide), dif_pos (show (1 : Fin S1x128.rank) ∈ dot_S400000x1_S1x128_S400000x128_1_0_0_1_n_n.rhsNonContracting by decide)]
  rfl

/-- Entry (n, d) of the product is the sum over the 1 contracted positions. -/
theorem dotE_apply (x : FVec Ideal S400000x1 .f32) (y : FVec Ideal S1x128 .f32) (n : Fin 400000) (d : Fin 128) :
    Host.dotGeneral dot_S400000x1_S1x128_S400000x128_1_0_0_1_n_n none x y (ix2 n d) = ∑ k : Fin 1, x (ix2 n k) * y (ix2 k d) := by
  simp only [Host.dotGeneral]
  rw [Ideal.dotGeneral_apply, ← Equiv.sum_comp (contrEquiv1 dot_S400000x1_S1x128_S400000x128_1_0_0_1_n_n 1 rfl rfl).symm]
  refine Finset.sum_congr rfl fun k _ => ?_
  have hk := contrEquiv1_symm_val dot_S400000x1_S1x128_S400000x128_1_0_0_1_n_n 1 rfl rfl k
  have el : dot_S400000x1_S1x128_S400000x128_1_0_0_1_n_n.lhsIdx (ix2 n d) ((contrEquiv1 dot_S400000x1_S1x128_S400000x128_1_0_0_1_n_n 1 rfl rfl).symm k) = ix2 n k := funext fun a => Fin.ext (by
    match a with
    | ⟨0, _⟩ => exact lhsE_0 _ _
    | ⟨1, _⟩ => exact (lhsE_1 _ _).trans hk)
  have er : dot_S400000x1_S1x128_S400000x128_1_0_0_1_n_n.rhsIdx (ix2 n d) ((contrEquiv1 dot_S400000x1_S1x128_S400000x128_1_0_0_1_n_n 1 rfl rfl).symm k) = ix2 k d := funext fun a => Fin.ext (by
    match a with
    | ⟨0, _⟩ => exact (rhsE_0 _ _).trans hk
    | ⟨1, _⟩ => exact rhsE_1 _ _)
  rw [el, er]

/-- The affine layer 16 → 128 at (n, d). -/
theorem lin16_apply (x : FVec Ideal S100000x16 .f32) (w : FVec Ideal S128x16 .f32) (b : FVec Ideal S128 .f32) (n : Fin 100000) (d : Fin 128) :
    lin16 x w b (ix2 n d) = Spec.lin (fun k => x (ix2 n k)) (fun d k => w (ix2 d k)) (fun d => b (ix1 d)) d := by
  unfold lin16 Spec.lin
  rw [addf_apply, dot16_apply, biasR_apply]
  congr 1
  refine Finset.sum_congr rfl fun k _ => ?_
  rw [transpose_apply [1, 0] w _ (ix2 k d) (ix2 d k) (fun b => by match b with | ⟨0, _⟩ => rfl | ⟨1, _⟩ => rfl)]

/-- The affine layer 128 → 128 at (n, d). -/
theorem lin128_apply (x : FVec Ideal S100000x128 .f32) (w : FVec Ideal S128x128 .f32) (b : FVec Ideal S128 .f32) (n : Fin 100000) (d : Fin 128) :
    lin128 x w b (ix2 n d) = Spec.lin (fun k => x (ix2 n k)) (fun d k => w (ix2 d k)) (fun d => b (ix1 d)) d := by
  unfold lin128 Spec.lin
  rw [addf_apply, dot128_apply, biasR_apply]
  congr 1
  refine Finset.sum_congr rfl fun k _ => ?_
  rw [transpose_apply [1, 0] w _ (ix2 k d) (ix2 d k) (fun b => by match b with | ⟨0, _⟩ => rfl | ⟨1, _⟩ => rfl)]

/-- The affine layer 256 → 128 at (n, d). -/
theorem lin256_apply (x : FVec Ideal S100000x256 .f32) (w : FVec Ideal S128x256 .f32) (b : FVec Ideal S128 .f32) (n : Fin 100000) (d : Fin 128) :
    lin256 x w b (ix2 n d) = Spec.lin (fun k => x (ix2 n k)) (fun d k => w (ix2 d k)) (fun d => b (ix1 d)) d := by
  unfold lin256 Spec.lin
  rw [addf_apply, dot256_apply, biasR_apply]
  congr 1
  refine Finset.sum_congr rfl fun k _ => ?_
  rw [transpose_apply [1, 0] w _ (ix2 k d) (ix2 d k) (fun b => by match b with | ⟨0, _⟩ => rfl | ⟨1, _⟩ => rfl)]

/-- The affine layer 128 → 64 at (n, d). -/
theorem lin64_apply (x : FVec Ideal S100000x128 .f32) (w : FVec Ideal S64x128 .f32) (b : FVec Ideal S64 .f32) (n : Fin 100000) (d : Fin 64) :
    lin64 x w b (ix2 n d) = Spec.lin (fun k => x (ix2 n k)) (fun d k => w (ix2 d k)) (fun d => b (ix1 d)) d := by
  unfold lin64 Spec.lin
  rw [addf_apply, dot64_apply, bias64_apply]
  congr 1
  refine Finset.sum_congr rfl fun k _ => ?_
  rw [transpose_apply [1, 0] w _ (ix2 k d) (ix2 d k) (fun b => by match b with | ⟨0, _⟩ => rfl | ⟨1, _⟩ => rfl)]

end Cert.ReferenceIdeal.RVal

end
-- ==== Proof.Bridge.lean ====
/-
  The two programs' host computations between the networks agree once every source index lies in [0, 100000):
  the kernel's guarded gather is then the plain gather, the reference's wrap of a negative index never fires, and
  the edge layer `ew · w + b` is the same number whether written as a product of broadcasts or as a contraction
  over the single input position.  The sum of the messages into their destination rows is the same operation on
  both sides, applied to equal messages.
-/
import proofs.«411107_j14697378087542_2_alg».proof.Proof.KTake
import proofs.«411107_j14697378087542_2_alg».proof.Proof.RDots

noncomputable section

namespace Cert.Bridge

open Idealize.ShloMosaic Idealize.ShloMosaic.ValueIdx

/-- The kernel's edge layer at (e, d): the edge weight times the d-th weight plus the d-th bias. -/
theorem edgeK_apply (ew : FVec Ideal Cert.KernelIdeal.S400000x1 .f32) (w b : FVec Ideal Cert.KernelIdeal.S1x128 .f32)
    (e : Fin 400000) (d : Fin 128) :
    addf (mulf (broadcastInDim Cert.KernelIdeal.S400000x128 ![0, 1] Cert.KernelIdeal.Facts₀.bcast_S400000x1_S400000x128_0_1 ew)
        (broadcastInDim Cert.KernelIdeal.S400000x128 ![0, 1] Cert.KernelIdeal.Facts₀.bcast_S1x128_S400000x128_0_1 w))
      (broadcastInDim Cert.KernelIdeal.S400000x128 ![0, 1] Cert.KernelIdeal.Facts₀.bcast_S1x128_S400000x128_0_1 b) (ix2 e d)
      = ew (ix2 e 0) * w (ix2 0 d) + b (ix2 0 d) := by
  rw [addf_apply, mulf_apply]
  rw [broadcastInDim_apply ![0, 1] Cert.KernelIdeal.Facts₀.bcast_S400000x1_S400000x128_0_1 ew (ix2 e d) (ix2 e 0)
    (fun a => by match a with | ⟨0, _⟩ => rfl | ⟨1, _⟩ => rfl)]
  rw [broadcastInDim_apply ![0, 1] Cert.KernelIdeal.Facts₀.bcast_S1x128_S400000x128_0_1 w (ix2 e d) (ix2 0 d)
    (fun a => by match a with | ⟨0, _⟩ => rfl | ⟨1, _⟩ => rfl)]
  rw [broadcastInDim_apply ![0, 1] Cert.KernelIdeal.Facts₀.bcast_S1x128_S400000x128_0_1 b (ix2 e d) (ix2 0 d)
    (fun a => by match a with | ⟨0, _⟩ => rfl | ⟨1, _⟩ => rfl)]

/-- The reference's edge layer at (e, d): the contraction over the one input position, plus the bias. -/
theorem edgeR_apply (ew : FVec Ideal Cert.ReferenceIdeal.S400000x1 .f32) (w : FVec Ideal Cert.ReferenceIdeal.S128x1 .f32)
    (b : FVec Ideal Cert.ReferenceIdeal.S128 .f32) (e : Fin 400000) (d : Fin 128) :
    Cert.ReferenceIdeal.RVal.linE ew w b (ix2 e d) = ew (ix2 e 0) * w (ix2 d 0) + b (ix1 d) := by
  unfold Cert.ReferenceIdeal.RVal.linE
  rw [addf_apply, Cert.ReferenceIdeal.RVal.dotE_apply, Fin.sum_univ_one]
  rw [transpose_apply [1, 0] w _ (ix2 0 d) (ix2 d 0) (fun b => by match b with | ⟨0, _⟩ => rfl | ⟨1, _⟩ => rfl)]
  rw [broadcastInDim_apply ![0, 1] Cert.ReferenceIdeal.Facts₀.bcast_S1x128_S400000x128_0_1 _ (ix2 e d) (ix2 0 d)
    (fun a => by match a with | ⟨0, _⟩ => rfl | ⟨1, _⟩ => rfl)]
  rw [broadcastInDim_apply ![1] Cert.ReferenceIdeal.Facts₀.bcast_S128_S1x128_1 b (ix2 0 d) (ix1 d) (fun a => by match a with | ⟨0, _⟩ => rfl)]

attribute [local irreducible] Host.gather Host.scatterAdd

/-- With every source index in range the two programs' per-edge messages are the same array. -/
theorem msg_eq (h : FVec Ideal Cert.KernelIdeal.S100000x128 .f32) (src : IVec Cert.KernelIdeal.S400000 32)
    (ew : FVec Ideal Cert.KernelIdeal.S400000x1 .f32) (w7 b8 : FVec Ideal Cert.KernelIdeal.S1x128 .f32)
    (a7 : FVec Ideal Cert.ReferenceIdeal.S128x1 .f32) (a8 : FVec Ideal Cert.ReferenceIdeal.S128 .f32)
    (hs : ∀ e : Fin 400000, IntOp.cmpi .sge (src (ix1 e)) 0#32 = 1#1 ∧ IntOp.cmpi .slt (src (ix1 e)) 100000#32 = 1#1)
    (hw : ∀ k : Fin 128, w7 (ix2 0 k) = a7 (ix2 k 0)) (hb : ∀ k : Fin 128, b8 (ix2 0 k) = a8 (ix1 k)) :
    Cert.KernelIdeal.KVal.msgK h src ew w7 b8 = Cert.ReferenceIdeal.RVal.msgR h src ew a7 a8 := by
  have hwrap : Cert.ReferenceIdeal.RVal.wrapR src = src := Cert.KernelIdeal.KVal.wrapK_eq src hs
  funext i
  obtain ⟨e, d, rfl⟩ : ∃ (e : Fin 400000) (d : Fin 128), i = ix2 e d := ⟨i 0, i 1, eq_ix2 i⟩
  unfold Cert.KernelIdeal.KVal.msgK Cert.ReferenceIdeal.RVal.msgR
  rw [Cert.KernelIdeal.KVal.takeK_eq_gather h src hs, hwrap]
  have hE := (edgeK_apply ew w7 b8 e d).trans
    ((congrArg₂ (· + ·) (congrArg (ew (ix2 e 0) * ·) (hw d)) (hb d)).trans (edgeR_apply ew a7 a8 e d).symm)
  exact congrArg₂ max (congrArg₂ (· + ·) rfl hE) rfl

/-- Hence the aggregated arrays agree. -/
theorem agg_eq (h : FVec Ideal Cert.KernelIdeal.S100000x128 .f32) (src dst : IVec Cert.KernelIdeal.S400000 32)
    (ew : FVec Ideal Cert.KernelIdeal.S400000x1 .f32) (w7 b8 : FVec Ideal Cert.KernelIdeal.S1x128 .f32)
    (a7 : FVec Ideal Cert.ReferenceIdeal.S128x1 .f32) (a8 : FVec Ideal Cert.ReferenceIdeal.S128 .f32)
    (hs : ∀ e : Fin 400000, IntOp.cmpi .sge (src (ix1 e)) 0#32 = 1#1 ∧ IntOp.cmpi .slt (src (ix1 e)) 100000#32 = 1#1)
    (hw : ∀ k : Fin 128, w7 (ix2 0 k) = a7 (ix2 k 0)) (hb : ∀ k : Fin 128, b8 (ix2 0 k) = a8 (ix1 k)) :
    Cert.KernelIdeal.KVal.aggK h src dst ew w7 b8 = Cert.ReferenceIdeal.RVal.aggR h src dst ew a7 a8 := by
  unfold Cert.KernelIdeal.KVal.aggK Cert.ReferenceIdeal.RVal.aggR
  rw [msg_eq h src ew w7 b8 a7 a8 hs hw hb]
  rfl

end Cert.Bridge

end
-- ==== Proof.RStages.lean ====
/-
  The reference's networks read at an entry, over the affine layers and the layout operations already read: each
  is the corresponding row function of the common specification on node n's rows.
-/
import proofs.«411107_j14697378087542_2_alg».proof.Proof.RDots
import Idealize.ShloMosaic.Lib.ValueIdx
import Idealize.ShloMosaic.Lib.Pipeline.Value
import Idealize.ShloMosaic.PureOps.Ideal.Laws

noncomputable section

namespace Cert.ReferenceIdeal.RVal

open Cert.ReferenceIdeal Cert.ReferenceIdeal.Gen Idealize.ShloMosaic Idealize.ShloMosaic.ValueIdx

/-! ## The networks at an entry -/

/-- The node array at (n, d) is the first network on node n's features. -/
theorem hR_apply (x : FVec Ideal S100000x16 .f32) (w0 : FVec Ideal S128x16 .f32) (b0 : FVec Ideal S128 .f32)
    (w1 : FVec Ideal S128x128 .f32) (b1 : FVec Ideal S128 .f32) (n : Fin 100000) (d : Fin 128) :
    hR x w0 b0 w1 b1 (ix2 n d)
      = Spec.prepRow (fun j => x (ix2 n j)) (fun k j => w0 (ix2 k j)) (fun k => b0 (ix1 k))
          (fun k j => w1 (ix2 k j)) (fun k => b1 (ix1 k)) d := by
  unfold hR Spec.prepRow
  show Ideal.tanh (lin128 (lreluR (lin16 x w0 b0)) w1 b1 (ix2 n d)) = _
  rw [lin128_apply]
  congr 2
  funext k
  rw [lreluR_apply, lin16_apply]

/-- The message network at (n, d). -/
theorem zR_apply (h agg : FVec Ideal S100000x128 .f32) (w0 : FVec Ideal S128x128 .f32) (b0 : FVec Ideal S128 .f32)
    (w1 : FVec Ideal S128x128 .f32) (b1 : FVec Ideal S128 .f32) (w2 : FVec Ideal S128x128 .f32) (b2 : FVec Ideal S128 .f32)
    (n : Fin 100000) (d : Fin 128) :
    zR h agg w0 b0 w1 b1 w2 b2 (ix2 n d)
      = Spec.mlpRow (fun k => h (ix2 n k)) (fun k => agg (ix2 n k)) (fun k j => w0 (ix2 k j)) (fun k => b0 (ix1 k))
          (fun k j => w1 (ix2 k j)) (fun k => b1 (ix1 k)) (fun k j => w2 (ix2 k j)) (fun k => b2 (ix1 k)) d := by
  unfold zR Spec.mlpRow
  show Ideal.tanh (lin128 _ w2 b2 (ix2 n d)) = _
  rw [lin128_apply]
  congr 2
  funext k
  rw [lreluR_apply, lin128_apply]
  congr 2
  funext k'
  rw [lreluR_apply, lin128_apply]
  rfl

/-- The concatenated row at column k. -/
theorem cat_apply (z h : FVec Ideal S100000x128 .f32) (n : Fin 100000) (k : Fin 256) :
    concatenate S100000x256 1 [⟨S100000x128, z⟩, ⟨S100000x128, h⟩] concatenates_S100000x128_S100000x128_S100000x256_d1 (ix2 n k)
      = Spec.cat (fun j => z (ix2 n j)) (fun j => h (ix2 n j)) k := by
  unfold Spec.cat
  by_cases hk : k.val < 128
  · rw [dif_pos hk]
    exact concatenate_pair_apply_left 1 z h _ (ix2 n k) rfl (ix2 n ⟨k.val, hk⟩)
      (fun b => by match b with | ⟨0, _⟩ => rfl | ⟨1, _⟩ => rfl)
  · rw [dif_neg hk]
    have hk' : k.val - 128 < 128 := by have := k.isLt; omega
    refine concatenate_pair_apply_right 1 z h _ (ix2 n k) rfl rfl (ix2 n ⟨k.val - 128, hk'⟩) (fun b hb => ?_) ?_
    · match b with
      | ⟨0, _⟩ => rfl
      | ⟨1, _⟩ => exact absurd rfl hb
    · show k.val - 128 + 128 = k.val
      omega

/-- The last network at (n, d), over the concatenated row. -/
theorem outR_apply (z h : FVec Ideal S100000x128 .f32) (w0 : FVec Ideal S128x256 .f32) (b0 : FVec Ideal S128 .f32)
    (w1 : FVec Ideal S64x128 .f32) (b1 : FVec Ideal S64 .f32) (n : Fin 100000) (d : Fin 64) :
    outR z h w0 b0 w1 b1 (ix2 n d)
      = Spec.postRowCat (fun k => z (ix2 n k)) (fun k => h (ix2 n k)) (fun k j => w0 (ix2 k j)) (fun k => b0 (ix1 k))
          (fun k j => w1 (ix2 k j)) (fun k => b1 (ix1 k)) d := by
  unfold outR Spec.postRowCat
  show Ideal.tanh (lin64 _ w1 b1 (ix2 n d)) = _
  rw [lin64_apply]
  congr 2
  funext k
  rw [lreluR_apply, lin256_apply]
  congr 2
  funext k'
  exact cat_apply z h n k'

/-- Row r of the edge-index array at position e. -/
theorem rowR_apply (r : Nat) (hr : S2x400000.Slices ![r, 0] S1x400000) (hr2 : r < 2) (ei : IVec S2x400000 32) (e : Fin 400000) :
    rowR r hr ei (ix1 e) = ei (ix2 ⟨r, hr2⟩ e) := by
  unfold rowR
  rw [shapeCast_apply _ shapeCasts_S1x400000_S400000 (ix1 e) (ix2 0 e) (by
    rw [Shape.rowMajor_val_two, Shape.rowMajor_val_one]
    show 0 * 400000 + e.val = e.val
    omega)]
  exact extractStridedSlice_apply ![r, 0] ei hr (ix2 0 e) (ix2 ⟨r, hr2⟩ e)
    (fun a => by match a with | ⟨0, _⟩ => show r = r + 0; omega | ⟨1, _⟩ => show e.val = 0 + e.val; omega)

end Cert.ReferenceIdeal.RVal

end
-- ==== Proof.Final.lean ====
/-
  The kernel program's result array is the reference's function of the argument arrays.  The first region leaves
  the first network on every node; the host chain between the regions leaves the aggregated messages, equal to the
  reference's when every source index lies in [0, 100000); the second region leaves the message network and the
  last network in its two-sum arrangement, which is the reference's single sum over the concatenated row.
-/
import proofs.«411107_j14697378087542_2_alg».proof.Proof.KReg0
import proofs.«411107_j14697378087542_2_alg».proof.Proof.KReg1
import proofs.«411107_j14697378087542_2_alg».proof.Proof.KHost
import proofs.«411107_j14697378087542_2_alg».proof.Proof.Bridge
import proofs.«411107_j14697378087542_2_alg».proof.Proof.RStages

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The node array the first region leaves is the reference's node array of the same arguments. -/
theorem H_eq (c : Dev nD) :
    (dat0 (F := Ideal) (V1 m ρ) c).arrAt 5 cfg0.N
      = Cert.ReferenceIdeal.RVal.hR (m ((c : Thread nD τ).loc main_arg0)) (m ((c : Thread nD τ).loc main_arg3)) (m ((c : Thread nD τ).loc main_arg4)) (m ((c : Thread nD τ).loc main_arg5)) (m ((c : Thread nD τ).loc main_arg6)) := by
  rw [arr0]
  funext i
  obtain ⟨n, d, rfl⟩ : ∃ (n : Fin 100000) (d : Fin 128), i = ix2 n d := ⟨i 0, i 1, eq_ix2 i⟩
  rw [Cert.ReferenceIdeal.RVal.hR_apply]
  simp only [V1_arg0 m ρ c, V1_arg3 m ρ c, V1_arg5 m ρ c, V1_v4 m ρ c, V1_v5 m ρ c]

/-- The source and destination index vectors the first host stretch makes are rows 0 and 1 of the edge-index array. -/
theorem src_eq (c : Dev nD) :
    V1 m ρ c main_v1 = Cert.ReferenceIdeal.RVal.rowR 0 Cert.ReferenceIdeal.Facts₀.slices_S2x400000_S1x400000_0_0 (m ((c : Thread nD τ).loc main_arg1)) := by
  funext j
  obtain ⟨e, rfl⟩ : ∃ e : Fin 400000, j = ix1 e := ⟨j 0, eq_ix1 j⟩
  rw [V1_v1, Cert.ReferenceIdeal.RVal.rowR_apply 0 _ (by decide)]
  rfl

theorem dst_eq (c : Dev nD) :
    V1 m ρ c main_v3 = Cert.ReferenceIdeal.RVal.rowR 1 Cert.ReferenceIdeal.Facts₀.slices_S2x400000_S1x400000_1_0 (m ((c : Thread nD τ).loc main_arg1)) := by
  funext j
  obtain ⟨e, rfl⟩ : ∃ e : Fin 400000, j = ix1 e := ⟨j 0, eq_ix1 j⟩
  rw [V1_v3, Cert.ReferenceIdeal.RVal.rowR_apply 1 _ (by decide)]
  rfl

/-- The aggregate array the second region finds is the reference's, when every source index is in range. -/
theorem agg_val (c : Dev nD)
    (hs : ∀ e : Fin 400000, IntOp.cmpi .sge ((m ((c : Thread nD τ).loc main_arg1)) (ix2 0 e)) 0#32 = 1#1
      ∧ IntOp.cmpi .slt ((m ((c : Thread nD τ).loc main_arg1)) (ix2 0 e)) 100000#32 = 1#1) :
    V6 m ρ c main_v27
      = Cert.ReferenceIdeal.RVal.aggR (Cert.ReferenceIdeal.RVal.hR (m ((c : Thread nD τ).loc main_arg0)) (m ((c : Thread nD τ).loc main_arg3)) (m ((c : Thread nD τ).loc main_arg4)) (m ((c : Thread nD τ).loc main_arg5)) (m ((c : Thread nD τ).loc main_arg6)))
          (Cert.ReferenceIdeal.RVal.rowR 0 Cert.ReferenceIdeal.Facts₀.slices_S2x400000_S1x400000_0_0 (m ((c : Thread nD τ).loc main_arg1)))
          (Cert.ReferenceIdeal.RVal.rowR 1 Cert.ReferenceIdeal.Facts₀.slices_S2x400000_S1x400000_1_0 (m ((c : Thread nD τ).loc main_arg1)))
          (m ((c : Thread nD τ).loc main_arg2)) (m ((c : Thread nD τ).loc main_arg7)) (m ((c : Thread nD τ).loc main_arg8)) := by
  rw [V6_v27, H_eq,
    Cert.Bridge.agg_eq _ _ _ _ _ _ (m ((c : Thread nD τ).loc main_arg7)) (m ((c : Thread nD τ).loc main_arg8))
      (fun e => by rw [V1_v1]; exact hs e) (V1_v7 m ρ c) (V1_v8 m ρ c),
    src_eq, dst_eq]

/-- THE KERNEL'S RESULT: the array the second region leaves is the reference's function of the arguments. -/
theorem kernel_val (c : Dev nD)
    (hs : ∀ e : Fin 400000, IntOp.cmpi .sge ((m ((c : Thread nD τ).loc main_arg1)) (ix2 0 e)) 0#32 = 1#1
      ∧ IntOp.cmpi .slt ((m ((c : Thread nD τ).loc main_arg1)) (ix2 0 e)) 100000#32 = 1#1) :
    W7 m ρ c (Proc.devRef .tc main_v28) = Cert.ReferenceIdeal.RVal.refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  have hW : W7 m ρ c (Proc.devRef .tc main_v28) = (dat1 (V6 m ρ) c).arrAt 13 cfg1.N := W7_arr m ρ c 13
  rw [hW, arr1]
  funext i
  obtain ⟨n, d, rfl⟩ : ∃ (n : Fin 100000) (d : Fin 64), i = ix2 n d := ⟨i 0, i 1, eq_ix2 i⟩
  simp only [V6_v16 m ρ c, agg_val m ρ c hs, H_eq m ρ c, V6_arg9 m ρ c, V6_arg11 m ρ c, V6_arg13 m ρ c, V6_arg17 m ρ c,
    V6_v9 m ρ c, V6_v10 m ρ c, V6_v11 m ρ c, V6_v14 m ρ c, V6_v15 m ρ c, V6_v12 m ρ c, V6_v13 m ρ c]
  unfold Cert.ReferenceIdeal.RVal.refOut
  rw [Cert.ReferenceIdeal.RVal.outR_apply, Cert.Spec.postRowCat_eq_split]
  simp only [Cert.ReferenceIdeal.RVal.zR_apply]

end Cert.KernelIdeal.KVal

end
-- ==== Proof.RefRun.lean ====
/- The reference program's run. Its @main is one straight line of host operations: each outlined
   function (the leaky rectifier with its select, the rectifier) is written out at its call over that
   call's own buffers. The line run from any memory leaves every buffer at the fold of the operations
   over the launch contents. -/
import proofs.«411107_j14697378087542_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's ninety-eight operations in order, the calls unfolded. The node encoder (a linear layer, the
    leaky rectifier, a linear layer, tanh), the edge term (a rank-one product plus a bias), the gather of
    source rows, the rectifier, the scatter-add onto destination rows, the update (three linear layers
    with two leaky rectifiers, tanh), the concatenation with the encoded nodes, and the read-out (a linear
    layer, the leaky rectifier, a linear layer, tanh). Each leaky rectifier is seven operations: the zero,
    its broadcast, the comparison, the slope converted, its broadcast, the product, the select. The
    rectifier is three: the zero, its broadcast, the maximum. -/
abbrev ops : List (HloOp τ sig (Elt F)) :=
  [ unary main_arg3 main_v0 ((transpose S16x128 [1, 0] · transposes_S128x16_S16x128_1_0) : (⟨S128x16, .f32⟩ : BufTy).Contents (Elt F) → (⟨S16x128, .f32⟩ : BufTy).Contents (Elt F)),
    binary main_arg0 main_v0 main_v1 ((fun l r => Host.dotGeneral dot_S100000x16_S16x128_S100000x128_1_0_0_1_n_n none l r) : (⟨S100000x16, .f32⟩ : BufTy).Contents (Elt F) → (⟨S16x128, .f32⟩ : BufTy).Contents (Elt F) → (⟨S100000x128, .f32⟩ : BufTy).Contents (Elt F)),
    unary main_arg4 main_v2 (broadcastInDim S1x128 ![1] bcast_S128_S1x128_1 : (⟨S128, .f32⟩ : BufTy).Contents (Elt F) → (⟨S1x128, .f32⟩ : BufTy).Contents (Elt F)),
    unary main_v2 main_v3 (broadcastInDim S100000x128 ![0, 1] bcast_S1x128_S100000x128_0_1 : (⟨S1x128, .f32⟩ : BufTy).Contents (Elt F) → (⟨S100000x128, .f32⟩ : BufTy).Contents (Elt F)),
    binary main_v1 main_v3 main_v4 (addf : (⟨S100000x128, .f32⟩ : BufTy).Contents (Elt F) → (⟨S100000x128, .f32⟩ : BufTy).Contents (Elt F) → (⟨S100000x128, .f32⟩ : BufTy).Contents (Elt F)),
    nullary main_cst (constant S_ .f32 0x3C23D70A#32),
    TRef.nullary main_call0.cst (constant S_ .f32 0x00000000#32),
    TRef.unary main_call0.cst main_call0.v0 (broadcastInDim S100000x128 ![] bcast_S_S100000x128),
    TRef.binary (.of main_v4 : TRef sig ⟨S100000x128, .f32⟩) main_call0.v0 main_call0.v1 (cmpf .oge),
    TRef.unary (.of main_cst : TRef sig ⟨S_, .f32⟩) main_call0.v2 id,
    TRef.unary main_call0.v2 main_call0.v3 (broadcastInDim S100000x128 ![] bcast_S_S100000x128),
    TRef.binary main_call0.v3 (.of main_v4 : TRef sig ⟨S100000x128, .f32⟩) main_call0.v4 mulf,
    TRef.ternary main_call0.v1 (.of main_v4 : TRef sig ⟨S100000x128, .f32⟩) main_call0.v4 main_call0.call0.v0 select,
    unary main_arg5 main_v6 ((transpose S128x128 [1, 0] · transposes_S128x128_S128x128_1_0) : (⟨S128x128, .f32⟩ : BufTy).Contents (Elt F) → (⟨S128x128, .f32⟩ : BufTy).Contents (Elt F)),
    binary main_v5 main_v6 main_v7 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v8 (broadcastInDim S1x128 ![1] bcast_S128_S1x128_1 : (⟨S128, .f32⟩ : BufTy).Contents (Elt F) → (⟨S1x128, .f32⟩ : BufTy).Contents (Elt F)),
    unary main_v8 main_v9 (broadcastInDim S100000x128 ![0, 1] bcast_S1x128_S100000x128_0_1 : (⟨S1x128, .f32⟩ : BufTy).Contents (Elt F) → (⟨S100000x128, .f32⟩ : BufTy).Contents (Elt F)),
    binary main_v7 main_v9 main_v10 (addf : (⟨S100000x128, .f32⟩ : BufTy).Contents (Elt F) → (⟨S100000x128, .f32⟩ : BufTy).Contents (Elt F) → (⟨S100000x128, .f32⟩ : BufTy).Contents (Elt F)),
    unary main_v10 main_v11 (Host.tanh : (⟨S100000x128, .f32⟩ : BufTy).Contents (Elt F) → (⟨S100000x128, .f32⟩ : BufTy).Contents (Elt F)),
    unary main_arg7 main_v12 ((transpose S1x128 [1, 0] · transposes_S128x1_S1x128_1_0) : (⟨S128x1, .f32⟩ : BufTy).Contents (Elt F) → (⟨S1x128, .f32⟩ : BufTy).Contents (Elt F)),
    binary main_arg2 main_v12 main_v13 ((fun l r => Host.dotGeneral dot_S400000x1_S1x128_S400000x128_1_0_0_1_n_n none l r) : (⟨S400000x1, .f32⟩ : BufTy).Contents (Elt F) → (⟨S1x128, .f32⟩ : BufTy).Contents (Elt F) → (⟨S400000x128, .f32⟩ : BufTy).Contents (Elt F)),
    unary main_arg8 main_v14 (broadcastInDim S1x128 ![1] bcast_S128_S1x128_1 : (⟨S128, .f32⟩ : BufTy).Contents (Elt F) → (⟨S1x128, .f32⟩ : BufTy).Contents (Elt F)),
    unary main_v14 main_v15 (broadcastInDim S400000x128 ![0, 1] bcast_S1x128_S400000x128_0_1 : (⟨S1x128, .f32⟩ : BufTy).Contents (Elt F) → (⟨S400000x128, .f32⟩ : BufTy).Contents (Elt F)),
    binary main_v13 main_v15 main_v16 (addf : (⟨S400000x128, .f32⟩ : BufTy).Contents (Elt F) → (⟨S400000x128, .f32⟩ : BufTy).Contents (Elt F) → (⟨S400000x128, .f32⟩ : BufTy).Contents (Elt F)),
    unary main_arg1 main_v17 ((extractStridedSlice S1x400000 ![0, 0] · slices_S2x400000_S1x400000_0_0) : (⟨S2x400000, .i32⟩ : BufTy).Contents (Elt F) → (⟨S1x400000, .i32⟩ : BufTy).Contents (Elt F)),
    reshape main_v17 main_v18 rfl shapeCasts_S1x400000_S400000,
    nullary main_c (constantI S_ 32 0#32),
    unary main_c main_v19 (broadcastInDim S400000 ![] bcast_S_S400000 : (⟨S_, .i32⟩ : BufTy).Contents (Elt F) → (⟨S400000, .i32⟩ : BufTy).Contents (Elt F)),
    binary main_v18 main_v19 main_v20 (cmpi .slt : (⟨S400000, .i32⟩ : BufTy).Contents (Elt F) → (⟨S400000, .i32⟩ : BufTy).Contents (Elt F) → (⟨S400000, .i1⟩ : BufTy).Contents (Elt F)),
    nullary main_c_0 (constantI S_ 32 100000#32),
    unary main_c_0 main_v21 (broadcastInDim S400000 ![] bcast_S_S400000 : (⟨S_, .i32⟩ : BufTy).Contents (Elt F) → (⟨S400000, .i32⟩ : BufTy).Contents (Elt F)),
    binary main_v18 main_v21 main_v22 (addi : (⟨S400000, .i32⟩ : BufTy).Contents (Elt F) → (⟨S400000, .i32⟩ : BufTy).Contents (Elt F) → (⟨S400000, .i32⟩ : BufTy).Contents (Elt F)),
    ternary main_v20 main_v22 main_v18 main_v23 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v23 main_v24 (broadcastInDim S400000x1 ![0] bcast_S400000_S400000x1_0 : (⟨S400000, .i32⟩ : BufTy).Contents (Elt F) → (⟨S400000x1, .i32⟩ : BufTy).Contents (Elt F)),
    binary main_v11 main_v24 main_v25 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    binary main_v25 main_v16 main_v26 (addf : (⟨S400000x128, .f32⟩ : BufTy).Contents (Elt F) → (⟨S400000x128, .f32⟩ : BufTy).Contents (Elt F) → (⟨S400000x128, .f32⟩ : BufTy).Contents (Elt F)),
    TRef.nullary main_call1.cst (constant S_ .f32 0x00000000#32),
    TRef.unary main_call1.cst main_call1.v0 (broadcastInDim S400000x128 ![] bcast_S_S400000x128),
    TRef.binary (.of main_v26 : TRef sig ⟨S400000x128, .f32⟩) main_call1.v0 main_call1.v1 maximumf,
    unary main_arg1 main_v28 ((extractStridedSlice S1x400000 ![1, 0] · slices_S2x400000_S1x400000_1_0) : (⟨S2x400000, .i32⟩ : BufTy).Contents (Elt F) → (⟨S1x400000, .i32⟩ : BufTy).Contents (Elt F)),
    reshape main_v28 main_v29 rfl shapeCasts_S1x400000_S400000,
    nullary main_cst_1 (constant S_ .f32 0x00000000#32),
    unary main_cst_1 main_v30 (broadcastInDim S100000x128 ![] bcast_S_S100000x128 : (⟨S_, .f32⟩ : BufTy).Contents (Elt F) → (⟨S100000x128, .f32⟩ : BufTy).Contents (Elt F)),
    unary main_v29 main_v31 (broadcastInDim S400000x1 ![0] bcast_S400000_S400000x1_0 : (⟨S400000, .i32⟩ : BufTy).Contents (Elt F) → (⟨S400000x1, .i32⟩ : BufTy).Contents (Elt F)),
    ternary main_v30 main_v31 main_v27 main_v32 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    binary main_v11 main_v32 main_v33 (addf : (⟨S100000x128, .f32⟩ : BufTy).Contents (Elt F) → (⟨S100000x128, .f32⟩ : BufTy).Contents (Elt F) → (⟨S100000x128, .f32⟩ : BufTy).Contents (Elt F)),
    unary main_arg9 main_v34 ((transpose S128x128 [1, 0] · transposes_S128x128_S128x128_1_0) : (⟨S128x128, .f32⟩ : BufTy).Contents (Elt F) → (⟨S128x128, .f32⟩ : BufTy).Contents (Elt F)),
    binary main_v33 main_v34 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v36 (broadcastInDim S1x128 ![1] bcast_S128_S1x128_1 : (⟨S128, .f32⟩ : BufTy).Contents (Elt F) → (⟨S1x128, .f32⟩ : BufTy).Contents (Elt F)),
    unary main_v36 main_v37 (broadcastInDim S100000x128 ![0, 1] bcast_S1x128_S100000x128_0_1 : (⟨S1x128, .f32⟩ : BufTy).Contents (Elt F) → (⟨S100000x128, .f32⟩ : BufTy).Contents (Elt F)),
    binary main_v35 main_v37 main_v38 (addf : (⟨S100000x128, .f32⟩ : BufTy).Contents (Elt F) → (⟨S100000x128, .f32⟩ : BufTy).Contents (Elt F) → (⟨S100000x128, .f32⟩ : BufTy).Contents (Elt F)),
    nullary main_cst_2 (constant S_ .f32 0x3C23D70A#32),
    TRef.nullary main_call2.cst (constant S_ .f32 0x00000000#32),
    TRef.unary main_call2.cst main_call2.v0 (broadcastInDim S100000x128 ![] bcast_S_S100000x128),
    TRef.binary (.of main_v38 : TRef sig ⟨S100000x128, .f32⟩) main_call2.v0 main_call2.v1 (cmpf .oge),
    TRef.unary (.of main_cst_2 : TRef sig ⟨S_, .f32⟩) main_call2.v2 id,
    TRef.unary main_call2.v2 main_call2.v3 (broadcastInDim S100000x128 ![] bcast_S_S100000x128),
    TRef.binary main_call2.v3 (.of main_v38 : TRef sig ⟨S100000x128, .f32⟩) main_call2.v4 mulf,
    TRef.ternary main_call2.v1 (.of main_v38 : TRef sig ⟨S100000x128, .f32⟩) main_call2.v4 main_call2.call0.v0 select,
    unary main_arg11 main_v40 ((transpose S128x128 [1, 0] · transposes_S128x128_S128x128_1_0) : (⟨S128x128, .f32⟩ : BufTy).Contents (Elt F) → (⟨S128x128, .f32⟩ : BufTy).Contents (Elt F)),
    binary main_v39 main_v40 main_v41 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg12 main_v42 (broadcastInDim S1x128 ![1] bcast_S128_S1x128_1 : (⟨S128, .f32⟩ : BufTy).Contents (Elt F) → (⟨S1x128, .f32⟩ : BufTy).Contents (Elt F)),
    unary main_v42 main_v43 (broadcastInDim S100000x128 ![0, 1] bcast_S1x128_S100000x128_0_1 : (⟨S1x128, .f32⟩ : BufTy).Contents (Elt F) → (⟨S100000x128, .f32⟩ : BufTy).Contents (Elt F)),
    binary main_v41 main_v43 main_v44 (addf : (⟨S100000x128, .f32⟩ : BufTy).Contents (Elt F) → (⟨S100000x128, .f32⟩ : BufTy).Contents (Elt F) → (⟨S100000x128, .f32⟩ : BufTy).Contents (Elt F)),
    nullary main_cst_3 (constant S_ .f32 0x3C23D70A#32),
    TRef.nullary main_call3.cst (constant S_ .f32 0x00000000#32),
    TRef.unary main_call3.cst main_call3.v0 (broadcastInDim S100000x128 ![] bcast_S_S100000x128),
    TRef.binary (.of main_v44 : TRef sig ⟨S100000x128, .f32⟩) main_call3.v0 main_call3.v1 (cmpf .oge),
    TRef.unary (.of main_cst_3 : TRef sig ⟨S_, .f32⟩) main_call3.v2 id,
    TRef.unary main_call3.v2 main_call3.v3 (broadcastInDim S100000x128 ![] bcast_S_S100000x128),
    TRef.binary main_call3.v3 (.of main_v44 : TRef sig ⟨S100000x128, .f32⟩) main_call3.v4 mulf,
    TRef.ternary main_call3.v1 (.of main_v44 : TRef sig ⟨S100000x128, .f32⟩) main_call3.v4 main_call3.call0.v0 select,
    unary main_arg13 main_v46 ((transpose S128x128 [1, 0] · transposes_S128x128_S128x128_1_0) : (⟨S128x128, .f32⟩ : BufTy).Contents (Elt F) → (⟨S128x128, .f32⟩ : BufTy).Contents (Elt F)),
    binary main_v45 main_v46 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg14 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)),
    binary main_v47 main_v49 main_v50 (addf : (⟨S100000x128, .f32⟩ : BufTy).Contents (Elt F) → (⟨S100000x128, .f32⟩ : BufTy).Contents (Elt F) → (⟨S100000x128, .f32⟩ : BufTy).Contents (Elt F)),
    unary main_v50 main_v51 (Host.tanh : (⟨S100000x128, .f32⟩ : BufTy).Contents (Elt F) → (⟨S100000x128, .f32⟩ : BufTy).Contents (Elt F)),
    binary main_v51 main_v11 main_v52 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    unary main_arg15 main_v53 ((transpose S256x128 [1, 0] · transposes_S128x256_S256x128_1_0) : (⟨S128x256, .f32⟩ : BufTy).Contents (Elt F) → (⟨S256x128, .f32⟩ : BufTy).Contents (Elt F)),
    binary main_v52 main_v53 main_v54 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg16 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v54 main_v56 main_v57 (addf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3C23D70A#32),
    TRef.nullary main_call4.cst (constant S_ .f32 0x00000000#32),
    TRef.unary main_call4.cst main_call4.v0 (broadcastInDim S100000x128 ![] bcast_S_S100000x128),
    TRef.binary (.of main_v57 : TRef sig ⟨S100000x128, .f32⟩) main_call4.v0 main_call4.v1 (cmpf .oge),
    TRef.unary (.of main_cst_4 : TRef sig ⟨S_, .f32⟩) main_call4.v2 id,
    TRef.unary main_call4.v2 main_call4.v3 (broadcastInDim S100000x128 ![] bcast_S_S100000x128),
    TRef.binary main_call4.v3 (.of main_v57 : TRef sig ⟨S100000x128, .f32⟩) main_call4.v4 mulf,
    TRef.ternary main_call4.v1 (.of main_v57 : TRef sig ⟨S100000x128, .f32⟩) main_call4.v4 main_call4.call0.v0 select,
    unary main_arg17 main_v59 ((transpose S128x64 [1, 0] · transposes_S64x128_S128x64_1_0) : (⟨S64x128, .f32⟩ : BufTy).Contents (Elt F) → (⟨S128x64, .f32⟩ : BufTy).Contents (Elt F)),
    binary main_v58 main_v59 main_v60 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg18 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v60 main_v62 main_v63 (addf : (⟨S100000x64, .f32⟩ : BufTy).Contents (Elt F) → (⟨S100000x64, .f32⟩ : BufTy).Contents (Elt F) → (⟨S100000x64, .f32⟩ : BufTy).Contents (Elt F)),
    unary main_v63 main_v64 (Host.tanh : (⟨S100000x64, .f32⟩ : BufTy).Contents (Elt F) → (⟨S100000x64, .f32⟩ : BufTy).Contents (Elt F)) ]

-- ninety-eight binds re-associated: the rewrite under the chain recurses once per statement
set_option maxRecDepth 4096 in
set_option maxHeartbeats 4000000 in
/-- @main is that straight line: with the two windows and the outlined functions unfolded at their
    calls and sequencing re-associated, both sides are one chain of steps. -/
theorem main_eq (c : Dev nD) : main (F := F) c = seq ops := by
  simp only [main, main_part0, main_part1, fn_leaky_relu.body, fn_where.body, fn_relu.body, seq, bind_assoc, pure_bind]

/-- The signature scopes no buffer. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

set_option maxRecDepth 8192 in
/-- Every operation touches buffers of the device only. -/
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub .., ternary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub ..,
    unary_bufs_sub .., reshape_bufs_sub .., nullary_bufs_sub .., unary_bufs_sub .., unary_bufs_sub .., ternary_bufs_sub ..,
    binary_bufs_sub .., unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub .., ternary_bufs_sub ..,
    unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub .., ternary_bufs_sub ..,
    unary_bufs_sub .., binary_bufs_sub .., unary_bufs_sub .., unary_bufs_sub .., binary_bufs_sub .., unary_bufs_sub ..,
    binary_bufs_sub .., unary_bufs_sub ..,
    binary_bufs_sub .., unary_bufs_sub .., unary_bufs_sub .., binary_bufs_sub .., nullary_bufs_sub ..,
    nullary_bufs_sub .., unary_bufs_sub .., binary_bufs_sub .., unary_bufs_sub .., unary_bufs_sub .., binary_bufs_sub .., ternary_bufs_sub ..,
    unary_bufs_sub .., binary_bufs_sub .., unary_bufs_sub .., unary_bufs_sub .., binary_bufs_sub .., unary_bufs_sub ..⟩

/-- On the one device, for any float values, from any memory with zero counters: every weakly fair
    execution of @main terminates, and every final state has each buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefVal.lean ====
/-
  The reference's run read back: its result buffer ends holding the composition of its stages on the argument
  arrays (`refOut`), and every argument buffer ends as it started.
-/
import proofs.«411107_j14697378087542_2_alg».proof.Proof.RefRun
import proofs.«411107_j14697378087542_2_alg».proof.Proof.RDefs

noncomputable section

namespace Cert.ReferenceIdeal.RVal

open Cert.ReferenceIdeal Cert.ReferenceIdeal.Gen Idealize.ShloMosaic Idealize.ShloMosaic.TcCoe Idealize.SL.Sem Idealize.ShloMosaic.StableHlo
open Cert.ReferenceIdeal.RefRun

attribute [local irreducible] Host.gather Host.scatterAdd

set_option maxRecDepth 16384 in
set_option maxHeartbeats 4000000 in
/-- The fold of the program's operations at the result buffer is the composition of the stages. -/
theorem out_eq (V : Valuation τ sig (Elt Ideal)) :
    after (ops (F := Ideal)) V (main_v64 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) (V (main_arg13 : DevRef τ sig)) (V (main_arg14 : DevRef τ sig))
          (V (main_arg15 : DevRef τ sig)) (V (main_arg16 : DevRef τ sig)) (V (main_arg17 : DevRef τ sig))
          (V (main_arg18 : DevRef τ sig)) := by
  after_results_simp
  rfl

set_option maxRecDepth 16384 in
set_option maxHeartbeats 4000000 in
/-- No operation writes an argument buffer: the fold at each of them is what it started from. -/
theorem args_eq (V : Valuation τ sig (Elt Ideal)) :
    after (ops (F := Ideal)) V (main_arg0 : DevRef τ sig) = V (main_arg0 : DevRef τ sig)
    ∧ after (ops (F := Ideal)) V (main_arg1 : DevRef τ sig) = V (main_arg1 : DevRef τ sig)
    ∧ after (ops (F := Ideal)) V (main_arg2 : DevRef τ sig) = V (main_arg2 : DevRef τ sig)
    ∧ after (ops (F := Ideal)) V (main_arg3 : DevRef τ sig) = V (main_arg3 : DevRef τ sig)
    ∧ after (ops (F := Ideal)) V (main_arg4 : DevRef τ sig) = V (main_arg4 : DevRef τ sig)
    ∧ after (ops (F := Ideal)) V (main_arg5 : DevRef τ sig) = V (main_arg5 : DevRef τ sig)
    ∧ after (ops (F := Ideal)) V (main_arg6 : DevRef τ sig) = V (main_arg6 : DevRef τ sig)
    ∧ after (ops (F := Ideal)) V (main_arg7 : DevRef τ sig) = V (main_arg7 : DevRef τ sig)
    ∧ after (ops (F := Ideal)) V (main_arg8 : DevRef τ sig) = V (main_arg8 : DevRef τ sig)
    ∧ after (ops (F := Ideal)) V (main_arg9 : DevRef τ sig) = V (main_arg9 : DevRef τ sig)
    ∧ after (ops (F := Ideal)) V (main_arg10 : DevRef τ sig) = V (main_arg10 : DevRef τ sig)
    ∧ after (ops (F := Ideal)) V (main_arg11 : DevRef τ sig) = V (main_arg11 : DevRef τ sig)
    ∧ after (ops (F := Ideal)) V (main_arg12 : DevRef τ sig) = V (main_arg12 : DevRef τ sig)
    ∧ after (ops (F := Ideal)) V (main_arg13 : DevRef τ sig) = V (main_arg13 : DevRef τ sig)
    ∧ after (ops (F := Ideal)) V (main_arg14 : DevRef τ sig) = V (main_arg14 : DevRef τ sig)
    ∧ after (ops (F := Ideal)) V (main_arg15 : DevRef τ sig) = V (main_arg15 : DevRef τ sig)
    ∧ after (ops (F := Ideal)) V (main_arg16 : DevRef τ sig) = V (main_arg16 : DevRef τ sig)
    ∧ after (ops (F := Ideal)) V (main_arg17 : DevRef τ sig) = V (main_arg17 : DevRef τ sig)
    ∧ after (ops (F := Ideal)) V (main_arg18 : DevRef τ sig) = V (main_arg18 : DevRef τ sig) := by
  refine ⟨?_, ?_, ?_, ?_, ?_, ?_, ?_, ?_, ?_, ?_, ?_, ?_, ?_, ?_, ?_, ?_, ?_, ?_, ?_⟩ <;> after_results_simp

end Cert.ReferenceIdeal.RVal

end
-- ==== Proof.Pre.lean ====
import proofs.«411107_j14697378087542_2_alg».proof.Pre_finite_inputs
import proofs.«411107_j14697378087542_2_alg».proof.Proof.Gen.Pre_finite_inputs
import Idealize.ShloMosaic.PureOps.Ideal
import Idealize.ShloMosaic.Lib.ValueIdx
import Idealize.ShloMosaic.Lib.StableHlo.Predicate
import Idealize.ShloMosaic.Lib.ReduceAll

noncomputable section

namespace Cert.PreVal

open Cert.Pre_finite_inputs Cert.Pre_finite_inputs.Gen Idealize.ShloMosaic Idealize.ShloMosaic.ValueIdx

/-- The scalar shape has exactly one index. -/
instance subsingleton_scalar_idx : Subsingleton S_.Idx := ⟨fun a b => funext fun d => d.elim0⟩

/-- Row 0 of the [2 × 400000] array, sliced out as a [1 × 400000] row and flattened to a vector, read at position
    `e`: row-major position `0 · 400000 + e` of the row is entry `(0, e)` of the array. -/
theorem row0_read (a1 : IVec S2x400000 32) (e : Fin 400000) :
    shapeCast S400000 (extractStridedSlice S1x400000 ![0, 0] a1 Facts.slices_S2x400000_S1x400000_0_0)
      Facts.shapeCasts_S1x400000_S400000 (ix1 e) = a1 (ix2 0 e) := by
  have hre : Shape.reshapeEquiv Facts.shapeCasts_S1x400000_S400000 (ix1 e) = ix2 (0 : Fin 1) e :=
    Shape.reshapeEquiv_eq_of_rowMajor _ (by
      rw [Shape.rowMajor_val_two, Shape.rowMajor_val_one]
      show (0 : Nat) * 400000 + e.val = e.val
      omega)
  unfold shapeCast extractStridedSlice
  rw [hre]
  refine congrArg a1 (funext fun a => ?_)
  match a with
  | ⟨0, _⟩ => rfl
  | ⟨1, _⟩ => exact Fin.ext (show 0 + e.val = e.val by omega)

/-- The last part of the printed conjunction, read at its last two conjuncts: the reduction by `and` of the
    comparison vector is 1, so the comparison is 1 at every position; the compared vector at position `e` is entry
    `(0, e)` of the array and the broadcast constant is the constant. -/
theorem part5_ok (a1 : IVec S2x400000 32) (v83 : IVec S_ 1) (v84 : FVec Ideal S64 .f32) (c : FVec Ideal S_ .f32)
    (h : fn_part5 (F := Ideal) a1 v83 v84 c = fun _ => 1#1) (e : Fin 400000) :
    IntOp.cmpi .sge (a1 (ix2 0 e)) 0#32 = 1#1 ∧ IntOp.cmpi .slt (a1 (ix2 0 e)) 100000#32 = 1#1 := by
  obtain ⟨h1, hlt⟩ := IntOp.andi_eq_one.1 (congrFun h ix0)
  obtain ⟨_, hge⟩ := IntOp.andi_eq_one.1 h1
  have hge' := Host.reduce_andi_all _ _ _ _ _ hge (ix1 e)
  have hlt' := Host.reduce_andi_all _ _ _ _ _ hlt (ix1 e)
  have hr := row0_read a1 e
  constructor
  · rw [← hr]; exact hge'
  · rw [← hr]; exact hlt'

/-- The precondition's last two conjuncts, read: every entry of row 0 of the edge-index array (the source
    indices) is at least 0 and below 100000, as signed 32-bit words. -/
theorem src_ok (a0 : FVec Ideal S100000x16 .f32) (a1 : IVec S2x400000 32) (a2 : FVec Ideal S400000x1 .f32)
    (a3 : FVec Ideal S128x16 .f32) (a4 : FVec Ideal S128 .f32) (a5 : FVec Ideal S128x128 .f32) (a6 : FVec Ideal S128 .f32)
    (a7 : FVec Ideal S128x1 .f32) (a8 : FVec Ideal S128 .f32) (a9 : FVec Ideal S128x128 .f32) (a10 : FVec Ideal S128 .f32)
    (a11 : FVec Ideal S128x128 .f32) (a12 : FVec Ideal S128 .f32) (a13 : FVec Ideal S128x128 .f32) (a14 : FVec Ideal S128 .f32)
    (a15 : FVec Ideal S128x256 .f32) (a16 : FVec Ideal S128 .f32) (a17 : FVec Ideal S64x128 .f32) (a18 : FVec Ideal S64 .f32)
    (h : Cert.Pre_finite_inputs.fn (F := Ideal) a0 a1 a2 a3 a4 a5 a6 a7 a8 a9 a10 a11 a12 a13 a14 a15 a16 a17 a18 = fun _ => 1#1)
    (e : Fin 400000) :
    IntOp.cmpi .sge (a1 (ix2 0 e)) 0#32 = 1#1 ∧ IntOp.cmpi .slt (a1 (ix2 0 e)) 100000#32 = 1#1 := by
  -- the six printed parts call one another in turn: the whole conjunction is the last part at the values the
  -- earlier parts computed
  exact part5_ok a1 _ _ _ h e

end Cert.PreVal

end
-- ==== Proof.lean ====
/-
  The certificate.  Three frames: the kernel program at both instances by its generated frame, the reference by
  its run read back.  The idealization rewrote nothing, so there is nothing to preserve.  The value claim, under
  the precondition that every source index of the edge list lies in [0, 100000) (outside it the reference's own
  gather indexes out of range and the kernel's guarded gather fills instead of clamping): both programs end with
  the same array, the reference's composition of its stages on the shared arguments.  The kernel reaches it through
  its two regions' row-wise networks, the host chain between them, and one regrouping of a finite sum: the layer
  after the skip connection sums the 256 products of the concatenated row at once in the reference and as two
  halves in the kernel, and a finite sum in the extended reals may be cut anywhere.
-/
import proofs.«411107_j14697378087542_2_alg».proof.Defs
import proofs.«411107_j14697378087542_2_alg».proof.Proof.Gen.Kernel.Frame
import proofs.«411107_j14697378087542_2_alg».proof.Proof.Gen.Pre_finite_inputs
import proofs.«411107_j14697378087542_2_alg».proof.Proof.KRun
import proofs.«411107_j14697378087542_2_alg».proof.Proof.Final
import proofs.«411107_j14697378087542_2_alg».proof.Proof.RefVal
import proofs.«411107_j14697378087542_2_alg».proof.Proof.Pre

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run read back, the result dropped. -/
theorem frame_ri : Cert.frame_ReferenceIdeal := fun m ρ _ =>
  (θ_run Cert.ReferenceIdeal.defs _ _).mono
    (fun r h c => by
      obtain ⟨a0, a1, a2, a3, a4, a5, a6, a7, a8, a9, a10, a11, a12, a13, a14, a15, a16, a17, a18⟩ := Cert.ReferenceIdeal.RVal.args_eq (StableHlo.launchContents m c)
      exact ⟨(h c Cert.ReferenceIdeal.main_arg0).trans a0,
        (h c Cert.ReferenceIdeal.main_arg1).trans a1,
        (h c Cert.ReferenceIdeal.main_arg2).trans a2,
        (h c Cert.ReferenceIdeal.main_arg3).trans a3,
        (h c Cert.ReferenceIdeal.main_arg4).trans a4,
        (h c Cert.ReferenceIdeal.main_arg5).trans a5,
        (h c Cert.ReferenceIdeal.main_arg6).trans a6,
        (h c Cert.ReferenceIdeal.main_arg7).trans a7,
        (h c Cert.ReferenceIdeal.main_arg8).trans a8,
        (h c Cert.ReferenceIdeal.main_arg9).trans a9,
        (h c Cert.ReferenceIdeal.main_arg10).trans a10,
        (h c Cert.ReferenceIdeal.main_arg11).trans a11,
        (h c Cert.ReferenceIdeal.main_arg12).trans a12,
        (h c Cert.ReferenceIdeal.main_arg13).trans a13,
        (h c Cert.ReferenceIdeal.main_arg14).trans a14,
        (h c Cert.ReferenceIdeal.main_arg15).trans a15,
        (h c Cert.ReferenceIdeal.main_arg16).trans a16,
        (h c Cert.ReferenceIdeal.main_arg17).trans a17,
        (h c Cert.ReferenceIdeal.main_arg18).trans a18⟩)
    (Cert.ReferenceIdeal.RefRun.run_main (F := Ideal) m ρ)

/-- Equal arguments give equal results of the reference's function. -/
theorem refOut_congr
    {a0 b0 : FVec Ideal Cert.ReferenceIdeal.S100000x16 .f32}
    {a1 b1 : IVec Cert.ReferenceIdeal.S2x400000 32}
    {a2 b2 : FVec Ideal Cert.ReferenceIdeal.S400000x1 .f32}
    {a3 b3 : FVec Ideal Cert.ReferenceIdeal.S128x16 .f32}
    {a4 b4 : FVec Ideal Cert.ReferenceIdeal.S128 .f32}
    {a5 b5 : FVec Ideal Cert.ReferenceIdeal.S128x128 .f32}
    {a6 b6 : FVec Ideal Cert.ReferenceIdeal.S128 .f32}
    {a7 b7 : FVec Ideal Cert.ReferenceIdeal.S128x1 .f32}
    {a8 b8 : FVec Ideal Cert.ReferenceIdeal.S128 .f32}
    {a9 b9 : FVec Ideal Cert.ReferenceIdeal.S128x128 .f32}
    {a10 b10 : FVec Ideal Cert.ReferenceIdeal.S128 .f32}
    {a11 b11 : FVec Ideal Cert.ReferenceIdeal.S128x128 .f32}
    {a12 b12 : FVec Ideal Cert.ReferenceIdeal.S128 .f32}
    {a13 b13 : FVec Ideal Cert.ReferenceIdeal.S128x128 .f32}
    {a14 b14 : FVec Ideal Cert.ReferenceIdeal.S128 .f32}
    {a15 b15 : FVec Ideal Cert.ReferenceIdeal.S128x256 .f32}
    {a16 b16 : FVec Ideal Cert.ReferenceIdeal.S128 .f32}
    {a17 b17 : FVec Ideal Cert.ReferenceIdeal.S64x128 .f32}
    {a18 b18 : FVec Ideal Cert.ReferenceIdeal.S64 .f32}
    (e0 : a0 = b0) (e1 : a1 = b1) (e2 : a2 = b2) (e3 : a3 = b3) (e4 : a4 = b4) (e5 : a5 = b5) (e6 : a6 = b6) (e7 : a7 = b7) (e8 : a8 = b8) (e9 : a9 = b9) (e10 : a10 = b10) (e11 : a11 = b11) (e12 : a12 = b12) (e13 : a13 = b13) (e14 : a14 = b14) (e15 : a15 = b15) (e16 : a16 = b16) (e17 : a17 = b17) (e18 : a18 = b18) :
    Cert.ReferenceIdeal.RVal.refOut a0 a1 a2 a3 a4 a5 a6 a7 a8 a9 a10 a11 a12 a13 a14 a15 a16 a17 a18
      = Cert.ReferenceIdeal.RVal.refOut b0 b1 b2 b3 b4 b5 b6 b7 b8 b9 b10 b11 b12 b13 b14 b15 b16 b17 b18 := by
  subst e0 e1 e2 e3 e4 e5 e6 e7 e8 e9 e10 e11 e12 e13 e14 e15 e16 e17 e18
  rfl

/-- The value claim. -/
theorem algebraic : Cert.algebraic_KernelIdeal_ReferenceIdeal := by
  intro m ρ m' ρ' hpre hagree
  have hs : ∀ (c : Dev Cert.KernelIdeal.nD) (e : Fin 400000),
      IntOp.cmpi .sge ((m ((c.tc : Thread Cert.KernelIdeal.nD Cert.KernelIdeal.τ).loc Cert.KernelIdeal.main_arg1)) (ix2 0 e)) 0#32 = 1#1 ∧ IntOp.cmpi .slt ((m ((c.tc : Thread Cert.KernelIdeal.nD Cert.KernelIdeal.τ).loc Cert.KernelIdeal.main_arg1)) (ix2 0 e)) 100000#32 = 1#1 :=
    fun c e => Cert.PreVal.src_ok _ _ _ _ _ _ _ _ _ _ _ _ _ _ _ _ _ _ _ (hpre c) e
  refine ⟨fun c => Cert.ReferenceIdeal.RVal.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.KVal.kernel_val m ρ c (hs c)), (h c).2⟩)
      (Cert.KernelIdeal.KVal.run_main (F := Ideal) m ρ)
  · refine (θ_run Cert.ReferenceIdeal.defs _ _).mono (fun r h c => ?_) (Cert.ReferenceIdeal.RefRun.run_main (F := Ideal) m' ρ')
    obtain ⟨e0, e1, e2, e3, e4, e5, e6, e7, e8, e9, e10, e11, e12, e13, e14, e15, e16, e17, e18⟩ := hagree c
    obtain ⟨a0, a1, a2, a3, a4, a5, a6, a7, a8, a9, a10, a11, a12, a13, a14, a15, a16, a17, a18⟩ := Cert.ReferenceIdeal.RVal.args_eq (StableHlo.launchContents m' c)
    refine ⟨?_, (h c Cert.ReferenceIdeal.main_arg0).trans a0,
      (h c Cert.ReferenceIdeal.main_arg1).trans a1,
      (h c Cert.ReferenceIdeal.main_arg2).trans a2,
      (h c Cert.ReferenceIdeal.main_arg3).trans a3,
      (h c Cert.ReferenceIdeal.main_arg4).trans a4,
      (h c Cert.ReferenceIdeal.main_arg5).trans a5,
      (h c Cert.ReferenceIdeal.main_arg6).trans a6,
      (h c Cert.ReferenceIdeal.main_arg7).trans a7,
      (h c Cert.ReferenceIdeal.main_arg8).trans a8,
      (h c Cert.ReferenceIdeal.main_arg9).trans a9,
      (h c Cert.ReferenceIdeal.main_arg10).trans a10,
      (h c Cert.ReferenceIdeal.main_arg11).trans a11,
      (h c Cert.ReferenceIdeal.main_arg12).trans a12,
      (h c Cert.ReferenceIdeal.main_arg13).trans a13,
      (h c Cert.ReferenceIdeal.main_arg14).trans a14,
      (h c Cert.ReferenceIdeal.main_arg15).trans a15,
      (h c Cert.ReferenceIdeal.main_arg16).trans a16,
      (h c Cert.ReferenceIdeal.main_arg17).trans a17,
      (h c Cert.ReferenceIdeal.main_arg18).trans a18⟩
    rw [h c Cert.ReferenceIdeal.main_v64, Cert.ReferenceIdeal.RVal.out_eq]
    exact refOut_congr e0 e1 e2 e3 e4 e5 e6 e7 e8 e9 e10 e11 e12 e13 e14 e15 e16 e17 e18

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
